-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x600000 : Shape := ⟨2, ![2, 600000]⟩
abbrev S100000 : Shape := ⟨1, ![100000]⟩
abbrev S64x16 : Shape := ⟨2, ![64, 16]⟩
abbrev S64 : Shape := ⟨1, ![64]⟩
abbrev S64x8 : Shape := ⟨2, ![64, 8]⟩
abbrev S64x6 : Shape := ⟨2, ![64, 6]⟩
abbrev S6x128 : Shape := ⟨2, ![6, 128]⟩
abbrev S128 : Shape := ⟨1, ![128]⟩
abbrev S128x128 : Shape := ⟨2, ![128, 128]⟩
abbrev S5x64 : Shape := ⟨2, ![5, 64]⟩
abbrev S6x64 : Shape := ⟨2, ![6, 64]⟩
abbrev S10x64 : Shape := ⟨2, ![10, 64]⟩
abbrev S192x128 : Shape := ⟨2, ![192, 128]⟩
abbrev S2x16 : Shape := ⟨2, ![2, 16]⟩
abbrev S8x16 : Shape := ⟨2, ![8, 16]⟩
abbrev S16 : Shape := ⟨1, ![16]⟩
abbrev S6x16 : Shape := ⟨2, ![6, 16]⟩
abbrev S304x128 : Shape := ⟨2, ![304, 128]⟩
abbrev S128x3 : Shape := ⟨2, ![128, 3]⟩
abbrev S3 : Shape := ⟨1, ![3]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S64x8 : S_.BroadcastsInDim S64x8 (![] : Fin 0 → Fin S64x8.rank)
  reducesTo_S64x8_S_d0_1 : S64x8.ReducesTo [0, 1] S_
  bcast_S_S64x6 : S_.BroadcastsInDim S64x6 (![] : Fin 0 → Fin S64x6.rank)
  reducesTo_S64x6_S_d0_1 : S64x6.ReducesTo [0, 1] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S5x64 : S_.BroadcastsInDim S5x64 (![] : Fin 0 → Fin S5x64.rank)
  reducesTo_S5x64_S_d0_1 : S5x64.ReducesTo [0, 1] S_
  bcast_S_S6x64 : S_.BroadcastsInDim S6x64 (![] : Fin 0 → Fin S6x64.rank)
  reducesTo_S6x64_S_d0_1 : S6x64.ReducesTo [0, 1] S_
  bcast_S_S10x64 : S_.BroadcastsInDim S10x64 (![] : Fin 0 → Fin S10x64.rank)
  reducesTo_S10x64_S_d0_1 : S10x64.ReducesTo [0, 1] S_
  bcast_S_S192x128 : S_.BroadcastsInDim S192x128 (![] : Fin 0 → Fin S192x128.rank)
  reducesTo_S192x128_S_d0_1 : S192x128.ReducesTo [0, 1] S_
  bcast_S_S2x16 : S_.BroadcastsInDim S2x16 (![] : Fin 0 → Fin S2x16.rank)
  reducesTo_S2x16_S_d0_1 : S2x16.ReducesTo [0, 1] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S6x16 : S_.BroadcastsInDim S6x16 (![] : Fin 0 → Fin S6x16.rank)
  reducesTo_S6x16_S_d0_1 : S6x16.ReducesTo [0, 1] S_
  bcast_S_S304x128 : S_.BroadcastsInDim S304x128 (![] : Fin 0 → Fin S304x128.rank)
  reducesTo_S304x128_S_d0_1 : S304x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_

variable [Facts]

def fn_part8 {F : FTy → Type} [FloatOps F] (main_arg6 : IVec S64 32) (main_v134 : IVec S_ 1) (main_v135 : IVec S64 32) : IVec S_ 1 :=
  let main_v136 : IVec S64 1 := cmpi .sge main_arg6 main_v135
  let main_c_54 : IVec S_ 32 := constantI S_ 32 2#32
  let main_v137 : IVec S64 32 := broadcastInDim S64 ![] bcast_S_S64 main_c_54
  let main_v138 : IVec S64 1 := cmpi .slt main_arg6 main_v137
  let main_v139 : IVec S64 1 := andi main_v136 main_v138
  let main_c_55 : IVec S_ 1 := constantI S_ 1 1#1
  let main_v140 : IVec S_ 1 := (fun x v => Host.reduce IntOp.andi x v reducesTo_S64_S_d0 h_S_) main_v139 main_c_55
  let main_v141 : IVec S_ 1 := andi main_v134 main_v140
  main_v141

def fn_part7 {F : FTy → Type} [FloatOps F] (main_arg4 : IVec S64x16 32) (main_arg5 : IVec S64x16 32) (main_arg6 : IVec S64 32) (main_v113 : IVec S_ 1) (main_v118 : IVec S64x16 1) (main_c_46 : IVec S_ 1) : IVec S_ 1 :=
  let main_v119 : IVec S_ 1 := (fun x v => Host.reduce IntOp.andi x v reducesTo_S64x16_S_d0_1 h_S_) main_v118 main_c_46
  let main_v120 : IVec S_ 1 := andi main_v113 main_v119
  let main_c_47 : IVec S_ 32 := constantI S_ 32 0#32
  let main_v121 : IVec S64x16 32 := broadcastInDim S64x16 ![] bcast_S_S64x16 main_c_47
  let main_v122 : IVec S64x16 1 := cmpi .sge main_arg4 main_v121
  let main_c_48 : IVec S_ 32 := constantI S_ 32 6#32
  let main_v123 : IVec S64x16 32 := broadcastInDim S64x16 ![] bcast_S_S64x16 main_c_48
  let main_v124 : IVec S64x16 1 := cmpi .slt main_arg4 main_v123
  let main_v125 : IVec S64x16 1 := andi main_v122 main_v124
  let main_c_49 : IVec S_ 1 := constantI S_ 1 1#1
  let main_v126 : IVec S_ 1 := (fun x v => Host.reduce IntOp.andi x v reducesTo_S64x16_S_d0_1 h_S_) main_v125 main_c_49
  let main_v127 : IVec S_ 1 := andi main_v120 main_v126
  let main_c_50 : IVec S_ 32 := constantI S_ 32 0#32
  let main_v128 : IVec S64x16 32 := broadcastInDim S64x16 ![] bcast_S_S64x16 main_c_50
  let main_v129 : IVec S64x16 1 := cmpi .sge main_arg5 main_v128
  let main_c_51 : IVec S_ 32 := constantI S_ 32 10#32
  let main_v130 : IVec S64x16 32 := broadcastInDim S64x16 ![] bcast_S_S64x16 main_c_51
  let main_v131 : IVec S64x16 1 := cmpi .slt main_arg5 main_v130
  let main_v132 : IVec S64x16 1 := andi main_v129 main_v131
  let main_c_52 : IVec S_ 1 := constantI S_ 1 1#1
  let main_v133 : IVec S_ 1 := (fun x v => Host.reduce IntOp.andi x v reducesTo_S64x16_S_d0_1 h_S_) main_v132 main_c_52
  let main_v134 : IVec S_ 1 := andi main_v127 main_v133
  let main_c_53 : IVec S_ 32 := constantI S_ 32 0#32
  let main_v135 : IVec S64 32 := broadcastInDim S64 ![] bcast_S_S64 main_c_53
  fn_part8 (F := F) main_arg6 main_v134 main_v135

def fn_part6 {F : FTy → Type} [FloatOps F] (main_arg3 : IVec S64x16 32) (main_arg4 : IVec S64x16 32) (main_arg5 : IVec S64x16 32) (main_arg6 : IVec S64 32) (main_arg27 : FVec F S128x3 .f32) (main_arg28 : FVec F S3 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x3 .f32 := Host.absf main_arg27
  let main_cst_40 : FVec F S_ .f32 := constant S_ .f32 0x7F800000#32
  let main_v105 : FVec F S128x3 .f32 := broadcastInDim S128x3 ![] bcast_S_S128x3 main_cst_40
  let main_v106 : IVec S128x3 1 := cmpf .olt main_v104 main_v105
  let main_c_41 : IVec S_ 1 := constantI S_ 1 1#1
  let main_v107 : IVec S_ 1 := (fun x v => Host.reduce IntOp.andi x v reducesTo_S128x3_S_d0_1 h_S_) main_v106 main_c_41
  let main_v108 : IVec S_ 1 := andi main_v103 main_v107
  let main_v109 : FVec F S3 .f32 := Host.absf main_arg28
  let main_cst_42 : FVec F S_ .f32 := constant S_ .f32 0x7F800000#32
  let main_v110 : FVec F S3 .f32 := broadcastInDim S3 ![] bcast_S_S3 main_cst_42
  let main_v111 : IVec S3 1 := cmpf .olt main_v109 main_v110
  let main_c_43 : IVec S_ 1 := constantI S_ 1 1#1
  let main_v112 : IVec S_ 1 := (fun x v => Host.reduce IntOp.andi x v reducesTo_S3_S_d0 h_S_) main_v111 main_c_43
  let main_v113 : IVec S_ 1 := andi main_v108 main_v112
  let main_c_44 : IVec S_ 32 := constantI S_ 32 0#32
  let main_v114 : IVec S64x16 32 := broadcastInDim S64x16 ![] bcast_S_S64x16 main_c_44
  let main_v115 : IVec S64x16 1 := cmpi .sge main_arg3 main_v114
  let main_c_45 : IVec S_ 32 := constantI S_ 32 5#32
  let main_v116 : IVec S64x16 32 := broadcastInDim S64x16 ![] bcast_S_S64x16 main_c_45
  let main_v117 : IVec S64x16 1 := cmpi .slt main_arg3 main_v116
  let main_v118 : IVec S64x16 1 := andi main_v115 main_v117
  let main_c_46 : IVec S_ 1 := constantI S_ 1 1#1
  fn_part7 (F := F) main_arg4 main_arg5 main_arg6 main_v113 main_v118 main_c_46

def fn_part5 {F : FTy → Type} [FloatOps F] (main_arg3 : IVec S64x16 32) (main_arg4 : IVec S64x16 32) (main_arg5 : IVec S64x16 32) (main_arg6 : IVec S64 32) (main_arg24 : FVec F S16 .f32) (main_arg25 : FVec F S304x128 .f32) (main_arg26 : FVec F S128 .f32) (main_arg27 : FVec F S128x3 .f32) (main_arg28 : FVec F S3 .f32) (main_v83 : IVec S_ 1) (main_v84 : FVec F S6x16 .f32) (main_cst_32 : FVec F S_ .f32) : IVec S_ 1 :=
  let main_v85 : FVec F S6x16 .f32 := broadcastInDim S6x16 ![] bcast_S_S6x16 main_cst_32
  let main_v86 : IVec S6x16 1 := cmpf .olt main_v84 main_v85
  let main_c_33 : IVec S_ 1 := constantI S_ 1 1#1
  let main_v87 : IVec S_ 1 := (fun x v => Host.reduce IntOp.andi x v reducesTo_S6x16_S_d0_1 h_S_) main_v86 main_c_33
  let main_v88 : IVec S_ 1 := andi main_v83 main_v87
  let main_v89 : FVec F S16 .f32 := Host.absf main_arg24
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S304x128 .f32 := Host.absf main_arg25
  let main_cst_36 : FVec F S_ .f32 := constant S_ .f32 0x7F800000#32
  let main_v95 : FVec F S304x128 .f32 := broadcastInDim S304x128 ![] bcast_S_S304x128 main_cst_36
  let main_v96 : IVec S304x128 1 := cmpf .olt main_v94 main_v95
  let main_c_37 : IVec S_ 1 := constantI S_ 1 1#1
  let main_v97 : IVec S_ 1 := (fun x v => Host.reduce IntOp.andi x v reducesTo_S304x128_S_d0_1 h_S_) main_v96 main_c_37
  let main_v98 : IVec S_ 1 := andi main_v93 main_v97
  let main_v99 : FVec F S128 .f32 := Host.absf main_arg26
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg3 main_arg4 main_arg5 main_arg6 main_arg27 main_arg28 main_v98 main_v101 main_c_39

def fn_part4 {F : FTy → Type} [FloatOps F] (main_arg3 : IVec S64x16 32) (main_arg4 : IVec S64x16 32) (main_arg5 : IVec S64x16 32) (main_arg6 : IVec S64 32) (main_arg20 : FVec F S2x16 .f32) (main_arg21 : FVec F S8x16 .f32) (main_arg22 : FVec F S16 .f32) (main_arg23 : FVec F S6x16 .f32) (main_arg24 : FVec F S16 .f32) (main_arg25 : FVec F S304x128 .f32) (main_arg26 : FVec F S128 .f32) (main_arg27 : FVec F S128x3 .f32) (main_arg28 : FVec F S3 .f32) (main_v63 : IVec S_ 1) (main_v67 : IVec S_ 1) : IVec S_ 1 :=
  let main_v68 : IVec S_ 1 := andi main_v63 main_v67
  let main_v69 : FVec F S2x16 .f32 := Host.absf main_arg20
  let main_cst_26 : FVec F S_ .f32 := constant S_ .f32 0x7F800000#32
  let main_v70 : FVec F S2x16 .f32 := broadcastInDim S2x16 ![] bcast_S_S2x16 main_cst_26
  let main_v71 : IVec S2x16 1 := cmpf .olt main_v69 main_v70
  let main_c_27 : IVec S_ 1 := constantI S_ 1 1#1
  let main_v72 : IVec S_ 1 := (fun x v => Host.reduce IntOp.andi x v reducesTo_S2x16_S_d0_1 h_S_) main_v71 main_c_27
  let main_v73 : IVec S_ 1 := andi main_v68 main_v72
  let main_v74 : FVec F S8x16 .f32 := Host.absf main_arg21
  let main_cst_28 : FVec F S_ .f32 := constant S_ .f32 0x7F800000#32
  let main_v75 : FVec F S8x16 .f32 := broadcastInDim S8x16 ![] bcast_S_S8x16 main_cst_28
  let main_v76 : IVec S8x16 1 := cmpf .olt main_v74 main_v75
  let main_c_29 : IVec S_ 1 := constantI S_ 1 1#1
  let main_v77 : IVec S_ 1 := (fun x v => Host.reduce IntOp.andi x v reducesTo_S8x16_S_d0_1 h_S_) main_v76 main_c_29
  let main_v78 : IVec S_ 1 := andi main_v73 main_v77
  let main_v79 : FVec F S16 .f32 := Host.absf main_arg22
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S6x16 .f32 := Host.absf main_arg23
  let main_cst_32 : FVec F S_ .f32 := constant S_ .f32 0x7F800000#32
  fn_part5 (F := F) main_arg3 main_arg4 main_arg5 main_arg6 main_arg24 main_arg25 main_arg26 main_arg27 main_arg28 main_v83 main_v84 main_cst_32

def fn_part3 {F : FTy → Type} [FloatOps F] (main_arg3 : IVec S64x16 32) (main_arg4 : IVec S64x16 32) (main_arg5 : IVec S64x16 32) (main_arg6 : IVec S64 32) (main_arg17 : FVec F S10x64 .f32) (main_arg18 : FVec F S192x128 .f32) (main_arg19 : FVec F S128 .f32) (main_arg20 : FVec F S2x16 .f32) (main_arg21 : FVec F S8x16 .f32) (main_arg22 : FVec F S16 .f32) (main_arg23 : FVec F S6x16 .f32) (main_arg24 : FVec F S16 .f32) (main_arg25 : FVec F S304x128 .f32) (main_arg26 : FVec F S128 .f32) (main_arg27 : FVec F S128x3 .f32) (main_arg28 : FVec F S3 .f32) (main_v48 : IVec S_ 1) (main_v49 : FVec F S6x64 .f32) (main_v50 : FVec F S6x64 .f32) : IVec S_ 1 :=
  let main_v51 : IVec S6x64 1 := cmpf .olt main_v49 main_v50
  let main_c_19 : IVec S_ 1 := constantI S_ 1 1#1
  let main_v52 : IVec S_ 1 := (fun x v => Host.reduce IntOp.andi x v reducesTo_S6x64_S_d0_1 h_S_) main_v51 main_c_19
  let main_v53 : IVec S_ 1 := andi main_v48 main_v52
  let main_v54 : FVec F S10x64 .f32 := Host.absf main_arg17
  let main_cst_20 : FVec F S_ .f32 := constant S_ .f32 0x7F800000#32
  let main_v55 : FVec F S10x64 .f32 := broadcastInDim S10x64 ![] bcast_S_S10x64 main_cst_20
  let main_v56 : IVec S10x64 1 := cmpf .olt main_v54 main_v55
  let main_c_21 : IVec S_ 1 := constantI S_ 1 1#1
  let main_v57 : IVec S_ 1 := (fun x v => Host.reduce IntOp.andi x v reducesTo_S10x64_S_d0_1 h_S_) main_v56 main_c_21
  let main_v58 : IVec S_ 1 := andi main_v53 main_v57
  let main_v59 : FVec F S192x128 .f32 := Host.absf main_arg18
  let main_cst_22 : FVec F S_ .f32 := constant S_ .f32 0x7F800000#32
  let main_v60 : FVec F S192x128 .f32 := broadcastInDim S192x128 ![] bcast_S_S192x128 main_cst_22
  let main_v61 : IVec S192x128 1 := cmpf .olt main_v59 main_v60
  let main_c_23 : IVec S_ 1 := constantI S_ 1 1#1
  let main_v62 : IVec S_ 1 := (fun x v => Host.reduce IntOp.andi x v reducesTo_S192x128_S_d0_1 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg3 main_arg4 main_arg5 main_arg6 main_arg20 main_arg21 main_arg22 main_arg23 main_arg24 main_arg25 main_arg26 main_arg27 main_arg28 main_v63 main_v67

def fn_part2 {F : FTy → Type} [FloatOps F] (main_arg3 : IVec S64x16 32) (main_arg4 : IVec S64x16 32) (main_arg5 : IVec S64x16 32) (main_arg6 : IVec S64 32) (main_arg13 : FVec F S128x128 .f32) (main_arg14 : FVec F S128 .f32) (main_arg15 : FVec F S5x64 .f32) (main_arg16 : FVec F S6x64 .f32) (main_arg17 : FVec F S10x64 .f32) (main_arg18 : FVec F S192x128 .f32) (main_arg19 : FVec F S128 .f32) (main_arg20 : FVec F S2x16 .f32) (main_arg21 : FVec F S8x16 .f32) (main_arg22 : FVec F S16 .f32) (main_arg23 : FVec F S6x16 .f32) (main_arg24 : FVec F S16 .f32) (main_arg25 : FVec F S304x128 .f32) (main_arg26 : FVec F S128 .f32) (main_arg27 : FVec F S128x3 .f32) (main_arg28 : FVec F S3 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S5x64 .f32 := Host.absf main_arg15
  let main_cst_16 : FVec F S_ .f32 := constant S_ .f32 0x7F800000#32
  let main_v45 : FVec F S5x64 .f32 := broadcastInDim S5x64 ![] bcast_S_S5x64 main_cst_16
  let main_v46 : IVec S5x64 1 := cmpf .olt main_v44 main_v45
  let main_c_17 : IVec S_ 1 := constantI S_ 1 1#1
  let main_v47 : IVec S_ 1 := (fun x v => Host.reduce IntOp.andi x v reducesTo_S5x64_S_d0_1 h_S_) main_v46 main_c_17
  let main_v48 : IVec S_ 1 := andi main_v43 main_v47
  let main_v49 : FVec F S6x64 .f32 := Host.absf main_arg16
  let main_cst_18 : FVec F S_ .f32 := constant S_ .f32 0x7F800000#32
  let main_v50 : FVec F S6x64 .f32 := broadcastInDim S6x64 ![] bcast_S_S6x64 main_cst_18
  fn_part3 (F := F) main_arg3 main_arg4 main_arg5 main_arg6 main_arg17 main_arg18 main_arg19 main_arg20 main_arg21 main_arg22 main_arg23 main_arg24 main_arg25 main_arg26 main_arg27 main_arg28 main_v48 main_v49 main_v50

def fn_part1 {F : FTy → Type} [FloatOps F] (main_arg3 : IVec S64x16 32) (main_arg4 : IVec S64x16 32) (main_arg5 : IVec S64x16 32) (main_arg6 : IVec S64 32) (main_arg10 : FVec F S128 .f32) (main_arg11 : FVec F S128x128 .f32) (main_arg12 : FVec F S128 .f32) (main_arg13 : FVec F S128x128 .f32) (main_arg14 : FVec F S128 .f32) (main_arg15 : FVec F S5x64 .f32) (main_arg16 : FVec F S6x64 .f32) (main_arg17 : FVec F S10x64 .f32) (main_arg18 : FVec F S192x128 .f32) (main_arg19 : FVec F S128 .f32) (main_arg20 : FVec F S2x16 .f32) (main_arg21 : FVec F S8x16 .f32) (main_arg22 : FVec F S16 .f32) (main_arg23 : FVec F S6x16 .f32) (main_arg24 : FVec F S16 .f32) (main_arg25 : FVec F S304x128 .f32) (main_arg26 : FVec F S128 .f32) (main_arg27 : FVec F S128x3 .f32) (main_arg28 : FVec F S3 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg4 main_arg5 main_arg6 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S100000x6 .f32) (main_arg1 : IVec S2x600000 32) (main_arg2 : IVec S100000 32) (main_arg3 : IVec S64x16 32) (main_arg4 : IVec S64x16 32) (main_arg5 : IVec S64x16 32) (main_arg6 : IVec S64 32) (main_arg7 : FVec F S64x8 .f32) (main_arg8 : FVec F S64x6 .f32) (main_arg9 : FVec F S6x128 .f32) (main_arg10 : FVec F S128 .f32) (main_arg11 : FVec F S128x128 .f32) (main_arg12 : FVec F S128 .f32) (main_arg13 : FVec F S128x128 .f32) (main_arg14 : FVec F S128 .f32) (main_arg15 : FVec F S5x64 .f32) (main_arg16 : FVec F S6x64 .f32) (main_arg17 : FVec F S10x64 .f32) (main_arg18 : FVec F S192x128 .f32) (main_arg19 : FVec F S128 .f32) (main_arg20 : FVec F S2x16 .f32) (main_arg21 : FVec F S8x16 .f32) (main_arg22 : FVec F S16 .f32) (main_arg23 : FVec F S6x16 .f32) (main_arg24 : FVec F S16 .f32) (main_arg25 : FVec F S304x128 .f32) (main_arg26 : FVec F S128 .f32) (main_arg27 : FVec F S128x3 .f32) (main_arg28 : FVec F S3 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S64x8 .f32 := Host.absf main_arg7
  let main_cst_0 : FVec F S_ .f32 := constant S_ .f32 0x7F800000#32
  let main_v5 : FVec F S64x8 .f32 := broadcastInDim S64x8 ![] bcast_S_S64x8 main_cst_0
  let main_v6 : IVec S64x8 1 := cmpf .olt main_v4 main_v5
  let main_c_1 : IVec S_ 1 := constantI S_ 1 1#1
  let main_v7 : IVec S_ 1 := (fun x v => Host.reduce IntOp.andi x v reducesTo_S64x8_S_d0_1 h_S_) main_v6 main_c_1
  let main_v8 : IVec S_ 1 := andi main_v3 main_v7
  let main_v9 : FVec F S64x6 .f32 := Host.absf main_arg8
  let main_cst_2 : FVec F S_ .f32 := constant S_ .f32 0x7F800000#32
  let main_v10 : FVec F S64x6 .f32 := broadcastInDim S64x6 ![] bcast_S_S64x6 main_cst_2
  let main_v11 : IVec S64x6 1 := cmpf .olt main_v9 main_v10
  let main_c_3 : IVec S_ 1 := constantI S_ 1 1#1
  let main_v12 : IVec S_ 1 := (fun x v => Host.reduce IntOp.andi x v reducesTo_S64x6_S_d0_1 h_S_) main_v11 main_c_3
  let main_v13 : IVec S_ 1 := andi main_v8 main_v12
  let main_v14 : FVec F S6x128 .f32 := Host.absf main_arg9
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg3 main_arg4 main_arg5 main_arg6 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100000x6 : Shape := ⟨2, ![100000, 6]⟩
abbrev S2x600000 : Shape := ⟨2, ![2, 600000]⟩
abbrev S100000 : Shape := ⟨1, ![100000]⟩
abbrev S64x16 : Shape := ⟨2, ![64, 16]⟩
abbrev S64 : Shape := ⟨1, ![64]⟩
abbrev S64x8 : Shape := ⟨2, ![64, 8]⟩
abbrev S64x6 : Shape := ⟨2, ![64, 6]⟩
abbrev S6x128 : Shape := ⟨2, ![6, 128]⟩
abbrev S128 : Shape := ⟨1, ![128]⟩
abbrev S128x128 : Shape := ⟨2, ![128, 128]⟩
abbrev S5x64 : Shape := ⟨2, ![5, 64]⟩
abbrev S6x64 : Shape := ⟨2, ![6, 64]⟩
abbrev S10x64 : Shape := ⟨2, ![10, 64]⟩
abbrev S192x128 : Shape := ⟨2, ![192, 128]⟩
abbrev S2x16 : Shape := ⟨2, ![2, 16]⟩
abbrev S8x16 : Shape := ⟨2, ![8, 16]⟩
abbrev S16 : Shape := ⟨1, ![16]⟩
abbrev S6x16 : Shape := ⟨2, ![6, 16]⟩
abbrev S304x128 : Shape := ⟨2, ![304, 128]⟩
abbrev S128x3 : Shape := ⟨2, ![128, 3]⟩
abbrev S3 : Shape := ⟨1, ![3]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x128 : Shape := ⟨2, ![100000, 128]⟩
abbrev S5000x6 : Shape := ⟨2, ![5000, 6]⟩
abbrev S5000x128 : Shape := ⟨2, ![5000, 128]⟩
abbrev S700000x128 : Shape := ⟨2, ![700000, 128]⟩
abbrev S1x128 : Shape := ⟨2, ![1, 128]⟩
abbrev S100000x1 : Shape := ⟨2, ![100000, 1]⟩
abbrev S64x128 : Shape := ⟨2, ![64, 128]⟩
abbrev S64x1 : Shape := ⟨2, ![64, 1]⟩
abbrev S5000x1 : Shape := ⟨2, ![5000, 1]⟩
abbrev S5000x64 : Shape := ⟨2, ![5000, 64]⟩
abbrev S1x16 : Shape := ⟨2, ![1, 16]⟩
abbrev S1x3 : Shape := ⟨2, ![1, 3]⟩
abbrev S64x3 : Shape := ⟨2, ![64, 3]⟩
abbrev S64x5 : Shape := ⟨2, ![64, 5]⟩
abbrev S64x10 : Shape := ⟨2, ![64, 10]⟩
abbrev S64x64 : Shape := ⟨2, ![64, 64]⟩
abbrev S64x192 : Shape := ⟨2, ![64, 192]⟩
abbrev S64x2 : Shape := ⟨2, ![64, 2]⟩
abbrev S64x304 : Shape := ⟨2, ![64, 304]⟩

abbrev nBuf : Space → Nat
  | .hbm => 119
  | .vmem => 41
  | .smem => 0
  | _ => 0

abbrev bufTy : (tb : Table) → Fin (tcTables nBuf tb) → BufTy
  | .hbm, ⟨0, _⟩ => ⟨S100000x6, .f32⟩
  | .hbm, ⟨1, _⟩ => ⟨S2x600000, .i32⟩
  | .hbm, ⟨2, _⟩ => ⟨S100000, .i32⟩
  | .hbm, ⟨3, _⟩ => ⟨S64x16, .i32⟩
  | .hbm, ⟨4, _⟩ => ⟨S64x16, .i32⟩
  | .hbm, ⟨5, _⟩ => ⟨S64x16, .i32⟩
  | .hbm, ⟨6, _⟩ => ⟨S64, .i32⟩
  | .hbm, ⟨7, _⟩ => ⟨S64x8, .f32⟩
  | .hbm, ⟨8, _⟩ => ⟨S64x6, .f32⟩
  | .hbm, ⟨9, _⟩ => ⟨S6x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S5x64, .f32⟩
  | .hbm, ⟨16, _⟩ => ⟨S6x64, .f32⟩
  | .hbm, ⟨17, _⟩ => ⟨S10x64, .f32⟩
  | .hbm, ⟨18, _⟩ => ⟨S192x128, .f32⟩
  | .hbm, ⟨19, _⟩ => ⟨S128, .f32⟩
  | .hbm, ⟨20, _⟩ => ⟨S2x16, .f32⟩
  | .hbm, ⟨21, _⟩ => ⟨S8x16, .f32⟩
  | .hbm, ⟨22, _⟩ => ⟨S16, .f32⟩
  | .hbm, ⟨23, _⟩ => ⟨S6x16, .f32⟩
  | .hbm, ⟨24, _⟩ => ⟨S16, .f32⟩
  | .hbm, ⟨25, _⟩ => ⟨S304x128, .f32⟩
  | .hbm, ⟨26, _⟩ => ⟨S128, .f32⟩
  | .hbm, ⟨27, _⟩ => ⟨S128x3, .f32⟩
  | .hbm, ⟨28, _⟩ => ⟨S3, .f32⟩
  | .hbm, ⟨29, _⟩ => ⟨S100000, .i32⟩
  | .hbm, ⟨30, _⟩ => ⟨S1x600000, .i32⟩
  | .hbm, ⟨31, _⟩ => ⟨S600000, .i32⟩
  | .hbm, ⟨32, _⟩ => ⟨S700000, .i32⟩
  | .hbm, ⟨33, _⟩ => ⟨S1x600000, .i32⟩
  | .hbm, ⟨34, _⟩ => ⟨S600000, .i32⟩
  | .hbm, ⟨35, _⟩ => ⟨S700000, .i32⟩
  | .hbm, ⟨36, _⟩ => ⟨S_, .f32⟩
  | .hbm, ⟨37, _⟩ => ⟨S700000, .f32⟩
  | .hbm, ⟨38, _⟩ => ⟨S_, .f32⟩
  | .hbm, ⟨39, _⟩ => ⟨S100000, .f32⟩
  | .hbm, ⟨40, _⟩ => ⟨S700000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000, .f32⟩
  | .hbm, ⟨46, _⟩ => ⟨S_, .i32⟩
  | .hbm, ⟨47, _⟩ => ⟨S700000, .i32⟩
  | .hbm, ⟨48, _⟩ => ⟨S700000, .i1⟩
  | .hbm, ⟨49, _⟩ => ⟨S_, .i32⟩
  | .hbm, ⟨50, _⟩ => ⟨S700000, .i32⟩
  | .hbm, ⟨51, _⟩ => ⟨S700000, .i32⟩
  | .hbm, ⟨52, _⟩ => ⟨S700000, .i32⟩
  | .hbm, ⟨53, _⟩ => ⟨S700000x1, .i32⟩
  | .hbm, ⟨54, _⟩ => ⟨S700000, .f32⟩
  | .hbm, ⟨55, _⟩ => ⟨S_, .i32⟩
  | .hbm, ⟨56, _⟩ => ⟨S700000, .i32⟩
  | .hbm, ⟨57, _⟩ => ⟨S700000, .i1⟩
  | .hbm, ⟨58, _⟩ => ⟨S_, .i32⟩
  | .hbm, ⟨59, _⟩ => ⟨S700000, .i32⟩
  | .hbm, ⟨60, _⟩ => ⟨S700000, .i32⟩
  | .hbm, ⟨61, _⟩ => ⟨S700000, .i32⟩
  | .hbm, ⟨62, _⟩ => ⟨S700000x1, .i32⟩
  | .hbm, ⟨63, _⟩ => ⟨S700000, .f32⟩
  | .hbm, ⟨64, _⟩ => ⟨S700000, .f32⟩
  | .hbm, ⟨65, _⟩ => ⟨S700000x1, .f32⟩
  | .hbm, ⟨66, _⟩ => ⟨S100000x128, .f32⟩
  | .hbm, ⟨67, _⟩ => ⟨S_, .i32⟩
  | .hbm, ⟨68, _⟩ => ⟨S700000, .i32⟩
  | .hbm, ⟨69, _⟩ => ⟨S700000, .i1⟩
  | .hbm, ⟨70, _⟩ => ⟨S_, .i32⟩
  | .hbm, ⟨71, _⟩ => ⟨S700000, .i32⟩
  | .hbm, ⟨72, _⟩ => ⟨S700000, .i32⟩
  | .hbm, ⟨73, _⟩ => ⟨S700000, .i32⟩
  | .hbm, ⟨74, _⟩ => ⟨S700000x1, .i32⟩
  | .hbm, ⟨75, _⟩ => ⟨S700000x128, .f32⟩
  | .hbm, ⟨76, _⟩ => ⟨S700000x128, .f32⟩
  | .hbm, ⟨77, _⟩ => ⟨S700000x128, .f32⟩
  | .hbm, ⟨78, _⟩ => ⟨S_, .f32⟩
  | .hbm, ⟨79, _⟩ => ⟨S100000x128, .f32⟩
  | .hbm, ⟨80, _⟩ => ⟨S700000x1, .i32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S700000, .i32⟩
  | .hbm, ⟨91, _⟩ => ⟨S700000, .i1⟩
  | .hbm, ⟨92, _⟩ => ⟨S_, .i32⟩
  | .hbm, ⟨93, _⟩ => ⟨S700000, .i32⟩
  | .hbm, ⟨94, _⟩ => ⟨S700000, .i32⟩
  | .hbm, ⟨95, _⟩ => ⟨S700000, .i32⟩
  | .hbm, ⟨96, _⟩ => ⟨S700000x1, .i32⟩
  | .hbm, ⟨97, _⟩ => ⟨S700000x128, .f32⟩
  | .hbm, ⟨98, _⟩ => ⟨S700000x128, .f32⟩
  | .hbm, ⟨99, _⟩ => ⟨S700000x128, .f32⟩
  | .hbm, ⟨100, _⟩ => ⟨S_, .f32⟩
  | .hbm, ⟨101, _⟩ => ⟨S100000x128, .f32⟩
  | .hbm, ⟨102, _⟩ => ⟨S700000x1, .i32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S100000x1, .i32⟩
  | .hbm, ⟨109, _⟩ => ⟨S64x128, .f32⟩
  | .hbm, ⟨110, _⟩ => ⟨S64x1, .f32⟩
  | .hbm, ⟨111, _⟩ => ⟨S64x1, .i32⟩
  | .hbm, ⟨112, _⟩ => ⟨S1x128, .f32⟩
  | .hbm, ⟨113, _⟩ => ⟨S1x128, .f32⟩
  | .hbm, ⟨114, _⟩ => ⟨S1x16, .f32⟩
  | .hbm, ⟨115, _⟩ => ⟨S1x16, .f32⟩
  | .hbm, ⟨116, _⟩ => ⟨S1x128, .f32⟩
  | .hbm, ⟨117, _⟩ => ⟨S1x3, .f32⟩
  | .hbm, ⟨118, _⟩ => ⟨S64x3, .f32⟩
  | .local _ .vmem, ⟨0, _⟩ => ⟨S5000x6, .f32⟩
  | .local _ .vmem, ⟨1, _⟩ => ⟨S5000x6, .f32⟩
  | .local _ .vmem, ⟨2, _⟩ => ⟨S6x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .i32⟩
  | .local _ .vmem, ⟨13, _⟩ => ⟨S5000x1, .i32⟩
  | .local _ .vmem, ⟨14, _⟩ => ⟨S64x128, .f32⟩
  | .local _ .vmem, ⟨15, _⟩ => ⟨S64x1, .f32⟩
  | .local _ .vmem, ⟨16, _⟩ => ⟨S64x128, .f32⟩
  | .local _ .vmem, ⟨17, _⟩ => ⟨S64x1, .f32⟩
  | .local _ .vmem, ⟨18, _⟩ => ⟨S64x16, .i32⟩
  | .local _ .vmem, ⟨19, _⟩ => ⟨S64x16, .i32⟩
  | .local _ .vmem, ⟨20, _⟩ => ⟨S64x16, .i32⟩
  | .local _ .vmem, ⟨21, _⟩ => ⟨S64x1, .i32⟩
  | .local _ .vmem, ⟨22, _⟩ => ⟨S64x8, .f32⟩
  | .local _ .vmem, ⟨23, _⟩ => ⟨S64x6, .f32⟩
  | .local _ .vmem, ⟨24, _⟩ => ⟨S128x128, .f32⟩
  | .local _ .vmem, ⟨25, _⟩ => ⟨S1x128, .f32⟩
  | .local _ .vmem, ⟨26, _⟩ => ⟨S5x64, .f32⟩
  | .local _ .vmem, ⟨27, _⟩ => ⟨S6x64, .f32⟩
  | .local _ .vmem, ⟨28, _⟩ => ⟨S10x64, .f32⟩
  | .local _ .vmem, ⟨29, _⟩ => ⟨S192x128, .f32⟩
  | .local _ .vmem, ⟨30, _⟩ => ⟨S1x128, .f32⟩
  | .local _ .vmem, ⟨31, _⟩ => ⟨S2x16, .f32⟩
  | .local _ .vmem, ⟨32, _⟩ => ⟨S8x16, .f32⟩
  | .local _ .vmem, ⟨33, _⟩ => ⟨S1x16, .f32⟩
  | .local _ .vmem, ⟨34, _⟩ => ⟨S6x16, .f32⟩
  | .local _ .vmem, ⟨35, _⟩ => ⟨S1x16, .f32⟩
  | .local _ .vmem, ⟨36, _⟩ => ⟨S304x128, .f32⟩
  | .local _ .vmem, ⟨37, _⟩ => ⟨S1x128, .f32⟩
  | .local _ .vmem, ⟨38, _⟩ => ⟨S128x3, .f32⟩
  | .local _ .vmem, ⟨39, _⟩ => ⟨S1x3, .f32⟩
  | .local _ .vmem, ⟨40, _⟩ => ⟨S64x3, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c : Ref sig .tc := ⟨.hbm, 46, rfl⟩
abbrev main_v14 : Ref sig .tc := ⟨.hbm, 47, rfl⟩
abbrev main_v15 : Ref sig .tc := ⟨.hbm, 48, rfl⟩
abbrev main_c_2 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c_3 : Ref sig .tc := ⟨.hbm, 55, rfl⟩
abbrev main_v21 : Ref sig .tc := ⟨.hbm, 56, rfl⟩
abbrev main_v22 : Ref sig .tc := ⟨.hbm, 57, rfl⟩
abbrev main_c_4 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_5 : Ref sig .tc := ⟨.hbm, 67, rfl⟩
abbrev main_v31 : Ref sig .tc := ⟨.hbm, 68, rfl⟩
abbrev main_v32 : Ref sig .tc := ⟨.hbm, 69, rfl⟩
abbrev main_c_6 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_7 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_call0_cst : Ref sig .tc := ⟨.hbm, 85, rfl⟩
abbrev main_call0_v0 : Ref sig .tc := ⟨.hbm, 86, rfl⟩
abbrev main_v46 : Ref sig .tc := ⟨.hbm, 87, rfl⟩
abbrev main_v47 : Ref sig .tc := ⟨.hbm, 88, rfl⟩
abbrev main_c_8 : Ref sig .tc := ⟨.hbm, 89, rfl⟩
abbrev main_v48 : Ref sig .tc := ⟨.hbm, 90, rfl⟩
abbrev main_v49 : Ref sig .tc := ⟨.hbm, 91, rfl⟩
abbrev main_c_9 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_10 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65_0 : Ref sig .tc := ⟨.hbm, 109, rfl⟩
abbrev main_v65_1 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg7_0 : Ref sig .tc := ⟨.vmem, 23, rfl⟩
abbrev cc3_stg8_0 : Ref sig .tc := ⟨.vmem, 24, rfl⟩
abbrev cc3_stg9_0 : Ref sig .tc := ⟨.vmem, 25, rfl⟩
abbrev cc3_stg10_0 : Ref sig .tc := ⟨.vmem, 26, rfl⟩
abbrev cc3_stg11_0 : Ref sig .tc := ⟨.vmem, 27, rfl⟩
abbrev cc3_stg12_0 : Ref sig .tc := ⟨.vmem, 28, rfl⟩
abbrev cc3_stg13_0 : Ref sig .tc := ⟨.vmem, 29, rfl⟩
abbrev cc3_stg14_0 : Ref sig .tc := ⟨.vmem, 30, rfl⟩
abbrev cc3_stg15_0 : Ref sig .tc := ⟨.vmem, 31, rfl⟩
abbrev cc3_stg16_0 : Ref sig .tc := ⟨.vmem, 32, rfl⟩
abbrev cc3_stg17_0 : Ref sig .tc := ⟨.vmem, 33, rfl⟩
abbrev cc3_stg18_0 : Ref sig .tc := ⟨.vmem, 34, rfl⟩
abbrev cc3_stg19_0 : Ref sig .tc := ⟨.vmem, 35, rfl⟩
abbrev cc3_stg20_0 : Ref sig .tc := ⟨.vmem, 36, rfl⟩
abbrev cc3_stg21_0 : Ref sig .tc := ⟨.vmem, 37, rfl⟩
abbrev cc3_stg22_0 : Ref sig .tc := ⟨.vmem, 38, rfl⟩
abbrev cc3_stg23_0 : Ref sig .tc := ⟨.vmem, 39, rfl⟩
abbrev cc3_stg24_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem6_0 : DmaSem sig := 22
abbrev cc3_sem7_0 : DmaSem sig := 23
abbrev cc3_sem8_0 : DmaSem sig := 24
abbrev cc3_sem9_0 : DmaSem sig := 25
abbrev cc3_sem10_0 : DmaSem sig := 26
abbrev cc3_sem11_0 : DmaSem sig := 27
abbrev cc3_sem12_0 : DmaSem sig := 28
abbrev cc3_sem13_0 : DmaSem sig := 29
abbrev cc3_sem14_0 : DmaSem sig := 30
abbrev cc3_sem15_0 : DmaSem sig := 31
abbrev cc3_sem16_0 : DmaSem sig := 32
abbrev cc3_sem17_0 : DmaSem sig := 33
abbrev cc3_sem18_0 : DmaSem sig := 34
abbrev cc3_sem19_0 : DmaSem sig := 35
abbrev cc3_sem20_0 : DmaSem sig := 36
abbrev cc3_sem21_0 : DmaSem sig := 37
abbrev cc3_sem22_0 : DmaSem sig := 38
abbrev cc3_sem23_0 : DmaSem sig := 39
abbrev cc3_sem24_0 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_20 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_21 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_22 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_23 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_24 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x16 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x16 .i32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x16 .i32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1 .i32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x6 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S5x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S6x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S10x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S192x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S2x16 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S8x16 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S1x16 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S6x16 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 1 → Memref sig .tc .vmem S1x16 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false]

abbrev stage3_20 : Fin 1 → Memref sig .tc .vmem S304x128 .f32 := fun | 0 => Memref.whole cc3_stg20_0 | ⟨_ + 1, h⟩ => absurd h (Nat.not_lt.2 (Nat.le_add_left _ _))
abbrev sem3_20 : Fin 1 → DmaSem sig := fun | 0 => cc3_sem20_0 | ⟨_ + 1, h⟩ => absurd h (Nat.not_lt.2 (Nat.le_add_left _ _))
abbrev reads3_20 : Fin grid3.rank → Bool := ![false]

abbrev stage3_21 : Fin 1 → Memref sig .tc .vmem S1x128 .f32 := fun | 0 => Memref.whole cc3_stg21_0 | ⟨_ + 1, h⟩ => absurd h (Nat.not_lt.2 (Nat.le_add_left _ _))
abbrev sem3_21 : Fin 1 → DmaSem sig := fun | 0 => cc3_sem21_0 | ⟨_ + 1, h⟩ => absurd h (Nat.not_lt.2 (Nat.le_add_left _ _))
abbrev reads3_21 : Fin grid3.rank → Bool := ![false]

abbrev stage3_22 : Fin 1 → Memref sig .tc .vmem S128x3 .f32 := fun | 0 => Memref.whole cc3_stg22_0 | ⟨_ + 1, h⟩ => absurd h (Nat.not_lt.2 (Nat.le_add_left _ _))
abbrev sem3_22 : Fin 1 → DmaSem sig := fun | 0 => cc3_sem22_0 | ⟨_ + 1, h⟩ => absurd h (Nat.not_lt.2 (Nat.le_add_left _ _))
abbrev reads3_22 : Fin grid3.rank → Bool := ![false]

abbrev stage3_23 : Fin 1 → Memref sig .tc .vmem S1x3 .f32 := fun | 0 => Memref.whole cc3_stg23_0 | ⟨_ + 1, h⟩ => absurd h (Nat.not_lt.2 (Nat.le_add_left _ _))
abbrev sem3_23 : Fin 1 → DmaSem sig := fun | 0 => cc3_sem23_0 | ⟨_ + 1, h⟩ => absurd h (Nat.not_lt.2 (Nat.le_add_left _ _))
abbrev reads3_23 : Fin grid3.rank → Bool := ![false]

abbrev stage3_24 : Fin 1 → Memref sig .tc .vmem S64x3 .f32 := fun | 0 => Memref.whole cc3_stg24_0 | ⟨_ + 1, h⟩ => absurd h (Nat.not_lt.2 (Nat.le_add_left _ _))
abbrev sem3_24 : Fin 1 → DmaSem sig := fun | 0 => cc3_sem24_0 | ⟨_ + 1, h⟩ => absurd h (Nat.not_lt.2 (Nat.le_add_left _ _))
abbrev reads3_24 : Fin grid3.rank → Bool := ![false]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x6_S5000x6_0_0 : ∀ a, (![0, 0] : Fin 2 → Nat) a + S5000x6.size a ≤ S5000x6.size a
  h_S5000x6 : 0 < S5000x6.numel
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  inb_S5000x128_S5000x128_0_0 : ∀ a, (![0, 0] : Fin 2 → Nat) a + S5000x128.size a ≤ S5000x128.size a
  h_S5000x128 : 0 < S5000x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S100000_S100000x1 : S100000.ShapeCasts S100000x1
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  shapeCasts_S64x128_S64x128 : S64x128.ShapeCasts S64x128
  shapeCasts_S64x1_S64x1 : S64x1.ShapeCasts S64x1
  shapeCasts_S64_S64x1 : S64.ShapeCasts S64x1
  shapeCasts_S128_S1x128 : S128.ShapeCasts S1x128
  shapeCasts_S16_S1x16 : S16.ShapeCasts S1x16
  shapeCasts_S3_S1x3 : S3.ShapeCasts S1x3
  broadcasts_S64x1_S64x128 : S64x1.Broadcasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S64x16_S64x16_0_0 : ∀ a, (![0, 0] : Fin 2 → Nat) a + S64x16.size a ≤ S64x16.size a
  h_S64x16 : 0 < S64x16.numel
  reduces_S64x16_S64 : S64x16.Reduces [1] S64
  concatenates_S64x1_S64x1_S64x1_S64x1_S64x1_S64x5_d1 : Shape.Concatenates [S64x1, S64x1, S64x1, S64x1, S64x1] S64x5 1
  concatenates_S64x1_S64x1_S64x1_S64x1_S64x1_S64x1_S64x6_d1 : Shape.Concatenates [S64x1, S64x1, S64x1, S64x1, S64x1, S64x1] S64x6 1
  concatenates_S64x1_S64x1_S64x1_S64x1_S64x1_S64x1_S64x1_S64x1_S64x1_S64x1_S64x10_d1 : Shape.Concatenates [S64x1, S64x1, S64x1, S64x1, S64x1, S64x1, S64x1, S64x1, S64x1, S64x1] S64x10 1
  inb_S5x64_S5x64_0_0 : ∀ a, (![0, 0] : Fin 2 → Nat) a + S5x64.size a ≤ S5x64.size a
  h_S5x64 : 0 < S5x64.numel
  inb_S6x64_S6x64_0_0 : ∀ a, (![0, 0] : Fin 2 → Nat) a + S6x64.size a ≤ S6x64.size a
  h_S6x64 : 0 < S6x64.numel
  inb_S10x64_S10x64_0_0 : ∀ a, (![0, 0] : Fin 2 → Nat) a + S10x64.size a ≤ S10x64.size a
  h_S10x64 : 0 < S10x64.numel
  concatenates_S64x64_S64x64_S64x64_S64x192_d1 : Shape.Concatenates [S64x64, S64x64, S64x64] S64x192 1
  inb_S192x128_S192x128_0_0 : ∀ a, (![0, 0] : Fin 2 → Nat) a + S192x128.size a ≤ S192x128.size a
  h_S192x128 : 0 < S192x128.numel
  concatenates_S64x1_S64x1_S64x2_d1 : Shape.Concatenates [S64x1, S64x1] S64x2 1
  inb_S2x16_S2x16_0_0 : ∀ a, (![0, 0] : Fin 2 → Nat) a + S2x16.size a ≤ S2x16.size a
  h_S2x16 : 0 < S2x16.numel
  inb_S64x8_S64x8_0_0 : ∀ a, (![0, 0] : Fin 2 → Nat) a + S64x8.size a ≤ S64x8.size a
  h_S64x8 : 0 < S64x8.numel
  inb_S8x16_S8x16_0_0 : ∀ a, (![0, 0] : Fin 2 → Nat) a + S8x16.size a ≤ S8x16.size a
  h_S8x16 : 0 < S8x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S64x6_S64x6_0_0 : ∀ a, (![0, 0] : Fin 2 → Nat) a + S64x6.size a ≤ S64x6.size a
  h_S64x6 : 0 < S64x6.numel
  inb_S6x16_S6x16_0_0 : ∀ a, (![0, 0] : Fin 2 → Nat) a + S6x16.size a ≤ S6x16.size a
  h_S6x16 : 0 < S6x16.numel
  concatenates_S64x128_S64x128_S64x16_S64x16_S64x16_S64x304_d1 : Shape.Concatenates [S64x128, S64x128, S64x16, S64x16, S64x16] S64x304 1
  inb_S304x128_S304x128_0_0 : ∀ a, (![0, 0] : Fin 2 → Nat) a + S304x128.size a ≤ S304x128.size a
  h_S304x128 : 0 < S304x128.numel
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S64x3 : S1x3.Broadcasts S64x3
  inb_S64x3_S64x3_0_0 : ∀ a, (![0, 0] : Fin 2 → Nat) a + S64x3.size a ≤ S64x3.size a
  h_S64x3 : 0 < S64x3.numel
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x6_S6x128_S5000x128_1_0_0_1_n_n_wf : DotDims.WF S5000x6 S6x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x128_S128x128_S64x128_1_0_0_1_n_n_wf : DotDims.WF S64x128 S128x128 S64x128 [1] [0] [0] [1] [] []
  dot_S64x5_S5x64_S64x64_1_0_0_1_n_n_wf : DotDims.WF S64x5 S5x64 S64x64 [1] [0] [0] [1] [] []
  dot_S64x6_S6x64_S64x64_1_0_0_1_n_n_wf : DotDims.WF S64x6 S6x64 S64x64 [1] [0] [0] [1] [] []
  dot_S64x10_S10x64_S64x64_1_0_0_1_n_n_wf : DotDims.WF S64x10 S10x64 S64x64 [1] [0] [0] [1] [] []
  dot_S64x192_S192x128_S64x128_1_0_0_1_n_n_wf : DotDims.WF S64x192 S192x128 S64x128 [1] [0] [0] [1] [] []
  dot_S64x2_S2x16_S64x16_1_0_0_1_n_n_wf : DotDims.WF S64x2 S2x16 S64x16 [1] [0] [0] [1] [] []
  dot_S64x8_S8x16_S64x16_1_0_0_1_n_n_wf : DotDims.WF S64x8 S8x16 S64x16 [1] [0] [0] [1] [] []
  dot_S64x6_S6x16_S64x16_1_0_0_1_n_n_wf : DotDims.WF S64x6 S6x16 S64x16 [1] [0] [0] [1] [] []
  dot_S64x304_S304x128_S64x128_1_0_0_1_n_n_wf : DotDims.WF S64x304 S304x128 S64x128 [1] [0] [0] [1] [] []
  dot_S64x128_S128x3_S64x3_1_0_0_1_n_n_wf : DotDims.WF S64x128 S128x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S100000x6.size a
  hwx0_0 : ∀ i : grid0.Coords, EltTy.bits .f32 = 32 ∨ (Rect.block (s := S100000x6) S5000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x128.size a ≤ S6x128.size a
  hwx0_1 : ∀ i : grid0.Coords, EltTy.bits .f32 = 32 ∨ (Rect.block (s := S6x128) S6x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x16.size a ≤ S64x16.size a
  hwx3_2 : ∀ i : grid3.Coords, EltTy.bits .i32 = 32 ∨ (Rect.block (s := S64x16) S64x16.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x16.size a ≤ S64x16.size a
  hwx3_3 : ∀ i : grid3.Coords, EltTy.bits .i32 = 32 ∨ (Rect.block (s := S64x16) S64x16.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x16.size a ≤ S64x16.size a
  hwx3_4 : ∀ i : grid3.Coords, EltTy.bits .i32 = 32 ∨ (Rect.block (s := S64x16) S64x16.size (cc3_transform_4 i) (hinb3_4 i)).WholeWords (EltTy.packing .i32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .i32 = 32 ∨ (Rect.block (s := S64x1) S64x1.size (cc3_transform_5 i) (hinb3_5 i)).WholeWords (EltTy.packing .i32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x8.size a ≤ S64x8.size a
  hwx3_6 : ∀ i : grid3.Coords, EltTy.bits .f32 = 32 ∨ (Rect.block (s := S64x8) S64x8.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x6.size a ≤ S64x6.size a
  hwx3_7 : ∀ i : grid3.Coords, EltTy.bits .f32 = 32 ∨ (Rect.block (s := S64x6) S64x6.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S5x64.size a ≤ S5x64.size a
  hwx3_10 : ∀ i : grid3.Coords, EltTy.bits .f32 = 32 ∨ (Rect.block (s := S5x64) S5x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S6x64.size a ≤ S6x64.size a
  hwx3_11 : ∀ i : grid3.Coords, EltTy.bits .f32 = 32 ∨ (Rect.block (s := S6x64) S6x64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S10x64.size a ≤ S10x64.size a
  hwx3_12 : ∀ i : grid3.Coords, EltTy.bits .f32 = 32 ∨ (Rect.block (s := S10x64) S10x64.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S192x128.size a ≤ S192x128.size a
  hwx3_13 : ∀ i : grid3.Coords, EltTy.bits .f32 = 32 ∨ (Rect.block (s := S192x128) S192x128.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x128.size a ≤ S1x128.size a
  hwx3_14 : ∀ i : grid3.Coords, EltTy.bits .f32 = 32 ∨ (Rect.block (s := S1x128) S1x128.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S2x16.size a ≤ S2x16.size a
  hwx3_15 : ∀ i : grid3.Coords, EltTy.bits .f32 = 32 ∨ (Rect.block (s := S2x16) S2x16.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S8x16.size a ≤ S8x16.size a
  hwx3_16 : ∀ i : grid3.Coords, EltTy.bits .f32 = 32 ∨ (Rect.block (s := S8x16) S8x16.size (cc3_transform_16 i) (hinb3_16 i)).WholeWords (EltTy.packing .f32)
  hstage3_17 : ∀ j, (stage3_17 j).IsWhole
  nbuf3_17 : grid3.bufCount reads3_17 true = 1
  hreads3_17 : ∀ i i' : grid3.Coords, (∀ a, reads3_17 a = true → i a = i' a) → cc3_transform_17 i = cc3_transform_17 i'
  hinb3_17 : ∀ (i : grid3.Coords) a, (cc3_transform_17 i a + 1) * S1x16.size a ≤ S1x16.size a
  hwx3_17 : ∀ i : grid3.Coords, EltTy.bits .f32 = 32 ∨ (Rect.block (s := S1x16) S1x16.size (cc3_transform_17 i) (hinb3_17 i)).WholeWords (EltTy.packing .f32)
  hstage3_18 : ∀ j, (stage3_18 j).IsWhole
  nbuf3_18 : grid3.bufCount reads3_18 true = 1
  hreads3_18 : ∀ i i' : grid3.Coords, (∀ a, reads3_18 a = true → i a = i' a) → cc3_transform_18 i = cc3_transform_18 i'
  hinb3_18 : ∀ (i : grid3.Coords) a, (cc3_transform_18 i a + 1) * S6x16.size a ≤ S6x16.size a
  hwx3_18 : ∀ i : grid3.Coords, EltTy.bits .f32 = 32 ∨ (Rect.block (s := S6x16) S6x16.size (cc3_transform_18 i) (hinb3_18 i)).WholeWords (EltTy.packing .f32)
  hstage3_19 : ∀ j, (stage3_19 j).IsWhole
  nbuf3_19 : grid3.bufCount reads3_19 true = 1
  hreads3_19 : ∀ i i' : grid3.Coords, (∀ a, reads3_19 a = true → i a = i' a) → cc3_transform_19 i = cc3_transform_19 i'
  hinb3_19 : ∀ (i : grid3.Coords) a, (cc3_transform_19 i a + 1) * S1x16.size a ≤ S1x16.size a
  hwx3_19 : ∀ i : grid3.Coords, EltTy.bits .f32 = 32 ∨ (Rect.block (s := S1x16) S1x16.size (cc3_transform_19 i) (hinb3_19 i)).WholeWords (EltTy.packing .f32)
  hstage3_20 : ∀ j, (stage3_20 j).IsWhole
  nbuf3_20 : grid3.bufCount reads3_20 true = 1
  hreads3_20 : ∀ i i' : grid3.Coords, (∀ a, reads3_20 a = true → i a = i' a) → cc3_transform_20 i = cc3_transform_20 i'
  hinb3_20 : ∀ (i : grid3.Coords) a, (cc3_transform_20 i a + 1) * S304x128.size a ≤ S304x128.size a
  hwx3_20 : ∀ i : grid3.Coords, EltTy.bits .f32 = 32 ∨ (Rect.block (s := S304x128) S304x128.size (cc3_transform_20 i) (hinb3_20 i)).WholeWords (EltTy.packing .f32)
  hstage3_21 : ∀ j, (stage3_21 j).IsWhole
  nbuf3_21 : grid3.bufCount reads3_21 true = 1
  hreads3_21 : ∀ i i' : grid3.Coords, (∀ a, reads3_21 a = true → i a = i' a) → cc3_transform_21 i = cc3_transform_21 i'
  hinb3_21 : ∀ (i : grid3.Coords) a, (cc3_transform_21 i a + 1) * S1x128.size a ≤ S1x128.size a
  hwx3_21 : ∀ i : grid3.Coords, EltTy.bits .f32 = 32 ∨ (Rect.block (s := S1x128) S1x128.size (cc3_transform_21 i) (hinb3_21 i)).WholeWords (EltTy.packing .f32)
  hstage3_22 : ∀ j, (stage3_22 j).IsWhole
  nbuf3_22 : grid3.bufCount reads3_22 true = 1
  hreads3_22 : ∀ i i' : grid3.Coords, (∀ a, reads3_22 a = true → i a = i' a) → cc3_transform_22 i = cc3_transform_22 i'
  hinb3_22 : ∀ (i : grid3.Coords) a, (cc3_transform_22 i a + 1) * S128x3.size a ≤ S128x3.size a
  hwx3_22 : ∀ i : grid3.Coords, EltTy.bits .f32 = 32 ∨ (Rect.block (s := S128x3) S128x3.size (cc3_transform_22 i) (hinb3_22 i)).WholeWords (EltTy.packing .f32)
  hstage3_23 : ∀ j, (stage3_23 j).IsWhole
  nbuf3_23 : grid3.bufCount reads3_23 true = 1
  hreads3_23 : ∀ i i' : grid3.Coords, (∀ a, reads3_23 a = true → i a = i' a) → cc3_transform_23 i = cc3_transform_23 i'
  hinb3_23 : ∀ (i : grid3.Coords) a, (cc3_transform_23 i a + 1) * S1x3.size a ≤ S1x3.size a
  hwx3_23 : ∀ i : grid3.Coords, EltTy.bits .f32 = 32 ∨ (Rect.block (s := S1x3) S1x3.size (cc3_transform_23 i) (hinb3_23 i)).WholeWords (EltTy.packing .f32)
  hstage3_24 : ∀ j, (stage3_24 j).IsWhole
  nbuf3_24 : grid3.bufCount reads3_24 true = 1
  hreads3_24 : ∀ i i' : grid3.Coords, (∀ a, reads3_24 a = true → i a = i' a) → cc3_transform_24 i = cc3_transform_24 i'
  hinb3_24 : ∀ (i : grid3.Coords) a, (cc3_transform_24 i a + 1) * S64x3.size a ≤ S64x3.size a
  hwx3_24 : ∀ i : grid3.Coords, EltTy.bits .f32 = 32 ∨ (Rect.block (s := S64x3) S64x3.size (cc3_transform_24 i) (hinb3_24 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x6_S6x128_S5000x128_1_0_0_1_n_n : DotDims S5000x6 S6x128 S5000x128 where
  lhsContracting := [1]
  rhsContracting := [0]
  lhsNonContracting := [0]
  rhsNonContracting := [1]
  lhsBatch := []
  rhsBatch := []
  wf := dot_S5000x6_S6x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x5_S5x64_S64x64_1_0_0_1_n_n : DotDims S64x5 S5x64 S64x64 where
  lhsContracting := [1]
  rhsContracting := [0]
  lhsNonContracting := [0]
  rhsNonContracting := [1]
  lhsBatch := []
  rhsBatch := []
  wf := dot_S64x5_S5x64_S64x64_1_0_0_1_n_n_wf
def dot_S64x6_S6x64_S64x64_1_0_0_1_n_n : DotDims S64x6 S6x64 S64x64 where
  lhsContracting := [1]
  rhsContracting := [0]
  lhsNonContracting := [0]
  rhsNonContracting := [1]
  lhsBatch := []
  rhsBatch := []
  wf := dot_S64x6_S6x64_S64x64_1_0_0_1_n_n_wf
def dot_S64x10_S10x64_S64x64_1_0_0_1_n_n : DotDims S64x10 S10x64 S64x64 where
  lhsContracting := [1]
  rhsContracting := [0]
  lhsNonContracting := [0]
  rhsNonContracting := [1]
  lhsBatch := []
  rhsBatch := []
  wf := dot_S64x10_S10x64_S64x64_1_0_0_1_n_n_wf
def dot_S64x192_S192x128_S64x128_1_0_0_1_n_n : DotDims S64x192 S192x128 S64x128 where
  lhsContracting := [1]
  rhsContracting := [0]
  lhsNonContracting := [0]
  rhsNonContracting := [1]
  lhsBatch := []
  rhsBatch := []
  wf := dot_S64x192_S192x128_S64x128_1_0_0_1_n_n_wf
def dot_S64x2_S2x16_S64x16_1_0_0_1_n_n : DotDims S64x2 S2x16 S64x16 where
  lhsContracting := [1]
  rhsContracting := [0]
  lhsNonContracting := [0]
  rhsNonContracting := [1]
  lhsBatch := []
  rhsBatch := []
  wf := dot_S64x2_S2x16_S64x16_1_0_0_1_n_n_wf
def dot_S64x8_S8x16_S64x16_1_0_0_1_n_n : DotDims S64x8 S8x16 S64x16 where
  lhsContracting := [1]
  rhsContracting := [0]
  lhsNonContracting := [0]
  rhsNonContracting := [1]
  lhsBatch := []
  rhsBatch := []
  wf := dot_S64x8_S8x16_S64x16_1_0_0_1_n_n_wf
def dot_S64x6_S6x16_S64x16_1_0_0_1_n_n : DotDims S64x6 S6x16 S64x16 where
  lhsContracting := [1]
  rhsContracting := [0]
  lhsNonContracting := [0]
  rhsNonContracting := [1]
  lhsBatch := []
  rhsBatch := []
  wf := dot_S64x6_S6x16_S64x16_1_0_0_1_n_n_wf
def dot_S64x304_S304x128_S64x128_1_0_0_1_n_n : DotDims S64x304 S304x128 S64x128 where
  lhsContracting := [1]
  rhsContracting := [0]
  lhsNonContracting := [0]
  rhsNonContracting := [1]
  lhsBatch := []
  rhsBatch := []
  wf := dot_S64x304_S304x128_S64x128_1_0_0_1_n_n_wf
def dot_S64x128_S128x3_S64x3_1_0_0_1_n_n : DotDims S64x128 S128x3 S64x3 where
  lhsContracting := [1]
  rhsContracting := [0]
  lhsNonContracting := [0]
  rhsNonContracting := [1]
  lhsBatch := []
  rhsBatch := []
  wf := dot_S64x128_S128x3_S64x3_1_0_0_1_n_n_wf

abbrev win0_0 : Pipeline.Window sig grid0 :=
  Pipeline.Window.ofSpec (Memref.whole main_arg0) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S6x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65_0) S64x128.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65_1) S64x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v65_0) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v65_1) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S64x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg4) S64x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg5) S64x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S64x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg7) S64x8.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg8) S64x6.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg13) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v67) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg15) S5x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg16) S6x64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_arg17) S10x64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_arg18) S192x128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v68) S1x128.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_arg20) S2x16.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_arg21) S8x16.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_v69) S1x16.size cc3_transform_17 reads3_17 false true 1 stage3_17 sem3_17
    hrank3 hreads3_17 hinb3_17 nbuf3_17 (Memref.isWhole_whole _) hwx3_17 hstage3_17

abbrev win3_18 : Pipeline.Window sig grid3 :=
  Pipeline.Window.ofSpec (Memref.whole main_arg23) S6x16.size cc3_transform_18 reads3_18 false true 1 stage3_18 sem3_18
    hrank3 hreads3_18 hinb3_18 nbuf3_18 (Memref.isWhole_whole _) hwx3_18 hstage3_18

abbrev win3_19 : Pipeline.Window sig grid3 :=
  Pipeline.Window.ofSpec (Memref.whole main_v70) S1x16.size cc3_transform_19 reads3_19 false true 1 stage3_19 sem3_19
    hrank3 hreads3_19 hinb3_19 nbuf3_19 (Memref.isWhole_whole _) hwx3_19 hstage3_19

abbrev win3_20 : Pipeline.Window sig grid3 :=
  Pipeline.Window.ofSpec (Memref.whole main_arg25) S304x128.size cc3_transform_20 reads3_20 false true 1 stage3_20 sem3_20
    hrank3 hreads3_20 hinb3_20 nbuf3_20 (Memref.isWhole_whole _) hwx3_20 hstage3_20

abbrev win3_21 : Pipeline.Window sig grid3 :=
  Pipeline.Window.ofSpec (Memref.whole main_v71) S1x128.size cc3_transform_21 reads3_21 false true 1 stage3_21 sem3_21
    hrank3 hreads3_21 hinb3_21 nbuf3_21 (Memref.isWhole_whole _) hwx3_21 hstage3_21

abbrev win3_22 : Pipeline.Window sig grid3 :=
  Pipeline.Window.ofSpec (Memref.whole main_arg27) S128x3.size cc3_transform_22 reads3_22 false true 1 stage3_22 sem3_22
    hrank3 hreads3_22 hinb3_22 nbuf3_22 (Memref.isWhole_whole _) hwx3_22 hstage3_22

abbrev win3_23 : Pipeline.Window sig grid3 :=
  Pipeline.Window.ofSpec (Memref.whole main_v72) S1x3.size cc3_transform_23 reads3_23 false true 1 stage3_23 sem3_23
    hrank3 hreads3_23 hinb3_23 nbuf3_23 (Memref.isWhole_whole _) hwx3_23 hstage3_23

abbrev win3_24 : Pipeline.Window sig grid3 :=
  Pipeline.Window.ofSpec (Memref.whole main_v73) S64x3.size cc3_transform_24 reads3_24 true true 1 stage3_24 sem3_24
    hrank3 hreads3_24 hinb3_24 nbuf3_24 (Memref.isWhole_whole _) hwx3_24 hstage3_24

abbrev win3 : Fin 25 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | 20 => win3_20 | 21 => win3_21 | 22 => win3_22 | 23 => win3_23 | 24 => win3_24 | ⟨_ + 25, h⟩ => absurd h (Nat.not_lt.2 (Nat.le_add_left _ _))
abbrev spec3 : Fin 25 → Pipeline.WinSpec sig grid3.rank := fun w => (win3 w).toWinSpec

class Facts : Prop extends Facts₀ where

variable [Facts]
-- ==== ReferenceIdeal.lean ====
abbrev S100000x6 : Shape := ⟨2, ![100000, 6]⟩
abbrev S2x600000 : Shape := ⟨2, ![2, 600000]⟩
abbrev S100000 : Shape := ⟨1, ![100000]⟩
abbrev S64x16 : Shape := ⟨2, ![64, 16]⟩
abbrev S64 : Shape := ⟨1, ![64]⟩
abbrev S64x8 : Shape := ⟨2, ![64, 8]⟩
abbrev S64x6 : Shape := ⟨2, ![64, 6]⟩
abbrev S6x128 : Shape := ⟨2, ![6, 128]⟩
abbrev S128 : Shape := ⟨1, ![128]⟩
abbrev S128x128 : Shape := ⟨2, ![128, 128]⟩
abbrev S5x64 : Shape := ⟨2, ![5, 64]⟩
abbrev S6x64 : Shape := ⟨2, ![6, 64]⟩
abbrev S10x64 : Shape := ⟨2, ![10, 64]⟩
abbrev S192x128 : Shape := ⟨2, ![192, 128]⟩
abbrev S2x16 : Shape := ⟨2, ![2, 16]⟩
abbrev S8x16 : Shape := ⟨2, ![8, 16]⟩
abbrev S16 : Shape := ⟨1, ![16]⟩
abbrev S6x16 : Shape := ⟨2, ![6, 16]⟩
abbrev S304x128 : Shape := ⟨2, ![304, 128]⟩
abbrev S128x3 : Shape := ⟨2, ![128, 3]⟩
abbrev S3 : Shape := ⟨1, ![3]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x128 : Shape := ⟨2, ![100000, 128]⟩
abbrev S700000x128 : Shape := ⟨2, ![700000, 128]⟩
abbrev S1x128 : Shape := ⟨2, ![1, 128]⟩
abbrev S100000x1 : Shape := ⟨2, ![100000, 1]⟩
abbrev S64x128 : Shape := ⟨2, ![64, 128]⟩
abbrev S64x1 : Shape := ⟨2, ![64, 1]⟩
abbrev S64x16x1 : Shape := ⟨3, ![64, 16, 1]⟩
abbrev S64x16x64 : Shape := ⟨3, ![64, 16, 64]⟩
abbrev S64x16x192 : Shape := ⟨3, ![64, 16, 192]⟩
abbrev S64x192 : Shape := ⟨2, ![64, 192]⟩
abbrev S1x16 : Shape := ⟨2, ![1, 16]⟩
abbrev S64x304 : Shape := ⟨2, ![64, 304]⟩
abbrev S64x3 : Shape := ⟨2, ![64, 3]⟩
abbrev S1x3 : Shape := ⟨2, ![1, 3]⟩

abbrev nBuf : Space → Nat
  | .hbm => 203
  | .vmem => 0
  | .smem => 0
  | _ => 0

abbrev hbmTy0_0 (i : Nat) : BufTy := match i % 128 with
  | 0 => ⟨S100000x6, .f32⟩
  | 1 => ⟨S2x600000, .i32⟩
  | 2 => ⟨S100000, .i32⟩
  | 3 => ⟨S64x16, .i32⟩
  | 4 => ⟨S64x16, .i32⟩
  | 5 => ⟨S64x16, .i32⟩
  | 6 => ⟨S64, .i32⟩
  | 7 => ⟨S64x8, .f32⟩
  | 8 => ⟨S64x6, .f32⟩
  | 9 => ⟨S6x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S5x64, .f32⟩
  | 16 => ⟨S6x64, .f32⟩
  | 17 => ⟨S10x64, .f32⟩
  | 18 => ⟨S192x128, .f32⟩
  | 19 => ⟨S128, .f32⟩
  | 20 => ⟨S2x16, .f32⟩
  | 21 => ⟨S8x16, .f32⟩
  | 22 => ⟨S16, .f32⟩
  | 23 => ⟨S6x16, .f32⟩
  | 24 => ⟨S16, .f32⟩
  | 25 => ⟨S304x128, .f32⟩
  | 26 => ⟨S128, .f32⟩
  | 27 => ⟨S128x3, .f32⟩
  | 28 => ⟨S3, .f32⟩
  | 29 => ⟨S100000, .i32⟩
  | 30 => ⟨S1x600000, .i32⟩
  | 31 => ⟨S600000, .i32⟩
  | 32 => ⟨S700000, .i32⟩
  | 33 => ⟨S1x600000, .i32⟩
  | 34 => ⟨S600000, .i32⟩
  | 35 => ⟨S700000, .i32⟩
  | 36 => ⟨S_, .f32⟩
  | 37 => ⟨S700000, .f32⟩
  | 38 => ⟨S_, .f32⟩
  | 39 => ⟨S100000, .f32⟩
  | 40 => ⟨S700000x1, .i32⟩
  | 41 => ⟨S100000, .f32⟩
  | 42 => ⟨S_, .f32⟩
  | 43 => ⟨S100000, .f32⟩
  | 44 => ⟨S100000, .f32⟩
  | 45 => ⟨S100000, .f32⟩
  | 46 => ⟨S_, .i32⟩
  | 47 => ⟨S700000, .i32⟩
  | 48 => ⟨S700000, .i1⟩
  | 49 => ⟨S_, .i32⟩
  | 50 => ⟨S700000, .i32⟩
  | 51 => ⟨S700000, .i32⟩
  | 52 => ⟨S700000, .i32⟩
  | 53 => ⟨S700000x1, .i32⟩
  | 54 => ⟨S700000, .f32⟩
  | 55 => ⟨S_, .i32⟩
  | 56 => ⟨S700000, .i32⟩
  | 57 => ⟨S700000, .i1⟩
  | 58 => ⟨S_, .i32⟩
  | 59 => ⟨S700000, .i32⟩
  | 60 => ⟨S700000, .i32⟩
  | 61 => ⟨S700000, .i32⟩
  | 62 => ⟨S700000x1, .i32⟩
  | 63 => ⟨S700000, .f32⟩
  | 64 => ⟨S700000, .f32⟩
  | 65 => ⟨S700000x1, .f32⟩
  | 66 => ⟨S100000x128, .f32⟩
  | 67 => ⟨S_, .i32⟩
  | 68 => ⟨S700000, .i32⟩
  | 69 => ⟨S700000, .i1⟩
  | 70 => ⟨S_, .i32⟩
  | 71 => ⟨S700000, .i32⟩
  | 72 => ⟨S700000, .i32⟩
  | 73 => ⟨S700000, .i32⟩
  | 74 => ⟨S700000x1, .i32⟩
  | 75 => ⟨S700000x128, .f32⟩
  | 76 => ⟨S700000x128, .f32⟩
  | 77 => ⟨S700000x128, .f32⟩
  | 78 => ⟨S_, .f32⟩
  | 79 => ⟨S100000x128, .f32⟩
  | 80 => ⟨S700000x1, .i32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S100000x128, .f32⟩
  | 89 => ⟨S_, .i32⟩
  | 90 => ⟨S700000, .i32⟩
  | 91 => ⟨S700000, .i1⟩
  | 92 => ⟨S_, .i32⟩
  | 93 => ⟨S700000, .i32⟩
  | 94 => ⟨S700000, .i32⟩
  | 95 => ⟨S700000, .i32⟩
  | 96 => ⟨S700000x1, .i32⟩
  | 97 => ⟨S700000x128, .f32⟩
  | 98 => ⟨S700000x128, .f32⟩
  | 99 => ⟨S700000x128, .f32⟩
  | 100 => ⟨S_, .f32⟩
  | 101 => ⟨S100000x128, .f32⟩
  | 102 => ⟨S700000x1, .i32⟩
  | 103 => ⟨S100000x128, .f32⟩
  | 104 => ⟨S1x128, .f32⟩
  | 105 => ⟨S100000x128, .f32⟩
  | 106 => ⟨S100000x128, .f32⟩
  | 107 => ⟨S100000x128, .f32⟩
  | 108 => ⟨S_, .f32⟩
  | 109 => ⟨S100000, .f32⟩
  | 110 => ⟨S_, .f32⟩
  | 111 => ⟨S64, .f32⟩
  | 112 => ⟨S100000x1, .i32⟩
  | 113 => ⟨S64, .f32⟩
  | 114 => ⟨S_, .f32⟩
  | 115 => ⟨S64x128, .f32⟩
  | 116 => ⟨S100000x1, .i32⟩
  | 117 => ⟨S64x128, .f32⟩
  | 118 => ⟨S_, .f32⟩
  | 119 => ⟨S64, .f32⟩
  | 120 => ⟨S64, .f32⟩
  | 121 => ⟨S64x1, .f32⟩
  | 122 => ⟨S64x128, .f32⟩
  | 123 => ⟨S64x128, .f32⟩
  | 124 => ⟨S64x128, .f32⟩
  | 125 => ⟨S1x128, .f32⟩
  | 126 => ⟨S64x128, .f32⟩
  | 127 => ⟨S64x128, .f32⟩
  | _ => ⟨S100000x6, .f32⟩

abbrev hbmTy0_1 (i : Nat) : BufTy := match i % 128 with
  | 0 => ⟨S_, .i32⟩
  | 1 => ⟨S64x16, .i32⟩
  | 2 => ⟨S64x16, .i1⟩
  | 3 => ⟨S_, .i32⟩
  | 4 => ⟨S64x16, .i32⟩
  | 5 => ⟨S64x16, .i32⟩
  | 6 => ⟨S64x16, .i32⟩
  | 7 => ⟨S64x16x1, .i32⟩
  | 8 => ⟨S64x16x64, .f32⟩
  | 9 => ⟨S_, .i32⟩
  | 10 => ⟨S64x16, .i32⟩
  | 11 => ⟨S64x16, .i1⟩
  | 12 => ⟨S_, .i32⟩
  | 13 => ⟨S64x16, .i32⟩
  | 14 => ⟨S64x16, .i32⟩
  | 15 => ⟨S64x16, .i32⟩
  | 16 => ⟨S64x16x1, .i32⟩
  | 17 => ⟨S64x16x64, .f32⟩
  | 18 => ⟨S_, .i32⟩
  | 19 => ⟨S64x16, .i32⟩
  | 20 => ⟨S64x16, .i1⟩
  | 21 => ⟨S_, .i32⟩
  | 22 => ⟨S64x16, .i32⟩
  | 23 => ⟨S64x16, .i32⟩
  | 24 => ⟨S64x16, .i32⟩
  | 25 => ⟨S64x16x1, .i32⟩
  | 26 => ⟨S64x16x64, .f32⟩
  | 27 => ⟨S64x16x192, .f32⟩
  | 28 => ⟨S_, .f32⟩
  | 29 => ⟨S64x192, .f32⟩
  | 30 => ⟨S_, .f32⟩
  | 31 => ⟨S64x192, .f32⟩
  | 32 => ⟨S64x192, .f32⟩
  | 33 => ⟨S64x128, .f32⟩
  | 34 => ⟨S1x128, .f32⟩
  | 35 => ⟨S64x128, .f32⟩
  | 36 => ⟨S64x128, .f32⟩
  | 37 => ⟨S_, .f32⟩
  | 38 => ⟨S64x128, .f32⟩
  | 39 => ⟨S64x128, .f32⟩
  | 40 => ⟨S_, .i32⟩
  | 41 => ⟨S64, .i32⟩
  | 42 => ⟨S64, .i1⟩
  | 43 => ⟨S_, .i32⟩
  | 44 => ⟨S64, .i32⟩
  | 45 => ⟨S64, .i32⟩
  | 46 => ⟨S64, .i32⟩
  | 47 => ⟨S64x1, .i32⟩
  | 48 => ⟨S64x16, .f32⟩
  | 49 => ⟨S64x16, .f32⟩
  | 50 => ⟨S1x16, .f32⟩
  | 51 => ⟨S64x16, .f32⟩
  | 52 => ⟨S64x16, .f32⟩
  | 53 => ⟨S_, .f32⟩
  | 54 => ⟨S64x16, .f32⟩
  | 55 => ⟨S64x16, .f32⟩
  | 56 => ⟨S64x16, .f32⟩
  | 57 => ⟨S1x16, .f32⟩
  | 58 => ⟨S64x16, .f32⟩
  | 59 => ⟨S64x16, .f32⟩
  | 60 => ⟨S_, .f32⟩
  | 61 => ⟨S64x16, .f32⟩
  | 62 => ⟨S64x16, .f32⟩
  | 63 => ⟨S64x304, .f32⟩
  | 64 => ⟨S64x128, .f32⟩
  | 65 => ⟨S1x128, .f32⟩
  | 66 => ⟨S64x128, .f32⟩
  | 67 => ⟨S64x128, .f32⟩
  | 68 => ⟨S_, .f32⟩
  | 69 => ⟨S64x128, .f32⟩
  | 70 => ⟨S64x128, .f32⟩
  | 71 => ⟨S64x3, .f32⟩
  | 72 => ⟨S1x3, .f32⟩
  | 73 => ⟨S64x3, .f32⟩
  | 74 => ⟨S64x3, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c : Ref sig .tc := ⟨.hbm, 46, rfl⟩
abbrev main_v14 : Ref sig .tc := ⟨.hbm, 47, rfl⟩
abbrev main_v15 : Ref sig .tc := ⟨.hbm, 48, rfl⟩
abbrev main_c_2 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c_3 : Ref sig .tc := ⟨.hbm, 55, rfl⟩
abbrev main_v21 : Ref sig .tc := ⟨.hbm, 56, rfl⟩
abbrev main_v22 : Ref sig .tc := ⟨.hbm, 57, rfl⟩
abbrev main_c_4 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_5 : Ref sig .tc := ⟨.hbm, 67, rfl⟩
abbrev main_v31 : Ref sig .tc := ⟨.hbm, 68, rfl⟩
abbrev main_v32 : Ref sig .tc := ⟨.hbm, 69, rfl⟩
abbrev main_c_6 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_7 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_call0_cst : Ref sig .tc := ⟨.hbm, 85, rfl⟩
abbrev main_call0_v0 : Ref sig .tc := ⟨.hbm, 86, rfl⟩
abbrev main_v46 : Ref sig .tc := ⟨.hbm, 87, rfl⟩
abbrev main_v47 : Ref sig .tc := ⟨.hbm, 88, rfl⟩
abbrev main_c_8 : Ref sig .tc := ⟨.hbm, 89, rfl⟩
abbrev main_v48 : Ref sig .tc := ⟨.hbm, 90, rfl⟩
abbrev main_v49 : Ref sig .tc := ⟨.hbm, 91, rfl⟩
abbrev main_c_9 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_10 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_11 : Ref sig .tc := ⟨.hbm, 108, rfl⟩
abbrev main_v64 : Ref sig .tc := ⟨.hbm, 109, rfl⟩
abbrev main_cst_12 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_13 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_14 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_c_15 : Ref sig .tc := ⟨.hbm, 128, rfl⟩
abbrev main_v80 : Ref sig .tc := ⟨.hbm, 129, rfl⟩
abbrev main_v81 : Ref sig .tc := ⟨.hbm, 130, rfl⟩
abbrev main_c_16 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_c_17 : Ref sig .tc := ⟨.hbm, 137, rfl⟩
abbrev main_v87 : Ref sig .tc := ⟨.hbm, 138, rfl⟩
abbrev main_v88 : Ref sig .tc := ⟨.hbm, 139, rfl⟩
abbrev main_c_18 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_c_19 : Ref sig .tc := ⟨.hbm, 146, rfl⟩
abbrev main_v94 : Ref sig .tc := ⟨.hbm, 147, rfl⟩
abbrev main_v95 : Ref sig .tc := ⟨.hbm, 148, rfl⟩
abbrev main_c_20 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_cst_21 : Ref sig .tc := ⟨.hbm, 156, rfl⟩
abbrev main_v102 : Ref sig .tc := ⟨.hbm, 157, rfl⟩
abbrev main_cst_22 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_call1_cst : Ref sig .tc := ⟨.hbm, 165, rfl⟩
abbrev main_call1_v0 : Ref sig .tc := ⟨.hbm, 166, rfl⟩
abbrev main_v109 : Ref sig .tc := ⟨.hbm, 167, rfl⟩
abbrev main_c_23 : Ref sig .tc := ⟨.hbm, 168, rfl⟩
abbrev main_v110 : Ref sig .tc := ⟨.hbm, 169, rfl⟩
abbrev main_v111 : Ref sig .tc := ⟨.hbm, 170, rfl⟩
abbrev main_c_24 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_call2_cst : Ref sig .tc := ⟨.hbm, 181, rfl⟩
abbrev main_call2_v0 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_call3_cst : Ref sig .tc := ⟨.hbm, 188, rfl⟩
abbrev main_call3_v0 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_call4_cst : Ref sig .tc := ⟨.hbm, 196, rfl⟩
abbrev main_call4_v0 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S_S64x16 : S_.BroadcastsInDim S64x16 (![] : Fin 0 → Fin S64x16.rank)
  bcast_S64x16_S64x16x1_0_1 : S64x16.BroadcastsInDim S64x16x1 (![0, 1] : Fin 2 → Fin S64x16x1.rank)
  concatenates_S64x16x64_S64x16x64_S64x16x64_S64x16x192_d2 : Shape.Concatenates [S64x16x64, S64x16x64, S64x16x64] S64x16x192 2
  reducesTo_S64x16x192_S64x192_d1 : S64x16x192.ReducesTo [1] S64x192
  h_S_ : 0 < S_.numel
  bcast_S_S64x192 : S_.BroadcastsInDim S64x192 (![] : Fin 0 → Fin S64x192.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  concatenates_S64x128_S64x128_S64x16_S64x16_S64x16_S64x304_d1 : Shape.Concatenates [S64x128, S64x128, S64x16, S64x16, S64x16] S64x304 1
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x6_S6x128_S100000x128_1_0_0_1_n_n_wf : DotDims.WF S100000x6 S6x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x128_S100000x128_1_0_0_1_n_n_wf : DotDims.WF S100000x128 S128x128 S100000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x128_S64x128_1_0_0_1_n_n_wf : DotDims.WF S64x128 S128x128 S64x128 [1] [0] [0] [1] [] []
  gather_S5x64_S64x16x1_S64x16x64_2_0_n_n_0_2_164_wf : GatherDims.WF S5x64 S64x16x1 S64x16x64 [2] [0] [] [0] [] 2 ![1, 64]
  gather_S6x64_S64x16x1_S64x16x64_2_0_n_n_0_2_164_wf : GatherDims.WF S6x64 S64x16x1 S64x16x64 [2] [0] [] [0] [] 2 ![1, 64]
  gather_S10x64_S64x16x1_S64x16x64_2_0_n_n_0_2_164_wf : GatherDims.WF S10x64 S64x16x1 S64x16x64 [2] [0] [] [0] [] 2 ![1, 64]
  dot_S64x192_S192x128_S64x128_1_0_0_1_n_n_wf : DotDims.WF S64x192 S192x128 S64x128 [1] [0] [0] [1] [] []
  gather_S2x16_S64x1_S64x16_1_0_n_n_0_1_116_wf : GatherDims.WF S2x16 S64x1 S64x16 [1] [0] [] [0] [] 1 ![1, 16]
  dot_S64x8_S8x16_S64x16_1_0_0_1_n_n_wf : DotDims.WF S64x8 S8x16 S64x16 [1] [0] [0] [1] [] []
  dot_S64x6_S6x16_S64x16_1_0_0_1_n_n_wf : DotDims.WF S64x6 S6x16 S64x16 [1] [0] [0] [1] [] []
  dot_S64x304_S304x128_S64x128_1_0_0_1_n_n_wf : DotDims.WF S64x304 S304x128 S64x128 [1] [0] [0] [1] [] []
  dot_S64x128_S128x3_S64x3_1_0_0_1_n_n_wf : DotDims.WF S64x128 S128x3 S64x3 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def gather_S5x64_S64x16x1_S64x16x64_2_0_n_n_0_2_164 : GatherDims S5x64 S64x16x1 S64x16x64 where
  offsetDims := [2]
  collapsedSliceDims := [0]
  operandBatchingDims := []
  startIndicesBatchingDims := []
  startIndexMap := [0]
  indexVectorDim := 2
  sliceSizes := ![1, 64]
  wf := gather_S5x64_S64x16x1_S64x16x64_2_0_n_n_0_2_164_wf
def gather_S6x64_S64x16x1_S64x16x64_2_0_n_n_0_2_164 : GatherDims S6x64 S64x16x1 S64x16x64 where
  offsetDims := [2]
  collapsedSliceDims := [0]
  operandBatchingDims := []
  startIndicesBatchingDims := []
  startIndexMap := [0]
  indexVectorDim := 2
  sliceSizes := ![1, 64]
  wf := gather_S6x64_S64x16x1_S64x16x64_2_0_n_n_0_2_164_wf
def gather_S10x64_S64x16x1_S64x16x64_2_0_n_n_0_2_164 : GatherDims S10x64 S64x16x1 S64x16x64 where
  offsetDims := [2]
  collapsedSliceDims := [0]
  operandBatchingDims := []
  startIndicesBatchingDims := []
  startIndexMap := [0]
  indexVectorDim := 2
  sliceSizes := ![1, 64]
  wf := gather_S10x64_S64x16x1_S64x16x64_2_0_n_n_0_2_164_wf
def dot_S64x192_S192x128_S64x128_1_0_0_1_n_n : DotDims S64x192 S192x128 S64x128 where
  lhsContracting := [1]
  rhsContracting := [0]
  lhsNonContracting := [0]
  rhsNonContracting := [1]
  lhsBatch := []
  rhsBatch := []
  wf := dot_S64x192_S192x128_S64x128_1_0_0_1_n_n_wf
def gather_S2x16_S64x1_S64x16_1_0_n_n_0_1_116 : GatherDims S2x16 S64x1 S64x16 where
  offsetDims := [1]
  collapsedSliceDims := [0]
  operandBatchingDims := []
  startIndicesBatchingDims := []
  startIndexMap := [0]
  indexVectorDim := 1
  sliceSizes := ![1, 16]
  wf := gather_S2x16_S64x1_S64x16_1_0_n_n_0_1_116_wf
def dot_S64x8_S8x16_S64x16_1_0_0_1_n_n : DotDims S64x8 S8x16 S64x16 where
  lhsContracting := [1]
  rhsContracting := [0]
  lhsNonContracting := [0]
  rhsNonContracting := [1]
  lhsBatch := []
  rhsBatch := []
  wf := dot_S64x8_S8x16_S64x16_1_0_0_1_n_n_wf
def dot_S64x6_S6x16_S64x16_1_0_0_1_n_n : DotDims S64x6 S6x16 S64x16 where
  lhsContracting := [1]
  rhsContracting := [0]
  lhsNonContracting := [0]
  rhsNonContracting := [1]
  lhsBatch := []
  rhsBatch := []
  wf := dot_S64x6_S6x16_S64x16_1_0_0_1_n_n_wf
def dot_S64x304_S304x128_S64x128_1_0_0_1_n_n : DotDims S64x304 S304x128 S64x128 where
  lhsContracting := [1]
  rhsContracting := [0]
  lhsNonContracting := [0]
  rhsNonContracting := [1]
  lhsBatch := []
  rhsBatch := []
  wf := dot_S64x304_S304x128_S64x128_1_0_0_1_n_n_wf
def dot_S64x128_S128x3_S64x3_1_0_0_1_n_n : DotDims S64x128 S128x3 S64x3 where
  lhsContracting := [1]
  rhsContracting := [0]
  lhsNonContracting := [0]
  rhsNonContracting := [1]
  lhsBatch := []
  rhsBatch := []
  wf := dot_S64x128_S128x3_S64x3_1_0_0_1_n_n_wf

class Facts : Prop extends Facts₀ where

variable [Facts]
-- ==== Proof.PreFacts.lean ====
/- What the precondition says of the four index inputs. The precondition is a conjunction, conjunct by conjunct an "all elements satisfy"
   reduced by `and` from the constant true; its last four conjuncts say that every type, key and value index and every kernel
   identifier lies, read as a signed word, in [0, 5), [0, 6), [0, 10) and [0, 2): the ranges of the tables they index. The float
   conjuncts before them are never opened. -/
import proofs.«427600_j46136538693914_1_alg».proof.Pre_finite_inputs
import Idealize.ShloMosaic.Lib.ReduceAll
import Idealize.ShloMosaic.Lib.ValueIdx
import Idealize.ShloMosaic.Lib.StableHlo.Predicate

set_option maxRecDepth 16384

noncomputable section

namespace Cert.PreFacts

open Cert.Pre_finite_inputs Idealize.ShloMosaic Idealize.ShloMosaic.ValueIdx

variable [Cert.Pre_finite_inputs.Facts] {F : FTy → Type} [FloatOps F]

/-- The scalar shape has one index. -/
instance : Subsingleton S_.Idx := ⟨fun a b => funext fun d => d.elim0⟩

/-- A word that is at least zero and below `n`, both compared signed, lies in [0, n) as a signed integer. -/
theorem word_range (w n : BitVec 32) (h0 : IntOp.cmpi .sge w 0#32 = 1#1) (h1 : IntOp.cmpi .slt w n = 1#1) :
    0 ≤ w.toInt ∧ w.toInt < n.toInt := by
  unfold IntOp.cmpi at h0 h1
  rw [StableHlo.Predicate.ofBool_eq_one_iff] at h0 h1
  simp only [BitVec.slt, BitVec.sle, decide_eq_true_eq] at h0 h1
  exact ⟨by simpa using h0, h1⟩

/-- One "all elements in [0, n)" conjunct, read at an element. -/
theorem all_range {s : Shape} {ax : List (Fin s.rank)} (hr : s.ReducesTo ax S_) (hu : 0 < S_.numel) (a : IVec s 32)
    (b0 : S_.BroadcastsInDim s ![]) (n : BitVec 32)
    (e : Host.reduce IntOp.andi (andi (cmpi .sge a (broadcastInDim s ![] b0 (constantI S_ 32 0#32)))
          (cmpi .slt a (broadcastInDim s ![] b0 (constantI S_ 32 n)))) (constantI S_ 1 1#1) hr hu ix0 = 1#1) (i : s.Idx) :
    0 ≤ (a i).toInt ∧ (a i).toInt < n.toInt := by
  have h := Host.reduce_andi_all _ _ hr hu ix0 e i
  simp only [andi, cmpi, broadcastInDim, constantI] at h
  obtain ⟨h0, h1⟩ := IntOp.andi_eq_one.1 h
  exact word_range _ _ h0 h1

/-- THE FOUR RANGES: where the precondition holds, the type, key and value indices and the kernel identifiers are in the range of the
    table each indexes. -/
theorem ranges (a0 : FVec F S100000x6 .f32) (a1 : IVec S2x600000 32) (a2 : IVec S100000 32) (a3 a4 a5 : IVec S64x16 32) (a6 : IVec S64 32)
    (a7 : FVec F S64x8 .f32) (a8 : FVec F S64x6 .f32) (a9 : FVec F S6x128 .f32) (a10 : FVec F S128 .f32) (a11 : FVec F S128x128 .f32)
    (a12 : FVec F S128 .f32) (a13 : FVec F S128x128 .f32) (a14 : FVec F S128 .f32) (a15 : FVec F S5x64 .f32) (a16 : FVec F S6x64 .f32)
    (a17 : FVec F S10x64 .f32) (a18 : FVec F S192x128 .f32) (a19 : FVec F S128 .f32) (a20 : FVec F S2x16 .f32) (a21 : FVec F S8x16 .f32)
    (a22 : FVec F S16 .f32) (a23 : FVec F S6x16 .f32) (a24 : FVec F S16 .f32) (a25 : FVec F S304x128 .f32) (a26 : FVec F S128 .f32)
    (a27 : FVec F S128x3 .f32) (a28 : FVec F S3 .f32)
    (h : fn (F := F) a0 a1 a2 a3 a4 a5 a6 a7 a8 a9 a10 a11 a12 a13 a14 a15 a16 a17 a18 a19 a20 a21 a22 a23 a24 a25 a26 a27 a28 = fun _ => 1#1) :
    (∀ i : S64x16.Idx, 0 ≤ (a3 i).toInt ∧ (a3 i).toInt < 5) ∧ (∀ i : S64x16.Idx, 0 ≤ (a4 i).toInt ∧ (a4 i).toInt < 6)
      ∧ (∀ i : S64x16.Idx, 0 ≤ (a5 i).toInt ∧ (a5 i).toInt < 10) ∧ (∀ i : S64.Idx, 0 ≤ (a6 i).toInt ∧ (a6 i).toInt < 2) := by
  have e := congrFun h ix0
  dsimp only [fn, fn_part1, fn_part2, fn_part3, fn_part4, fn_part5, fn_part6, fn_part7, fn_part8] at e
  simp only [andi, IntOp.andi_eq_one] at e
  obtain ⟨⟨⟨⟨-, h3⟩, h4⟩, h5⟩, h6⟩ := e
  refine ⟨fun i => ?_, fun i => ?_, fun i => ?_, fun i => ?_⟩
  · exact all_range _ _ a3 _ 5#32 h3 i
  · exact all_range _ _ a4 _ 6#32 h4 i
  · exact all_range _ _ a5 _ 10#32 h5 i
  · exact all_range _ _ a6 _ 2#32 h6 i

end Cert.PreFacts

end
-- ==== Proof.ChainW1.lean ====
/- The host side of the kernel's program, boundary by boundary, read against the reference's stages. The kernel's program runs the same
   host operations as the reference around its four kernel regions; what each host stretch leaves in a buffer is, operation for
   operation, the reference's stage of the same number, once the buffers the stretch starts from are the reference's. This module:
   the first stretch (edge sources and destinations with self-loops appended, degrees, inverse square roots, the edge weights). -/
import proofs.«427600_j46136538693914_1_alg».proof.Proof.KernelIdealFrameP
import proofs.«427600_j46136538693914_1_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Chain

open Cert.KernelIdeal Cert.KernelIdeal.Gen Cert.KernelIdeal.GenP
open Idealize.ShloMosaic Idealize.ShloMosaic.TcCoe Idealize.ShloMosaic.StableHlo Idealize.ShloMosaic.ValueIdx Idealize.SL.Sem

variable {F : FTy → Type} [FloatOps F]
variable (m : (ℓ : Loc nD τ sig) → Buf (Elt F) ℓ) (ρ : Dev nD → PrngReg) (c : Dev nD)

/-- A buffer that no operation of a host stretch writes holds after the stretch what it held before. -/
macro "keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The launch contents of an argument. -/
abbrev arg (b : Ref sig .tc) : Buf (Elt F) ((c : Thread nD τ).loc b) := m ((c : Thread nD τ).loc b)

/-! ## Boundary 1: after the first host stretch (sources, destinations, degrees, the edge weights) -/

theorem w1_arg0 : W1 m ρ c (Proc.devRef .tc main_arg0) = arg m c main_arg0 := by
  show StableHlo.after hostOps0 (W0 m ρ c) (Proc.devRef .tc main_arg0) = W0 m ρ c (Proc.devRef .tc main_arg0)
  keeps hostOps0
theorem w1_arg9 : W1 m ρ c (Proc.devRef .tc main_arg9) = arg m c main_arg9 := by
  show StableHlo.after hostOps0 (W0 m ρ c) (Proc.devRef .tc main_arg9) = W0 m ρ c (Proc.devRef .tc main_arg9)
  keeps hostOps0
theorem w1_arg10 : W1 m ρ c (Proc.devRef .tc main_arg10) = arg m c main_arg10 := by
  show StableHlo.after hostOps0 (W0 m ρ c) (Proc.devRef .tc main_arg10) = W0 m ρ c (Proc.devRef .tc main_arg10)
  keeps hostOps0

/-- The edge sources with the self-loops appended: the reference's stage. -/
theorem w1_v3 : W1 m ρ c (Proc.devRef .tc main_v3) = Cert.ReferenceIdeal.Read.val_main_v3 (F := F) (arg m c main_arg1) := by
  dsimp only [W1, hostOps0]
  after_results
  unfold Cert.ReferenceIdeal.Read.val_main_v3 Cert.ReferenceIdeal.Read.val_main_v2 Cert.ReferenceIdeal.Read.val_main_v1 Cert.ReferenceIdeal.Read.val_main_v0
  rfl

/-- The edge destinations with the self-loops appended. -/
theorem w1_v6 : W1 m ρ c (Proc.devRef .tc main_v6) = Cert.ReferenceIdeal.Read.val_main_v6 (F := F) (arg m c main_arg1) := by
  dsimp only [W1, hostOps0]
  after_results
  unfold Cert.ReferenceIdeal.Read.val_main_v6 Cert.ReferenceIdeal.Read.val_main_v5 Cert.ReferenceIdeal.Read.val_main_v4 Cert.ReferenceIdeal.Read.val_main_v0
  rfl

set_option maxHeartbeats 4000000 in
/-- The edge weights as a column: the reference's stage. -/
theorem w1_v29 : W1 m ρ c (Proc.devRef .tc main_v29) = Cert.ReferenceIdeal.Read.val_main_v29 (F := F) (arg m c main_arg1) := by
  dsimp only [W1, hostOps0]
  after_results
  unfold Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_v23 Cert.ReferenceIdeal.Read.val_main_c_4
    Cert.ReferenceIdeal.Read.val_main_v22 Cert.ReferenceIdeal.Read.val_main_v21 Cert.ReferenceIdeal.Read.val_main_c_3 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_c_2
    Cert.ReferenceIdeal.Read.val_main_v15 Cert.ReferenceIdeal.Read.val_main_v14 Cert.ReferenceIdeal.Read.val_main_c Cert.ReferenceIdeal.Read.val_main_v13 Cert.ReferenceIdeal.Read.val_main_v12 Cert.ReferenceIdeal.Read.val_main_v11 Cert.ReferenceIdeal.Read.val_main_cst_1 Cert.ReferenceIdeal.Read.val_main_v10
    Cert.ReferenceIdeal.Read.val_main_v9 Cert.ReferenceIdeal.Read.val_main_v8 Cert.ReferenceIdeal.Read.val_main_cst_0 Cert.ReferenceIdeal.Read.val_main_v7 Cert.ReferenceIdeal.Read.val_main_cst
    Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0
  rfl

end Cert.KernelIdeal.Chain

end
-- ==== Proof.ChainW4.lean ====
/- The host side, continued: what survives the first product, and the first layer's aggregation (gather by source, scale by the edge
   weight, accumulating scatter by destination), bias and clipping, as the reference's stage. -/
import proofs.«427600_j46136538693914_1_alg».proof.Proof.ChainW1
import Idealize.ShloMosaic.Lib.StableHlo.Run
import Idealize.ShloMosaic.Lib.ValueIdx
import Idealize.ShloMosaic.Lib.Pipeline.Value

set_option maxRecDepth 16384

noncomputable section

namespace Cert.KernelIdeal.Chain

open Cert.KernelIdeal Cert.KernelIdeal.Gen Cert.KernelIdeal.GenP
open Idealize.ShloMosaic Idealize.ShloMosaic.TcCoe Idealize.ShloMosaic.StableHlo Idealize.ShloMosaic.ValueIdx Idealize.SL.Sem

variable {F : FTy → Type} [FloatOps F]
variable (m : (ℓ : Loc nD τ sig) → Buf (Elt F) ℓ) (ρ : Dev nD → PrngReg) (c : Dev nD)

/-! ## Boundary 2: after the first product. Only the product's output changes; everything the next stretch reads besides it is as at
    boundary 1. -/

theorem w2_v3 : W2 m ρ c (Proc.devRef .tc main_v3) = Cert.ReferenceIdeal.Read.val_main_v3 (F := F) (arg m c main_arg1) :=
  (W2_of_ne m ρ c main_v3 (by decide)).trans (w1_v3 m ρ c)
theorem w2_v6 : W2 m ρ c (Proc.devRef .tc main_v6) = Cert.ReferenceIdeal.Read.val_main_v6 (F := F) (arg m c main_arg1) :=
  (W2_of_ne m ρ c main_v6 (by decide)).trans (w1_v6 m ρ c)
theorem w2_v29 : W2 m ρ c (Proc.devRef .tc main_v29) = Cert.ReferenceIdeal.Read.val_main_v29 (F := F) (arg m c main_arg1) :=
  (W2_of_ne m ρ c main_v29 (by decide)).trans (w1_v29 m ρ c)
theorem w2_arg10 : W2 m ρ c (Proc.devRef .tc main_arg10) = (arg m c main_arg10) :=
  (W2_of_ne m ρ c main_arg10 (by decide)).trans (w1_arg10 m ρ c)

/-! ## Boundary 4: after the first layer's aggregation, bias and clipping -/

set_option maxHeartbeats 4000000 in
/-- The first layer's output is the reference's stage, once the first product is the reference's. -/
theorem w4_v46_of (h30 : W2 m ρ c (Proc.devRef .tc main_v30) = Cert.ReferenceIdeal.Read.val_main_v30 (F := F) (arg m c main_arg0) (arg m c main_arg9)) :
    W4 m ρ c (Proc.devRef .tc main_v46) = Cert.ReferenceIdeal.Read.val_main_v46 (F := F) (arg m c main_arg0) (arg m c main_arg1) (arg m c main_arg9) (arg m c main_arg10) := by
  dsimp only [W4, W3, hostOps1_1, hostOps1]
  after_results
  rw [h30, w2_v3 m ρ c, w2_v6 m ρ c, w2_v29 m ρ c, w2_arg10 m ρ c]
  unfold Cert.ReferenceIdeal.Read.val_main_v46 Cert.ReferenceIdeal.Read.val_main_call0_v0 Cert.ReferenceIdeal.Read.val_main_call0_cst Cert.ReferenceIdeal.Read.val_main_v45 Cert.ReferenceIdeal.Read.val_main_v44 Cert.ReferenceIdeal.Read.val_main_v43 Cert.ReferenceIdeal.Read.val_main_v42
    Cert.ReferenceIdeal.Read.val_main_v41 Cert.ReferenceIdeal.Read.val_main_v40 Cert.ReferenceIdeal.Read.val_main_cst_7 Cert.ReferenceIdeal.Read.val_main_v39 Cert.ReferenceIdeal.Read.val_main_v38 Cert.ReferenceIdeal.Read.val_main_v37 Cert.ReferenceIdeal.Read.val_main_v36 Cert.ReferenceIdeal.Read.val_main_v35
    Cert.ReferenceIdeal.Read.val_main_v34 Cert.ReferenceIdeal.Read.val_main_v33 Cert.ReferenceIdeal.Read.val_main_c_6 Cert.ReferenceIdeal.Read.val_main_v32 Cert.ReferenceIdeal.Read.val_main_v31 Cert.ReferenceIdeal.Read.val_main_c_5
  rfl

end Cert.KernelIdeal.Chain

end
-- ==== Proof.ChainW6.lean ====
/- The host side, continued: what survives the first layer's stretch and the second product, the second layer's aggregation with its
   bias and the residual, and the segment words as a column. -/
import proofs.«427600_j46136538693914_1_alg».proof.Proof.ChainW1
import Idealize.ShloMosaic.Lib.StableHlo.Run
import Idealize.ShloMosaic.Lib.ValueIdx
import Idealize.ShloMosaic.Lib.Pipeline.Value

set_option maxRecDepth 16384

noncomputable section

namespace Cert.KernelIdeal.Chain

open Cert.KernelIdeal Cert.KernelIdeal.Gen Cert.KernelIdeal.GenP
open Idealize.ShloMosaic Idealize.ShloMosaic.TcCoe Idealize.ShloMosaic.StableHlo Idealize.ShloMosaic.ValueIdx Idealize.SL.Sem

variable {F : FTy → Type} [FloatOps F]
variable (m : (ℓ : Loc nD τ sig) → Buf (Elt F) ℓ) (ρ : Dev nD → PrngReg) (c : Dev nD)

/-! ## Walking a buffer back through stretches that do not write it -/

/-- Through the first layer's aggregation and its rectifier: a buffer neither stretch writes holds at boundary 4 what it held at
    boundary 2. -/
theorem w4_of_w2 {b : Ref sig .tc}
    (h1 : StableHlo.after hostOps1 (W2 m ρ c) (Proc.devRef .tc b) = W2 m ρ c (Proc.devRef .tc b))
    (h2 : StableHlo.after hostOps1_1 (W3 m ρ c) (Proc.devRef .tc b) = W3 m ρ c (Proc.devRef .tc b)) :
    W4 m ρ c (Proc.devRef .tc b) = W2 m ρ c (Proc.devRef .tc b) := h2.trans h1

theorem w1_arg11 : W1 m ρ c (Proc.devRef .tc main_arg11) = arg m c main_arg11 := by
  show StableHlo.after hostOps0 (W0 m ρ c) (Proc.devRef .tc main_arg11) = W0 m ρ c (Proc.devRef .tc main_arg11)
  keeps hostOps0
theorem w1_arg12 : W1 m ρ c (Proc.devRef .tc main_arg12) = arg m c main_arg12 := by
  show StableHlo.after hostOps0 (W0 m ρ c) (Proc.devRef .tc main_arg12) = W0 m ρ c (Proc.devRef .tc main_arg12)
  keeps hostOps0
theorem w1_arg2 : W1 m ρ c (Proc.devRef .tc main_arg2) = arg m c main_arg2 := by
  show StableHlo.after hostOps0 (W0 m ρ c) (Proc.devRef .tc main_arg2) = W0 m ρ c (Proc.devRef .tc main_arg2)
  keeps hostOps0

/-! ## Boundary 4 and 5: what the second layer's stretch reads besides the second product -/

theorem w4_v3 : W4 m ρ c (Proc.devRef .tc main_v3) = Cert.ReferenceIdeal.Read.val_main_v3 (F := F) (arg m c main_arg1) := by
  exact (w4_of_w2 m ρ c (b := main_v3) (by keeps hostOps1) (by keeps hostOps1_1)).trans
    ((W2_of_ne m ρ c main_v3 (by decide)).trans (w1_v3 m ρ c))
theorem w4_v6 : W4 m ρ c (Proc.devRef .tc main_v6) = Cert.ReferenceIdeal.Read.val_main_v6 (F := F) (arg m c main_arg1) := by
  exact (w4_of_w2 m ρ c (b := main_v6) (by keeps hostOps1) (by keeps hostOps1_1)).trans
    ((W2_of_ne m ρ c main_v6 (by decide)).trans (w1_v6 m ρ c))
theorem w4_v29 : W4 m ρ c (Proc.devRef .tc main_v29) = Cert.ReferenceIdeal.Read.val_main_v29 (F := F) (arg m c main_arg1) := by
  exact (w4_of_w2 m ρ c (b := main_v29) (by keeps hostOps1) (by keeps hostOps1_1)).trans
    ((W2_of_ne m ρ c main_v29 (by decide)).trans (w1_v29 m ρ c))
theorem w4_arg11 : W4 m ρ c (Proc.devRef .tc main_arg11) = (arg m c main_arg11) := by
  exact (w4_of_w2 m ρ c (b := main_arg11) (by keeps hostOps1) (by keeps hostOps1_1)).trans
    ((W2_of_ne m ρ c main_arg11 (by decide)).trans (w1_arg11 m ρ c))
theorem w5_v3 : W5 m ρ c (Proc.devRef .tc main_v3) = Cert.ReferenceIdeal.Read.val_main_v3 (F := F) (arg m c main_arg1) := by
  exact (W5_of_ne m ρ c main_v3 (by decide)).trans (w4_v3 m ρ c)
theorem w5_v6 : W5 m ρ c (Proc.devRef .tc main_v6) = Cert.ReferenceIdeal.Read.val_main_v6 (F := F) (arg m c main_arg1) := by
  exact (W5_of_ne m ρ c main_v6 (by decide)).trans (w4_v6 m ρ c)
theorem w5_v29 : W5 m ρ c (Proc.devRef .tc main_v29) = Cert.ReferenceIdeal.Read.val_main_v29 (F := F) (arg m c main_arg1) := by
  exact (W5_of_ne m ρ c main_v29 (by decide)).trans (w4_v29 m ρ c)
theorem w5_arg12 : W5 m ρ c (Proc.devRef .tc main_arg12) = (arg m c main_arg12) := by
  exact (W5_of_ne m ρ c main_arg12 (by decide)).trans
    ((w4_of_w2 m ρ c (b := main_arg12) (by keeps hostOps1) (by keeps hostOps1_1)).trans
      ((W2_of_ne m ρ c main_arg12 (by decide)).trans (w1_arg12 m ρ c)))
theorem w5_arg2 : W5 m ρ c (Proc.devRef .tc main_arg2) = (arg m c main_arg2) := by
  exact (W5_of_ne m ρ c main_arg2 (by decide)).trans
    ((w4_of_w2 m ρ c (b := main_arg2) (by keeps hostOps1) (by keeps hostOps1_1)).trans
      ((W2_of_ne m ρ c main_arg2 (by decide)).trans (w1_arg2 m ρ c)))
/-- The first layer's output survives the second product. -/
theorem w5_v46_of (X : Buf (Elt F) ((c : Thread nD τ).loc main_v46)) (h : W4 m ρ c (Proc.devRef .tc main_v46) = X) :
    W5 m ρ c (Proc.devRef .tc main_v46) = X := by
  -- the first layer's output is the second product's left operand: an input window, which the region leaves as entered
  exact ((W5_arr m ρ c 0).trans (((dat1 (V4 m ρ) c).arrAt_in 0 rfl _).trans (A_eq1 (V4 m ρ) c 0))).trans h

/-! ## Boundary 6: after the second layer's aggregation, bias and residual -/

set_option maxHeartbeats 4000000 in
/-- The second layer's output is the reference's stage, once the second product and the first layer's output are the reference's. -/
theorem w6_v63_of
    (h47 : W5 m ρ c (Proc.devRef .tc main_v47) = Cert.ReferenceIdeal.Read.val_main_v47 (F := F) (arg m c main_arg0) (arg m c main_arg1) (arg m c main_arg9) (arg m c main_arg10) (arg m c main_arg11))
    (h46 : W5 m ρ c (Proc.devRef .tc main_v46) = Cert.ReferenceIdeal.Read.val_main_v46 (F := F) (arg m c main_arg0) (arg m c main_arg1) (arg m c main_arg9) (arg m c main_arg10)) :
    W6 m ρ c (Proc.devRef .tc main_v63) = Cert.ReferenceIdeal.Read.val_main_v63 (F := F) (arg m c main_arg0) (arg m c main_arg1) (arg m c main_arg9) (arg m c main_arg10) (arg m c main_arg11) (arg m c main_arg12) := by
  dsimp only [W6, hostOps2]
  after_results
  rw [h47, h46, w5_v3 m ρ c, w5_v6 m ρ c, w5_v29 m ρ c, w5_arg12 m ρ c]
  unfold Cert.ReferenceIdeal.Read.val_main_v63 Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_cst_10
    Cert.ReferenceIdeal.Read.val_main_v56 Cert.ReferenceIdeal.Read.val_main_v55 Cert.ReferenceIdeal.Read.val_main_v54 Cert.ReferenceIdeal.Read.val_main_v53 Cert.ReferenceIdeal.Read.val_main_v52 Cert.ReferenceIdeal.Read.val_main_v51 Cert.ReferenceIdeal.Read.val_main_v50 Cert.ReferenceIdeal.Read.val_main_c_9
    Cert.ReferenceIdeal.Read.val_main_v49 Cert.ReferenceIdeal.Read.val_main_v48 Cert.ReferenceIdeal.Read.val_main_c_8
  rfl

/-- The segment words as a column: the kernel's program reshapes the vector, the reference broadcasts it along a new last axis; both
    put word n at (n, 0). -/
theorem w6_v64 : W6 m ρ c (Proc.devRef .tc main_v64) = Cert.ReferenceIdeal.Read.val_main_v69 (F := F) (arg m c main_arg2) := by
  dsimp only [W6, hostOps2]
  after_results
  rw [w5_arg2 m ρ c]
  funext i
  rw [Cert.ReferenceIdeal.Read.val_main_v69_apply]
  -- word n of the vector sits at row-major position n of the column, which is (n, 0)
  have h1 : (i 1).val < 1 := (i 1).isLt
  exact shapeCast_apply (s := S100000) (t := S100000x1) (arg m c main_arg2) shapeCasts_S100000_S100000x1 i (Cert.ReferenceIdeal.Read.idx_main_v69 i)
    (by
      show (S100000.rowMajor (Cert.ReferenceIdeal.Read.idx_main_v69 i)).val = (S100000x1.rowMajor i).val
      rewrite [Shape.rowMajor_val_one, Shape.rowMajor_val_two]
      show (i 0).val = (i 0).val * 1 + (i 1).val
      omega)

end Cert.KernelIdeal.Chain

end
-- ==== Proof.ChainW8.lean ====
/- The host side, concluded: the contents the last region is entered with. The stretch before it only reshapes the kernel identifiers into
   a column and six bias vectors into rows; every other input of the region is an argument of the program, which no host operation and
   no region writes, or an output of the pooling region, which the stretch leaves alone. -/
import proofs.«427600_j46136538693914_1_alg».proof.Proof.ChainW1
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Chain

open Cert.KernelIdeal Cert.KernelIdeal.Gen Cert.KernelIdeal.GenP
open Idealize.ShloMosaic Idealize.ShloMosaic.TcCoe Idealize.ShloMosaic.StableHlo Idealize.ShloMosaic.ValueIdx Idealize.SL.Sem

variable {F : FTy → Type} [FloatOps F]
variable (m : (ℓ : Loc nD τ sig) → Buf (Elt F) ℓ) (ρ : Dev nD → PrngReg) (c : Dev nD)

/-! ## The outputs of the pooling region survive the reshapes -/

theorem v8_gsum_of (X : Buf (Elt F) ((c : Thread nD τ).loc main_v65_0)) (h : W7 m ρ c (Proc.devRef .tc main_v65_0) = X) :
    V8 m ρ c main_v65_0 = X := by
  refine Eq.trans ?_ h
  show StableHlo.after hostOps3 (W7 m ρ c) (Proc.devRef .tc main_v65_0) = W7 m ρ c (Proc.devRef .tc main_v65_0)
  keeps hostOps3
theorem v8_cnt_of (X : Buf (Elt F) ((c : Thread nD τ).loc main_v65_1)) (h : W7 m ρ c (Proc.devRef .tc main_v65_1) = X) :
    V8 m ρ c main_v65_1 = X := by
  refine Eq.trans ?_ h
  show StableHlo.after hostOps3 (W7 m ρ c) (Proc.devRef .tc main_v65_1) = W7 m ρ c (Proc.devRef .tc main_v65_1)
  keeps hostOps3

/-! ## The arguments the reshapes read: as launched

No host operation and no region writes an argument, and the last region does not stage these seven (it stages their reshaped
copies), so each holds before the last stretch what it holds at the end of the run, which is what it was launched with. -/

theorem w7_arg6 : W7 m ρ c (Proc.devRef .tc main_arg6) = arg m c main_arg6 := by
  have h8 : W8 m ρ c (Proc.devRef .tc main_arg6) = W7 m ρ c (Proc.devRef .tc main_arg6) := by
    show StableHlo.after hostOps3 (W7 m ρ c) (Proc.devRef .tc main_arg6) = W7 m ρ c (Proc.devRef .tc main_arg6)
    keeps hostOps3
  exact h8.symm.trans ((W9_of_ne m ρ c main_arg6 (by decide)).symm.trans (W9_main_arg6 m ρ c))
theorem w7_arg14 : W7 m ρ c (Proc.devRef .tc main_arg14) = arg m c main_arg14 := by
  have h8 : W8 m ρ c (Proc.devRef .tc main_arg14) = W7 m ρ c (Proc.devRef .tc main_arg14) := by
    show StableHlo.after hostOps3 (W7 m ρ c) (Proc.devRef .tc main_arg14) = W7 m ρ c (Proc.devRef .tc main_arg14)
    keeps hostOps3
  exact h8.symm.trans ((W9_of_ne m ρ c main_arg14 (by decide)).symm.trans (W9_main_arg14 m ρ c))
theorem w7_arg19 : W7 m ρ c (Proc.devRef .tc main_arg19) = arg m c main_arg19 := by
  have h8 : W8 m ρ c (Proc.devRef .tc main_arg19) = W7 m ρ c (Proc.devRef .tc main_arg19) := by
    show StableHlo.after hostOps3 (W7 m ρ c) (Proc.devRef .tc main_arg19) = W7 m ρ c (Proc.devRef .tc main_arg19)
    keeps hostOps3
  exact h8.symm.trans ((W9_of_ne m ρ c main_arg19 (by decide)).symm.trans (W9_main_arg19 m ρ c))
theorem w7_arg22 : W7 m ρ c (Proc.devRef .tc main_arg22) = arg m c main_arg22 := by
  have h8 : W8 m ρ c (Proc.devRef .tc main_arg22) = W7 m ρ c (Proc.devRef .tc main_arg22) := by
    show StableHlo.after hostOps3 (W7 m ρ c) (Proc.devRef .tc main_arg22) = W7 m ρ c (Proc.devRef .tc main_arg22)
    keeps hostOps3
  exact h8.symm.trans ((W9_of_ne m ρ c main_arg22 (by decide)).symm.trans (W9_main_arg22 m ρ c))
theorem w7_arg24 : W7 m ρ c (Proc.devRef .tc main_arg24) = arg m c main_arg24 := by
  have h8 : W8 m ρ c (Proc.devRef .tc main_arg24) = W7 m ρ c (Proc.devRef .tc main_arg24) := by
    show StableHlo.after hostOps3 (W7 m ρ c) (Proc.devRef .tc main_arg24) = W7 m ρ c (Proc.devRef .tc main_arg24)
    keeps hostOps3
  exact h8.symm.trans ((W9_of_ne m ρ c main_arg24 (by decide)).symm.trans (W9_main_arg24 m ρ c))
theorem w7_arg26 : W7 m ρ c (Proc.devRef .tc main_arg26) = arg m c main_arg26 := by
  have h8 : W8 m ρ c (Proc.devRef .tc main_arg26) = W7 m ρ c (Proc.devRef .tc main_arg26) := by
    show StableHlo.after hostOps3 (W7 m ρ c) (Proc.devRef .tc main_arg26) = W7 m ρ c (Proc.devRef .tc main_arg26)
    keeps hostOps3
  exact h8.symm.trans ((W9_of_ne m ρ c main_arg26 (by decide)).symm.trans (W9_main_arg26 m ρ c))
theorem w7_arg28 : W7 m ρ c (Proc.devRef .tc main_arg28) = arg m c main_arg28 := by
  have h8 : W8 m ρ c (Proc.devRef .tc main_arg28) = W7 m ρ c (Proc.devRef .tc main_arg28) := by
    show StableHlo.after hostOps3 (W7 m ρ c) (Proc.devRef .tc main_arg28) = W7 m ρ c (Proc.devRef .tc main_arg28)
    keeps hostOps3
  exact h8.symm.trans ((W9_of_ne m ρ c main_arg28 (by decide)).symm.trans (W9_main_arg28 m ρ c))

/-! ## The reshaped inputs, read at an index -/

/-- The kernel identifiers as a column: word b at (b, 0). -/
theorem v8_kid (b : Fin 64) : (V8 m ρ c main_v66 : S64x1.Idx → BitVec 32) (ix2 b 0) = ((arg m c main_arg6) : S64.Idx → BitVec 32) (ix1 b) := by
  dsimp only [V8, W8, hostOps3]
  after_results
  rw [w7_arg6 m ρ c]
  exact shapeCast_apply _ _ (ix2 b 0) (ix1 b) (by
    rw [Shape.rowMajor_val_one, Shape.rowMajor_val_two]
    show b.val = b.val * 1 + 0
    omega)
/-- A bias vector as a row: entry j at (0, j). -/
theorem v8_bg (j : Fin 128) : (V8 m ρ c main_v67 : S1x128.Idx → F .f32) (ix2 0 j) = ((arg m c main_arg14) : S128.Idx → F .f32) (ix1 j) := by
  dsimp only [V8, W8, hostOps3]
  after_results
  rw [w7_arg14 m ρ c]
  exact shapeCast_a_1a_apply _ _ 0 j
/-- A bias vector as a row: entry j at (0, j). -/
theorem v8_bp (j : Fin 128) : (V8 m ρ c main_v68 : S1x128.Idx → F .f32) (ix2 0 j) = ((arg m c main_arg19) : S128.Idx → F .f32) (ix1 j) := by
  dsimp only [V8, W8, hostOps3]
  after_results
  rw [w7_arg19 m ρ c]
  exact shapeCast_a_1a_apply _ _ 0 j
/-- A bias vector as a row: entry j at (0, j). -/
theorem v8_bc (j : Fin 16) : (V8 m ρ c main_v69 : S1x16.Idx → F .f32) (ix2 0 j) = ((arg m c main_arg22) : S16.Idx → F .f32) (ix1 j) := by
  dsimp only [V8, W8, hostOps3]
  after_results
  rw [w7_arg22 m ρ c]
  exact shapeCast_a_1a_apply _ _ 0 j
/-- A bias vector as a row: entry j at (0, j). -/
theorem v8_bl (j : Fin 16) : (V8 m ρ c main_v70 : S1x16.Idx → F .f32) (ix2 0 j) = ((arg m c main_arg24) : S16.Idx → F .f32) (ix1 j) := by
  dsimp only [V8, W8, hostOps3]
  after_results
  rw [w7_arg24 m ρ c]
  exact shapeCast_a_1a_apply _ _ 0 j
/-- A bias vector as a row: entry j at (0, j). -/
theorem v8_bm1 (j : Fin 128) : (V8 m ρ c main_v71 : S1x128.Idx → F .f32) (ix2 0 j) = ((arg m c main_arg26) : S128.Idx → F .f32) (ix1 j) := by
  dsimp only [V8, W8, hostOps3]
  after_results
  rw [w7_arg26 m ρ c]
  exact shapeCast_a_1a_apply _ _ 0 j
/-- A bias vector as a row: entry j at (0, j). -/
theorem v8_bm2 (j : Fin 3) : (V8 m ρ c main_v72 : S1x3.Idx → F .f32) (ix2 0 j) = ((arg m c main_arg28) : S3.Idx → F .f32) (ix1 j) := by
  dsimp only [V8, W8, hostOps3]
  after_results
  rw [w7_arg28 m ρ c]
  exact shapeCast_a_1a_apply _ _ 0 j

/-! ## The arguments the region stages directly

An input window's array is unchanged by its region, so the region's entry contents there are the end-of-run contents, which for an
argument are the launch contents. -/
theorem v8_arg3 : V8 m ρ c main_arg3 = (arg m c main_arg3) :=
  ((W9_arr m ρ c 2).trans (((dat3 (V8 m ρ) c).arrAt_in 2 rfl _).trans (A_eq3 (V8 m ρ) c 2))).symm.trans (W9_main_arg3 m ρ c)
theorem v8_arg4 : V8 m ρ c main_arg4 = (arg m c main_arg4) :=
  ((W9_arr m ρ c 3).trans (((dat3 (V8 m ρ) c).arrAt_in 3 rfl _).trans (A_eq3 (V8 m ρ) c 3))).symm.trans (W9_main_arg4 m ρ c)
theorem v8_arg5 : V8 m ρ c main_arg5 = (arg m c main_arg5) :=
  ((W9_arr m ρ c 4).trans (((dat3 (V8 m ρ) c).arrAt_in 4 rfl _).trans (A_eq3 (V8 m ρ) c 4))).symm.trans (W9_main_arg5 m ρ c)
theorem v8_arg7 : V8 m ρ c main_arg7 = (arg m c main_arg7) :=
  ((W9_arr m ρ c 6).trans (((dat3 (V8 m ρ) c).arrAt_in 6 rfl _).trans (A_eq3 (V8 m ρ) c 6))).symm.trans (W9_main_arg7 m ρ c)
theorem v8_arg8 : V8 m ρ c main_arg8 = (arg m c main_arg8) :=
  ((W9_arr m ρ c 7).trans (((dat3 (V8 m ρ) c).arrAt_in 7 rfl _).trans (A_eq3 (V8 m ρ) c 7))).symm.trans (W9_main_arg8 m ρ c)
theorem v8_arg13 : V8 m ρ c main_arg13 = (arg m c main_arg13) :=
  ((W9_arr m ρ c 8).trans (((dat3 (V8 m ρ) c).arrAt_in 8 rfl _).trans (A_eq3 (V8 m ρ) c 8))).symm.trans (W9_main_arg13 m ρ c)
theorem v8_arg15 : V8 m ρ c main_arg15 = (arg m c main_arg15) :=
  ((W9_arr m ρ c 10).trans (((dat3 (V8 m ρ) c).arrAt_in 10 rfl _).trans (A_eq3 (V8 m ρ) c 10))).symm.trans (W9_main_arg15 m ρ c)
theorem v8_arg16 : V8 m ρ c main_arg16 = (arg m c main_arg16) :=
  ((W9_arr m ρ c 11).trans (((dat3 (V8 m ρ) c).arrAt_in 11 rfl _).trans (A_eq3 (V8 m ρ) c 11))).symm.trans (W9_main_arg16 m ρ c)
theorem v8_arg17 : V8 m ρ c main_arg17 = (arg m c main_arg17) :=
  ((W9_arr m ρ c 12).trans (((dat3 (V8 m ρ) c).arrAt_in 12 rfl _).trans (A_eq3 (V8 m ρ) c 12))).symm.trans (W9_main_arg17 m ρ c)
theorem v8_arg18 : V8 m ρ c main_arg18 = (arg m c main_arg18) :=
  ((W9_arr m ρ c 13).trans (((dat3 (V8 m ρ) c).arrAt_in 13 rfl _).trans (A_eq3 (V8 m ρ) c 13))).symm.trans (W9_main_arg18 m ρ c)
theorem v8_arg20 : V8 m ρ c main_arg20 = (arg m c main_arg20) :=
  ((W9_arr m ρ c 15).trans (((dat3 (V8 m ρ) c).arrAt_in 15 rfl _).trans (A_eq3 (V8 m ρ) c 15))).symm.trans (W9_main_arg20 m ρ c)
theorem v8_arg21 : V8 m ρ c main_arg21 = (arg m c main_arg21) :=
  ((W9_arr m ρ c 16).trans (((dat3 (V8 m ρ) c).arrAt_in 16 rfl _).trans (A_eq3 (V8 m ρ) c 16))).symm.trans (W9_main_arg21 m ρ c)
theorem v8_arg23 : V8 m ρ c main_arg23 = (arg m c main_arg23) :=
  ((W9_arr m ρ c 18).trans (((dat3 (V8 m ρ) c).arrAt_in 18 rfl _).trans (A_eq3 (V8 m ρ) c 18))).symm.trans (W9_main_arg23 m ρ c)
theorem v8_arg25 : V8 m ρ c main_arg25 = (arg m c main_arg25) :=
  ((W9_arr m ρ c 20).trans (((dat3 (V8 m ρ) c).arrAt_in 20 rfl _).trans (A_eq3 (V8 m ρ) c 20))).symm.trans (W9_main_arg25 m ρ c)
theorem v8_arg27 : V8 m ρ c main_arg27 = (arg m c main_arg27) :=
  ((W9_arr m ρ c 22).trans (((dat3 (V8 m ρ) c).arrAt_in 22 rfl _).trans (A_eq3 (V8 m ρ) c 22))).symm.trans (W9_main_arg27 m ρ c)

end Cert.KernelIdeal.Chain

end
-- ==== Proof.Mat0.lean ====
/- Region 0: the row-tiled product. Twenty row tiles of 5000 rows each are multiplied by the whole right factor; at the extended reals
   the tiles' results, written back tile by tile, are the one product of the whole arrays. -/
import proofs.«427600_j46136538693914_1_alg».proof.Proof.KernelIdealFrameP
import proofs.«427600_j46136538693914_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.KernelIdeal.Mat0

open Cert.KernelIdeal Cert.KernelIdeal.Gen Cert.KernelIdeal.GenP
open Idealize.ShloMosaic Idealize.ShloMosaic.TcCoe Idealize.ShloMosaic.ValueIdx Idealize.SL.Sem

/-- The offsets of an access to a whole buffer are zero on both axes. -/
theorem zero_offsets : (![0, 0] : Fin 2 → Nat) = fun _ => 0 := funext fun a => by fin_cases a <;> rfl

/-! ## One tile's product at an index -/

/-- The left operand's row is the output's row. -/
theorem tile_lhs_0 (i : S5000x128.Idx) (q : dot_S5000x6_S6x128_S5000x128_1_0_0_1_n_n.contr.Idx) :
    (dot_S5000x6_S6x128_S5000x128_1_0_0_1_n_n.lhsIdx i q 0).val = (i 0).val := by
  unfold DotDims.lhsIdx
  rw [dif_neg (show ¬(0 : Fin S5000x6.rank) ∈ dot_S5000x6_S6x128_S5000x128_1_0_0_1_n_n.lhsBatch by decide), dif_pos (show (0 : Fin S5000x6.rank) ∈ dot_S5000x6_S6x128_S5000x128_1_0_0_1_n_n.lhsNonContracting by decide)]
  rfl
/-- The left operand's column is the summation coordinate. -/
theorem tile_lhs_1 (i : S5000x128.Idx) (q : dot_S5000x6_S6x128_S5000x128_1_0_0_1_n_n.contr.Idx) :
    (dot_S5000x6_S6x128_S5000x128_1_0_0_1_n_n.lhsIdx i q 1).val = (q ⟨0, by decide⟩).val :=
  dot_S5000x6_S6x128_S5000x128_1_0_0_1_n_n.lhsIdx_val_of_single rfl i q
/-- The right operand's row is the summation coordinate. -/
theorem tile_rhs_0 (i : S5000x128.Idx) (q : dot_S5000x6_S6x128_S5000x128_1_0_0_1_n_n.contr.Idx) :
    (dot_S5000x6_S6x128_S5000x128_1_0_0_1_n_n.rhsIdx i q 0).val = (q ⟨0, by decide⟩).val :=
  dot_S5000x6_S6x128_S5000x128_1_0_0_1_n_n.rhsIdx_val_of_single rfl i q
/-- The right operand's column is the output's column. -/
theorem tile_rhs_1 (i : S5000x128.Idx) (q : dot_S5000x6_S6x128_S5000x128_1_0_0_1_n_n.contr.Idx) :
    (dot_S5000x6_S6x128_S5000x128_1_0_0_1_n_n.rhsIdx i q 1).val = (i 1).val := by
  unfold DotDims.rhsIdx
  rw [dif_neg (show ¬(1 : Fin S6x128.rank) ∈ dot_S5000x6_S6x128_S5000x128_1_0_0_1_n_n.rhsBatch by decide), dif_pos (show (1 : Fin S6x128.rank) ∈ dot_S5000x6_S6x128_S5000x128_1_0_0_1_n_n.rhsNonContracting by decide)]
  rfl

/-- Entry (r, j) of a tile's product is the sum, over the shared coordinate k, of entry (r, k) of the left tile times
    entry (k, j) of the right factor: rounding the operands to the narrower format changes nothing at the extended reals,
    and the accumulator starts at zero. -/
theorem tile_apply (x : Vec Ideal S5000x6 .f32) (w : Vec Ideal S6x128 .f32) (r : Fin 5000) (j : Fin 128) :
    (k0_pay1 (F := Ideal) x w) (ix2 r j) = ∑ k : Fin 6, x (ix2 r k) * w (ix2 k j) := by
  unfold k0_pay1
  simp only [matmul]
  rw [Ideal.matmul_constant_zero_apply, ← Equiv.sum_comp (contrEquiv1 dot_S5000x6_S6x128_S5000x128_1_0_0_1_n_n 6 rfl rfl).symm]
  refine Finset.sum_congr rfl fun k _ => ?_
  have hk := contrEquiv1_symm_val dot_S5000x6_S6x128_S5000x128_1_0_0_1_n_n 6 rfl rfl k
  have el : dot_S5000x6_S6x128_S5000x128_1_0_0_1_n_n.lhsIdx (ix2 r j) ((contrEquiv1 dot_S5000x6_S6x128_S5000x128_1_0_0_1_n_n 6 rfl rfl).symm k) = ix2 r k := funext fun a => Fin.ext (by
    match a with
    | ⟨0, _⟩ => exact tile_lhs_0 _ _
    | ⟨1, _⟩ => exact (tile_lhs_1 _ _).trans hk)
  have er : dot_S5000x6_S6x128_S5000x128_1_0_0_1_n_n.rhsIdx (ix2 r j) ((contrEquiv1 dot_S5000x6_S6x128_S5000x128_1_0_0_1_n_n 6 rfl rfl).symm k) = ix2 k j := funext fun a => Fin.ext (by
    match a with
    | ⟨0, _⟩ => exact (tile_rhs_0 _ _).trans hk
    | ⟨1, _⟩ => exact tile_rhs_1 _ _)
  rw [el, er]
  rfl

/-! ## The product of the whole arrays -/

/-- Entry (r, j) of the product of the whole arrays: the sum over the shared coordinate. -/
def prod (X : FVec Ideal S100000x6 .f32) (W : FVec Ideal S6x128 .f32) : S100000x128.Idx → EReal := fun i =>
  ∑ k : Fin 6, X (ix2 (⟨(i 0).val, idx2_lt0 i⟩ : Fin 100000) k) * W (ix2 k (⟨(i 1).val, idx2_lt1 i⟩ : Fin 128))

/-- The reference's product, read at an index, is that sum. -/
theorem ref_apply (X : FVec Ideal S100000x6 .f32) (W : FVec Ideal S6x128 .f32) (i : S100000x128.Idx) :
    Host.dotGeneral (F := Ideal) (φ₁ := .f32) (φ₂ := .f32) Cert.ReferenceIdeal.dot_S100000x6_S6x128_S100000x128_1_0_0_1_n_n none X W i = prod X W i := by
  simp only [Host.dotGeneral]
  rw [Ideal.dotGeneral_apply, ← Equiv.sum_comp (contrEquiv1 Cert.ReferenceIdeal.dot_S100000x6_S6x128_S100000x128_1_0_0_1_n_n 6 rfl rfl).symm]
  unfold prod
  refine Finset.sum_congr rfl fun k _ => ?_
  have hk := contrEquiv1_symm_val Cert.ReferenceIdeal.dot_S100000x6_S6x128_S100000x128_1_0_0_1_n_n 6 rfl rfl k
  have el : Cert.ReferenceIdeal.dot_S100000x6_S6x128_S100000x128_1_0_0_1_n_n.lhsIdx i ((contrEquiv1 Cert.ReferenceIdeal.dot_S100000x6_S6x128_S100000x128_1_0_0_1_n_n 6 rfl rfl).symm k) = ix2 (⟨(i 0).val, idx2_lt0 i⟩ : Fin 100000) k := funext fun a => Fin.ext (by
    match a with
    | ⟨0, _⟩ => exact Cert.ReferenceIdeal.Read.lhs_main_v30_0 _ _
    | ⟨1, _⟩ => exact (Cert.ReferenceIdeal.Read.lhs_main_v30_1 _ _).trans hk)
  have er : Cert.ReferenceIdeal.dot_S100000x6_S6x128_S100000x128_1_0_0_1_n_n.rhsIdx i ((contrEquiv1 Cert.ReferenceIdeal.dot_S100000x6_S6x128_S100000x128_1_0_0_1_n_n 6 rfl rfl).symm k) = ix2 k (⟨(i 1).val, idx2_lt1 i⟩ : Fin 128) := funext fun a => Fin.ext (by
    match a with
    | ⟨0, _⟩ => exact (Cert.ReferenceIdeal.Read.rhs_main_v30_0 _ _).trans hk
    | ⟨1, _⟩ => exact Cert.ReferenceIdeal.Read.rhs_main_v30_1 _ _)
  rw [el, er]

/-- A tile of the product: if the left tile holds rows b·5000 … of the left array and the right tile is the right array, then
    entry (p, q) of the tiles' product is entry (b·5000 + p, q) of the whole product. -/
theorem tile_is_block (X : FVec Ideal S100000x6 .f32) (W : FVec Ideal S6x128 .f32) (x : Vec Ideal S5000x6 .f32) (w : Vec Ideal S6x128 .f32) (b : Nat)
    (hx : ∀ (r : Fin 5000) (k : Fin 6) (r' : Fin 100000), r'.val = b * 5000 + r.val → x (ix2 r k) = X (ix2 r' k))
    (hw : ∀ (k : Fin 6) (j : Fin 128), w (ix2 k j) = W (ix2 k j))
    (p : Fin 5000) (q : Fin 128) (i : S100000x128.Idx) (h0 : (i 0).val = b * 5000 + p.val) (h1 : (i 1).val = q.val) :
    k0_pay1 (F := Ideal) x w (ix2 p q) = prod X W i := by
  rw [tile_apply]
  unfold prod
  obtain rfl : q = ⟨(i 1).val, idx2_lt1 i⟩ := Fin.ext h1.symm
  refine Finset.sum_congr rfl fun k _ => ?_
  rw [hx p k ⟨(i 0).val, idx2_lt0 i⟩ h0, hw]

/-! ## What each grid point writes back -/

/-- Where each window's block sits at grid point t: the left tile and the output tile at block row t, the right factor whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of the whole product of the arrays the region was entered with. -/
theorem flushed_eq (c : Dev nD) (t : Fin cfg0.N) :
    (dat0 (F := Ideal) V c).flushed 2 t = ((cfg0.win 2).blk t).view.read (Elt Ideal) (prod (V c main_arg0) (V c main_arg9)) := by
  show (cfg0.win 2).cut (grid0.coords t) ((dat0 (F := Ideal) V c).after 2 t) = _
  rw [after0_2]
  unfold out0_2
  rw [View.canon_unit_zero zero_offsets]
  simp only [View.ld_unit_zero (S := S5000x6) zero_offsets, View.ld_unit_zero (S := S6x128) zero_offsets]
  obtain ⟨e00, e01, e10, e11, e20, e21⟩ := block_indices t
  funext y
  show k0_pay1 (F := Ideal) (iblk0 V c 0 t) (iblk0 V c 1 t) y = prod (V c main_arg0) (V c main_arg9) (((cfg0.win 2).blk t).view.emb y)
  obtain ⟨p, q, rfl⟩ : ∃ (p : Fin 5000) (q : Fin 128), y = ix2 p q := ⟨y 0, y 1, eq_ix2 y⟩
  refine tile_is_block _ _ _ _ t.val ?_ ?_ p q _ ?_ ?_
  · intro r k r' hr
    show V c main_arg0 (((cfg0.win 0).blk t).view.emb (ix2 r k)) = V c main_arg0 (ix2 r' k)
    refine congrArg _ (funext fun a => Fin.ext ?_)
    match a with
    | ⟨0, _⟩ => show win0_0.index t (0 : Fin 2) * 5000 + 1 * r.val = r'.val; rw [e00, hr]; omega
    | ⟨1, _⟩ => show win0_0.index t (1 : Fin 2) * 6 + 1 * k.val = k.val; rw [e01]; omega
  · intro k j
    show V c main_arg9 (((cfg0.win 1).blk t).view.emb (ix2 k j)) = V c main_arg9 (ix2 k j)
    refine congrArg _ (funext fun a => Fin.ext ?_)
    match a with
    | ⟨0, _⟩ => show win0_1.index t (0 : Fin 2) * 6 + 1 * k.val = k.val; rw [e10]; omega
    | ⟨1, _⟩ => show win0_1.index t (1 : Fin 2) * 128 + 1 * j.val = j.val; rw [e11]; omega
  · show win0_2.index t (0 : Fin 2) * 5000 + 1 * p.val = t.val * 5000 + p.val; rw [e20]; omega
  · show win0_2.index t (1 : Fin 2) * 128 + 1 * q.val = q.val; rw [e21]; omega

/-! ## The blocks cover the array -/

/-- An index lies in grid point t's output block exactly when each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index lies in a block that is written back: row r in the block of grid point r / 5000. -/
theorem cover (i : S100000x128.Idx) : ∃ t : Fin cfg0.N, (cfg0.win 2).flush t = true ∧ i ∈ ((cfg0.win 2).blk t).view.set := by
  have hi0 : (i 0).val < 100000 := idx2_lt0 i
  have hi1 : (i 1).val < 128 := idx2_lt1 i
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, e20, e21⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; rw [e20, ht]; omega
  | ⟨1, _⟩ => show win0_2.index t (1 : Fin 2) * 128 ≤ (i 1).val ∧ (i 1).val < win0_2.index t (1 : Fin 2) * 128 + 128; rw [e21]; omega

/-! ## The array after the run -/

/-- The output array after region 0's run is the product of the two arrays the region was entered with. -/
theorem arr (c : Dev nD) :
    ((dat0 (F := Ideal) V c).arrAt 2 cfg0.N : S100000x128.Idx → EReal)
      = Host.dotGeneral (F := Ideal) (φ₁ := .f32) (φ₂ := .f32) Cert.ReferenceIdeal.dot_S100000x6_S6x128_S100000x128_1_0_0_1_n_n none (V c main_arg0) (V c main_arg9) :=
  ((dat0 (F := Ideal) V c).arrAt_eq_of_cover 2 (prod (V c main_arg0) (V c main_arg9)) (fun t _ => flushed_eq V c t) cover).trans
    (funext fun i => (ref_apply (V c main_arg0) (V c main_arg9) i).symm)

end Cert.KernelIdeal.Mat0

end
-- ==== Proof.Mat1.lean ====
/- Region 1: the row-tiled product. Twenty row tiles of 5000 rows each are multiplied by the whole right factor; at the extended reals
   the tiles' results, written back tile by tile, are the one product of the whole arrays. -/
import proofs.«427600_j46136538693914_1_alg».proof.Proof.KernelIdealFrameP
import proofs.«427600_j46136538693914_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.KernelIdeal.Mat1

open Cert.KernelIdeal Cert.KernelIdeal.Gen Cert.KernelIdeal.GenP
open Idealize.ShloMosaic Idealize.ShloMosaic.TcCoe Idealize.ShloMosaic.ValueIdx Idealize.SL.Sem

/-- The offsets of an access to a whole buffer are zero on both axes. -/
theorem zero_offsets : (![0, 0] : Fin 2 → Nat) = fun _ => 0 := funext fun a => by fin_cases a <;> rfl

/-! ## One tile's product at an index -/

/-- The left operand's row is the output's row. -/
theorem tile_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the summation coordinate. -/
theorem tile_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the summation coordinate. -/
theorem tile_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem tile_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (r, j) of a tile's product is the sum, over the shared coordinate k, of entry (r, k) of the left tile times
    entry (k, j) of the right factor: recasting the left tile to its own shape is the identity, rounding the operands to the
    narrower format changes nothing at the extended reals, and the accumulator starts at zero. -/
theorem tile_apply (x : Vec Ideal S5000x128 .f32) (w : Vec Ideal S128x128 .f32) (r : Fin 5000) (j : Fin 128) :
    (k1_pay1 (F := Ideal) x w) (ix2 r j) = ∑ k : Fin 128, x (ix2 r k) * w (ix2 k j) := by
  unfold k1_pay1
  rw [shapeCast_self]
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact tile_lhs_0 _ _
    | ⟨1, _⟩ => exact (tile_lhs_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (tile_rhs_0 _ _).trans hk
    | ⟨1, _⟩ => exact tile_rhs_1 _ _)
  rw [el, er]
  rfl

/-! ## The product of the whole arrays -/

/-- Entry (r, j) of the product of the whole arrays: the sum over the shared coordinate. -/
def prod (X : FVec Ideal S100000x128 .f32) (W : FVec Ideal S128x128 .f32) : S100000x128.Idx → EReal := fun i =>
  ∑ k : Fin 128, X (ix2 (⟨(i 0).val, idx2_lt0 i⟩ : Fin 100000) k) * W (ix2 k (⟨(i 1).val, idx2_lt1 i⟩ : Fin 128))

/-- The reference's product, read at an index, is that sum. -/
theorem ref_apply (X : FVec Ideal S100000x128 .f32) (W : FVec Ideal S128x128 .f32) (i : S100000x128.Idx) :
    Host.dotGeneral (F := Ideal) (φ₁ := .f32) (φ₂ := .f32) Cert.ReferenceIdeal.dot_S100000x128_S128x128_S100000x128_1_0_0_1_n_n none X W i = prod X W i := by
  simp only [Host.dotGeneral]
  rw [Ideal.dotGeneral_apply, ← Equiv.sum_comp (contrEquiv1 Cert.ReferenceIdeal.dot_S100000x128_S128x128_S100000x128_1_0_0_1_n_n 128 rfl rfl).symm]
  unfold prod
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((contrEquiv1 Cert.ReferenceIdeal.dot_S100000x128_S128x128_S100000x128_1_0_0_1_n_n 128 rfl rfl).symm k) = ix2 (⟨(i 0).val, idx2_lt0 i⟩ : Fin 100000) k := funext fun a => Fin.ext (by
    match a with
    | ⟨0, _⟩ => exact Cert.ReferenceIdeal.Read.lhs_main_v47_0 _ _
    | ⟨1, _⟩ => exact (Cert.ReferenceIdeal.Read.lhs_main_v47_1 _ _).trans hk)
  have er : Cert.ReferenceIdeal.dot_S100000x128_S128x128_S100000x128_1_0_0_1_n_n.rhsIdx i ((contrEquiv1 Cert.ReferenceIdeal.dot_S100000x128_S128x128_S100000x128_1_0_0_1_n_n 128 rfl rfl).symm k) = ix2 k (⟨(i 1).val, idx2_lt1 i⟩ : Fin 128) := funext fun a => Fin.ext (by
    match a with
    | ⟨0, _⟩ => exact (Cert.ReferenceIdeal.Read.rhs_main_v47_0 _ _).trans hk
    | ⟨1, _⟩ => exact Cert.ReferenceIdeal.Read.rhs_main_v47_1 _ _)
  rw [el, er]

/-- A tile of the product: if the left tile holds rows b·5000 … of the left array and the right tile is the right array, then
    entry (p, q) of the tiles' product is entry (b·5000 + p, q) of the whole product. -/
theorem tile_is_block (X : FVec Ideal S100000x128 .f32) (W : FVec Ideal S128x128 .f32) (x : Vec Ideal S5000x128 .f32) (w : Vec Ideal S128x128 .f32) (b : Nat)
    (hx : ∀ (r : Fin 5000) (k : Fin 128) (r' : Fin 100000), r'.val = b * 5000 + r.val → x (ix2 r k) = X (ix2 r' k))
    (hw : ∀ (k : Fin 128) (j : Fin 128), w (ix2 k j) = W (ix2 k j))
    (p : Fin 5000) (q : Fin 128) (i : S100000x128.Idx) (h0 : (i 0).val = b * 5000 + p.val) (h1 : (i 1).val = q.val) :
    k1_pay1 (F := Ideal) x w (ix2 p q) = prod X W i := by
  rw [tile_apply]
  unfold prod
  obtain rfl : q = ⟨(i 1).val, idx2_lt1 i⟩ := Fin.ext h1.symm
  refine Finset.sum_congr rfl fun k _ => ?_
  rw [hx p k ⟨(i 0).val, idx2_lt0 i⟩ h0, hw]

/-! ## What each grid point writes back -/

/-- Where each window's block sits at grid point t: the left tile and the output tile at block row t, the right factor whole. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point t writes back is block t of the whole product of the arrays the region was entered with. -/
theorem flushed_eq (c : Dev nD) (t : Fin cfg1.N) :
    (dat1 (F := Ideal) V c).flushed 2 t = ((cfg1.win 2).blk t).view.read (Elt Ideal) (prod (V c main_v46) (V c main_arg11)) := by
  show (cfg1.win 2).cut (grid1.coords t) ((dat1 (F := Ideal) V c).after 2 t) = _
  rw [after1_2]
  unfold out1_2
  rw [View.canon_unit_zero zero_offsets]
  simp only [View.ld_unit_zero (S := S5000x128) zero_offsets, View.ld_unit_zero (S := S128x128) zero_offsets]
  obtain ⟨e00, e01, e10, e11, e20, e21⟩ := block_indices t
  funext y
  show k1_pay1 (F := Ideal) (iblk1 V c 0 t) (iblk1 V c 1 t) y = prod (V c main_v46) (V c main_arg11) (((cfg1.win 2).blk t).view.emb y)
  obtain ⟨p, q, rfl⟩ : ∃ (p : Fin 5000) (q : Fin 128), y = ix2 p q := ⟨y 0, y 1, eq_ix2 y⟩
  refine tile_is_block _ _ _ _ t.val ?_ ?_ p q _ ?_ ?_
  · intro r k r' hr
    show V c main_v46 (((cfg1.win 0).blk t).view.emb (ix2 r k)) = V c main_v46 (ix2 r' k)
    refine congrArg _ (funext fun a => Fin.ext ?_)
    match a with
    | ⟨0, _⟩ => show win1_0.index t (0 : Fin 2) * 5000 + 1 * r.val = r'.val; rw [e00, hr]; omega
    | ⟨1, _⟩ => show win1_0.index t (1 : Fin 2) * 128 + 1 * k.val = k.val; rw [e01]; omega
  · intro k j
    show V c main_arg11 (((cfg1.win 1).blk t).view.emb (ix2 k j)) = V c main_arg11 (ix2 k j)
    refine congrArg _ (funext fun a => Fin.ext ?_)
    match a with
    | ⟨0, _⟩ => show win1_1.index t (0 : Fin 2) * 128 + 1 * k.val = k.val; rw [e10]; omega
    | ⟨1, _⟩ => show win1_1.index t (1 : Fin 2) * 128 + 1 * j.val = j.val; rw [e11]; omega
  · show win1_2.index t (0 : Fin 2) * 5000 + 1 * p.val = t.val * 5000 + p.val; rw [e20]; omega
  · show win1_2.index t (1 : Fin 2) * 128 + 1 * q.val = q.val; rw [e21]; omega

/-! ## The blocks cover the array -/

/-- An index lies in grid point t's output block exactly when each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every index lies in a block that is written back: row r in the block of grid point r / 5000. -/
theorem cover (i : S100000x128.Idx) : ∃ t : Fin cfg1.N, (cfg1.win 2).flush t = true ∧ i ∈ ((cfg1.win 2).blk t).view.set := by
  have hi0 : (i 0).val < 100000 := idx2_lt0 i
  have hi1 : (i 1).val < 128 := idx2_lt1 i
  obtain ⟨t, ht⟩ : ∃ t : Fin cfg1.N, t.val = (i 0).val / 5000 :=
    ⟨⟨(i 0).val / 5000, by show (i 0).val / 5000 < grid1.N; rw [N_1]; omega⟩, rfl⟩
  obtain ⟨-, -, -, -, e20, e21⟩ := block_indices t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; rw [e20, ht]; omega
  | ⟨1, _⟩ => show win1_2.index t (1 : Fin 2) * 128 ≤ (i 1).val ∧ (i 1).val < win1_2.index t (1 : Fin 2) * 128 + 128; rw [e21]; omega

/-! ## The array after the run -/

/-- The output array after region 1's run is the product of the two arrays the region was entered with. -/
theorem arr (c : Dev nD) :
    ((dat1 (F := Ideal) V c).arrAt 2 cfg1.N : S100000x128.Idx → EReal)
      = Host.dotGeneral (F := Ideal) (φ₁ := .f32) (φ₂ := .f32) Cert.ReferenceIdeal.dot_S100000x128_S128x128_S100000x128_1_0_0_1_n_n none (V c main_v46) (V c main_arg11) :=
  ((dat1 (F := Ideal) V c).arrAt_eq_of_cover 2 (prod (V c main_v46) (V c main_arg11)) (fun t _ => flushed_eq V c t) cover).trans
    (funext fun i => (ref_apply (V c main_v46) (V c main_arg11) i).symm)

end Cert.KernelIdeal.Mat1

end
-- ==== Proof.LibIndexOps.lean ====
import Idealize.ShloMosaic.PureOps.Ideal
import Idealize.ShloMosaic.Lib.ValueIdx
import Idealize.ShloMosaic.Lib.StableHlo.Predicate

/-!
Row gathers and accumulating scatters read at an index.

`x[idx]` on a matrix gathers whole rows: row `e` of the result is the operand's row at the start index word of
position `e`, read signed and clamped into the row range. An accumulating scatter of rows (or of scalars) by an index
vector adds, at each operand element, every update whose index word, read signed, is that element's row; an update
whose word is outside the row range is dropped. At the extended reals the accumulation is the exact sum.
-/

noncomputable section

namespace Idealize.ShloMosaic.IndexOps

open Idealize.ShloMosaic Idealize.ShloMosaic.ValueIdx

/-- An element of a one-element list, at any valid position, is that element. -/
private theorem getElem_of_eq_singleton {β : Type} (l : List β) (a : β) (hl : l = [a]) (i : Nat) (h : i < l.length) :
    l[i] = a := by
  subst hl
  have h0 : i = 0 := by simpa using h
  subst h0
  rfl

/-- A row gather read at `(e, k)`: the operand's row at position `e`'s start index, read signed and clamped into
    `[0, N − 1]`, at column `k`. -/
theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (k : Fin C) :
    Host.gather d x idx (ix2 e k) = x (ix2 ⟨min (idx (ix2 e 0)).toInt.toNat (N - 1), by omega⟩ k) := by
  unfold Host.gather
  congr 1
  funext a
  have hb : ∀ a : Fin 2, a ∉ d.operandBatchingDims := by intro a; rw [hob]; exact List.not_mem_nil
  match a with
  | ⟨0, _⟩ =>
    -- the row axis: collapsed and start-indexed, so the coordinate is the clamped start alone
    apply Fin.ext
    show d.start (ix2 e k) idx 0 + d.batchCoord (ix2 e k) 0 + d.offCoord (ix2 e k) 0 = min (idx (ix2 e 0)).toInt.toNat (N - 1)
    have hk : (0 : Fin 2) ∉ d.sKept := by rw [GatherDims.mem_sKept, hcoll]; simp
    have hm : (0 : Fin 2) ∈ d.startIndexMap := by rw [hsim]; exact List.mem_singleton.mpr rfl
    rw [d.batchCoord_eq_zero _ _ (hb 0), d.offCoord_eq_zero _ _ hk]
    simp only [Nat.add_zero]
    unfold GatherDims.start
    rw [dif_pos hm]
    have hsl : d.sliceSizes 0 = 1 := by rw [hss]; rfl
    have hbd : d.batchDims = [0] := by
      show (⟨2, ![n, C]⟩ : Shape).kept d.offsetDims = [0]
      rw [hoff]; rfl
    have hsi : d.siIdx (ix2 e k) ⟨d.startIndexMap.idxOf 0, List.idxOf_lt_length_iff.2 hm⟩ = ix2 e 0 := by
      funext b
      match b with
      | ⟨0, _⟩ =>
        -- the result's one batch axis is axis 0, and it reads the start indices' axis 0
        unfold GatherDims.siIdx
        rw [dif_neg (by rw [hivd]; simp)]
        unfold GatherDims.siCoord
        apply Fin.ext
        simp only [Fin.val_cast]
        have key : ∀ X : Fin 2, X = 0 → ((ix2 e k : (⟨2, ![n, C]⟩ : Shape).Idx) X).val = e.val := by
          intro X hX; subst hX; rfl
        exact key _ (getElem_of_eq_singleton _ _ hbd _ _)
      | ⟨1, _⟩ =>
        unfold GatherDims.siIdx
        rw [dif_pos (by rw [hivd])]
        apply Fin.ext
        show List.idxOf (0 : Fin 2) d.startIndexMap = 0
        rw [hsim]; simp
    rw [hsi, hsl]
    rfl
  | ⟨1, _⟩ =>
    -- the column axis: kept whole, so the coordinate is the result's coordinate on its one offset axis
    apply Fin.ext
    show d.start (ix2 e k) idx 1 + d.batchCoord (ix2 e k) 1 + d.offCoord (ix2 e k) 1 = k.val
    have hm : (1 : Fin 2) ∉ d.startIndexMap := by rw [hsim]; simp
    have hk : (1 : Fin 2) ∈ d.sKept := by rw [GatherDims.mem_sKept, hcoll, hob]; simp
    rw [d.batchCoord_eq_zero _ _ (hb 1)]
    unfold GatherDims.start
    rw [dif_neg hm]
    unfold GatherDims.offCoord
    rw [dif_pos hk]
    simp only [Nat.add_zero, Nat.zero_add]
    have key : ∀ X : Fin 2, X = 1 → ((ix2 e k : (⟨2, ![n, C]⟩ : Shape).Idx) X).val = k.val := by
      intro X hX; subst hX; rfl
    exact key _ (getElem_of_eq_singleton _ _ hoff _ _)

/-- A gather of scalars out of a vector read at `e` (the library's `Predicate.gather_take`, at `ix1` / `ix2`). -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1) (hN : 0 < N)
    (x : (⟨1, ![N]⟩ : Shape).Idx → α) (idx : IVec ⟨2, ![n, 1]⟩ w) (e : Fin n) :
    Host.gather d x idx (ix1 e) = x (ix1 ⟨min (idx (ix2 e 0)).toInt.toNat (N - 1), by omega⟩) := by
  have h1 : ∀ {m : Nat} (p : Fin m), (ix1 p : (⟨1, ![m]⟩ : Shape).Idx) = Shape.Idx.ofFin p := by
    intro m p; funext a
    obtain rfl : a = 0 := Subsingleton.elim _ _
    exact Fin.ext rfl
  have h2 : (ix2 e (0 : Fin 1) : (⟨2, ![n, 1]⟩ : Shape).Idx) = StableHlo.Predicate.ixP e := by
    funext a
    match a with
    | ⟨0, _⟩ => rfl
    | ⟨1, _⟩ => rfl
  rw [h1, h1]
  refine (StableHlo.Predicate.gather_take d hcoll hob hsim hivd x idx e hN).trans
    (congrArg x (congrArg Shape.Idx.ofFin (Fin.ext ?_)))
  show min (idx (StableHlo.Predicate.ixP e)).toInt.toNat (N - 1) = min (idx (ix2 e 0)).toInt.toNat (N - 1)
  rw [h2]

section Rows
variable {N C n w : Nat} (d : ScatterDims ⟨2, ![N, C]⟩ ⟨2, ![n, 1]⟩ ⟨2, ![n, C]⟩)

/-- With one index component per position, update `(e, k')` reads its start index at `(e, 0)`. -/
private theorem rows_siIdx (huw : d.updateWindowDims = [1]) (hivd : d.indexVectorDim = 1)
    (e : Fin n) (k' : Fin C) (c : Fin d.scatterDimsToOperandDims.length) (hc : c.val = 0) :
    d.siIdx (ix2 e k') c = ix2 e 0 := by
  have hus : d.uScatter = [0] := by
    show (⟨2, ![n, C]⟩ : Shape).kept d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    have key : ∀ X : Fin 2, X = 0 → ((ix2 e k' : (⟨2, ![n, C]⟩ : Shape).Idx) X).val = e.val := by
      intro X hX; subst hX; rfl
    exact key _ (getElem_of_eq_singleton _ _ hus _ _)
  | ⟨1, _⟩ =>
    unfold ScatterDims.siIdx
    rw [dif_pos (by rw [hivd])]
    apply Fin.ext
    exact hc

/-- The start on the row axis is position `e`'s index word read signed. -/
private theorem rows_start0 (huw : d.updateWindowDims = [1]) (hsd : d.scatterDimsToOperandDims = [0])
    (hivd : d.indexVectorDim = 1) (idx : IVec ⟨2, ![n, 1]⟩ w) (e : Fin n) (k' : Fin C) :
    d.start (ix2 e k') idx 0 = (idx (ix2 e 0)).toInt := by
  have hm : (0 : Fin 2) ∈ d.scatterDimsToOperandDims := by rw [hsd]; exact List.mem_singleton.mpr rfl
  unfold ScatterDims.start
  rw [dif_pos hm, rows_siIdx d huw hivd e k' _ (by show List.idxOf (0 : Fin 2) d.scatterDimsToOperandDims = 0; rw [hsd]; simp)]

/-- The start on the column axis, which the map does not name, is zero. -/
private theorem rows_start1 (hsd : d.scatterDimsToOperandDims = [0]) (idx : IVec ⟨2, ![n, 1]⟩ w)
    (j : (⟨2, ![n, C]⟩ : Shape).Idx) : d.start j idx 1 = 0 := by
  unfold ScatterDims.start
  rw [dif_neg (by rw [hsd]; simp)]

/-- The window coordinate on the inserted row axis is zero. -/
private theorem rows_window0 (hiw : d.insertedWindowDims = [0]) (j : (⟨2, ![n, C]⟩ : Shape).Idx) : d.window j 0 = 0 := by
  unfold ScatterDims.window
  rw [dif_neg (by simp [ScatterDims.sKept, Shape.kept, hiw])]

/-- The window coordinate on the column axis is the update's column. -/
private theorem rows_window1 (huw : d.updateWindowDims = [1]) (hiw : d.insertedWindowDims = [0]) (e : Fin n) (k' : Fin C) :
    d.window (ix2 e k') 1 = k'.val := by
  unfold ScatterDims.window
  rw [dif_pos (by simp [ScatterDims.sKept, Shape.kept, hiw, List.mem_filter, List.mem_finRange])]
  have key : ∀ X : Fin 2, X = 1 → ((ix2 e k' : (⟨2, ![n, C]⟩ : Shape).Idx) X).val = k'.val := by
    intro X hX; subst hX; rfl
  exact key _ (getElem_of_eq_singleton _ _ huw _ _)

/-- Update `(e, k')` lands at `(i, k)` exactly when position `e`'s index word read signed is `i` and the columns
    agree; a word outside `[0, N)` lands nowhere. -/
private theorem rows_resultIdx_iff (huw : d.updateWindowDims = [1]) (hiw : d.insertedWindowDims = [0])
    (hsd : d.scatterDimsToOperandDims = [0]) (hivd : d.indexVectorDim = 1) (idx : IVec ⟨2, ![n, 1]⟩ w)
    (e : Fin n) (k' : Fin C) (i : Fin N) (k : Fin C) :
    d.resultIdx? (ix2 e k') idx = some (ix2 i k) ↔ (idx (ix2 e 0)).toInt = (i.val : ℤ) ∧ k' = k := by
  have hs0 := rows_start0 d huw hsd hivd idx e k'
  have hs1 := rows_start1 d hsd idx (ix2 e k')
  have hw0 := rows_window0 d hiw (ix2 e k')
  have hw1 := rows_window1 d huw hiw e k'
  have hi := i.isLt
  have hk' := k'.isLt
  constructor
  · intro h
    unfold ScatterDims.resultIdx? at h
    split at h
    · next hr =>
      have hf := Option.some.inj h
      have h0 := congrArg Fin.val (congrFun hf 0)
      have h1 := congrArg Fin.val (congrFun hf 1)
      have hr0 := (hr 0).1
      change (d.start (ix2 e k') idx 0 + (d.window (ix2 e k') 0 : ℤ)).toNat = i.val at h0
      change (d.start (ix2 e k') idx 1 + (d.window (ix2 e k') 1 : ℤ)).toNat = k.val at h1
      rw [hs0, hw0] at h0 hr0
      rw [hs1, hw1] at h1
      refine ⟨by omega, Fin.ext (by omega)⟩
    · exact absurd h (by simp)
  · rintro ⟨hi', rfl⟩
    have hr : ∀ a, 0 ≤ d.start (ix2 e k') idx a + d.window (ix2 e k') a ∧
        d.start (ix2 e k') idx a + d.window (ix2 e k') a < (⟨2, ![N, C]⟩ : Shape).size a := by
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hs0, hw0, hi']; omega
      | ⟨1, _⟩ =>
        show 0 ≤ d.start (ix2 e k') idx 1 + (d.window (ix2 e k') 1 : ℤ) ∧ d.start (ix2 e k') idx 1 + (d.window (ix2 e k') 1 : ℤ) < (C : ℤ)
        rw [hs1, hw1]; omega
    unfold ScatterDims.resultIdx?
    rw [dif_pos hr]
    congr 1
    funext a
    match a with
    | ⟨0, _⟩ =>
      apply Fin.ext
      show (d.start (ix2 e k') idx 0 + (d.window (ix2 e k') 0 : ℤ)).toNat = i.val
      rw [hs0, hw0, hi']; omega
    | ⟨1, _⟩ =>
      apply Fin.ext
      show (d.start (ix2 e k') idx 1 + (d.window (ix2 e k') 1 : ℤ)).toNat = k'.val
      rw [hs1, hw1]; omega

end Rows

section Vec
variable {N n w : Nat} (d : ScatterDims ⟨1, ![N]⟩ ⟨2, ![n, 1]⟩ ⟨1, ![n]⟩)

/-- With one index component per position, update `e` reads its start index at `(e, 0)`. -/
private theorem vec_siIdx (hivd : d.indexVectorDim = 1) (e : Fin n) (c : Fin d.scatterDimsToOperandDims.length)
    (hc : c.val = 0) : d.siIdx (ix1 e) c = ix2 e 0 := by
  funext b
  match b with
  | ⟨0, _⟩ =>
    unfold ScatterDims.siIdx
    rw [dif_neg (by rw [hivd]; simp)]
    unfold ScatterDims.siCoord
    apply Fin.ext
    simp only [Fin.val_cast]
    have key : ∀ X : Fin 1, ((ix1 e : (⟨1, ![n]⟩ : Shape).Idx) X).val = e.val := by
      intro X
      obtain rfl : X = 0 := Subsingleton.elim _ _
      rfl
    exact key _
  | ⟨1, _⟩ =>
    unfold ScatterDims.siIdx
    rw [dif_pos (by rw [hivd])]
    apply Fin.ext
    exact hc

/-- The start on the vector's axis is position `e`'s index word read signed. -/
private theorem vec_start0 (hsd : d.scatterDimsToOperandDims = [0]) (hivd : d.indexVectorDim = 1)
    (idx : IVec ⟨2, ![n, 1]⟩ w) (e : Fin n) : d.start (ix1 e) idx 0 = (idx (ix2 e 0)).toInt := by
  have hm : (0 : Fin 1) ∈ d.scatterDimsToOperandDims := by rw [hsd]; exact List.mem_singleton.mpr rfl
  unfold ScatterDims.start
  rw [dif_pos hm, vec_siIdx d hivd e _ (by show List.idxOf (0 : Fin 1) d.scatterDimsToOperandDims = 0; rw [hsd]; simp)]

/-- The window coordinate on the inserted axis is zero. -/
private theorem vec_window0 (hiw : d.insertedWindowDims = [0]) (j : (⟨1, ![n]⟩ : Shape).Idx) : d.window j 0 = 0 := by
  unfold ScatterDims.window
  rw [dif_neg (by simp [ScatterDims.sKept, Shape.kept, hiw])]

/-- Update `e` lands at `i` exactly when its index word read signed is `i`; a word outside `[0, N)` lands nowhere. -/
private theorem vec_resultIdx_iff (hiw : d.insertedWindowDims = [0]) (hsd : d.scatterDimsToOperandDims = [0])
    (hivd : d.indexVectorDim = 1) (idx : IVec ⟨2, ![n, 1]⟩ w) (e : Fin n) (i : Fin N) :
    d.resultIdx? (ix1 e) idx = some (ix1 i) ↔ (idx (ix2 e 0)).toInt = (i.val : ℤ) := by
  have hs0 := vec_start0 d hsd hivd idx e
  have hw0 := vec_window0 d hiw (ix1 e)
  have hi := i.isLt
  constructor
  · intro h
    unfold ScatterDims.resultIdx? at h
    split at h
    · next hr =>
      have hf := Option.some.inj h
      have h0 := congrArg Fin.val (congrFun hf 0)
      have hr0 := (hr 0).1
      change (d.start (ix1 e) idx 0 + (d.window (ix1 e) 0 : ℤ)).toNat = i.val at h0
      rw [hs0, hw0] at h0 hr0
      omega
    · exact absurd h (by simp)
  · intro hi'
    have hr : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      show 0 ≤ d.start (ix1 e) idx 0 + (d.window (ix1 e) 0 : ℤ) ∧ d.start (ix1 e) idx 0 + (d.window (ix1 e) 0 : ℤ) < (N : ℤ)
      rw [hs0, hw0, hi']; omega
    unfold ScatterDims.resultIdx?
    rw [dif_pos hr]
    congr 1
    funext a
    obtain rfl : a = 0 := Subsingleton.elim _ _
    apply Fin.ext
    show (d.start (ix1 e) idx 0 + (d.window (ix1 e) 0 : ℤ)).toNat = i.val
    rw [hs0, hw0, hi']; omega

end Vec

open Classical in
/-- An accumulating scatter of rows read at `(i, k)`: the operand's element plus the sum, over the positions whose index
    word read signed is `i`, of the update's element at column `k`. -/
theorem scatterAdd_rows_apply {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (i : Fin N) (k : Fin C) :
    Ideal.hostScatterAdd d x idx upd (ix2 i k)
      = x (ix2 i k) + ∑ e ∈ Finset.univ.filter (fun e : Fin n => (idx (ix2 e 0)).toInt = (i.val : ℤ)), upd (ix2 e k) := by
  unfold Ideal.hostScatterAdd
  congr 1
  symm
  -- position `e` ↦ update `(e, k)` is a bijection from the positions whose word is `i` onto the updates landing at `(i, k)`
  refine Finset.sum_bij (fun e _ => ix2 e k) ?_ ?_ ?_ ?_
  · intro e he
    rw [Finset.mem_filter] at he ⊢
    exact ⟨Finset.mem_univ _, (rows_resultIdx_iff d huw hiw hsd hivd idx e k i k).2 ⟨he.2, rfl⟩⟩
  · intro e _ e' _ h
    exact congrFun h 0
  · intro j hj
    rw [Finset.mem_filter] at hj
    obtain ⟨e, k', rfl⟩ : ∃ e k', j = ix2 e k' := ⟨j 0, j 1, eq_ix2 j⟩
    obtain ⟨he, rfl⟩ := (rows_resultIdx_iff d huw hiw hsd hivd idx e k' i k).1 hj.2
    exact ⟨e, Finset.mem_filter.2 ⟨Finset.mem_univ _, he⟩, rfl⟩
  · intro e _
    rfl

open Classical in
/-- An accumulating scatter of scalars into a vector read at `i`. -/
theorem scatterAdd_vec_apply {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (i : Fin N) :
    Ideal.hostScatterAdd d x idx upd (ix1 i)
      = x (ix1 i) + ∑ e ∈ Finset.univ.filter (fun e : Fin n => (idx (ix2 e 0)).toInt = (i.val : ℤ)), upd (ix1 e) := by
  unfold Ideal.hostScatterAdd
  congr 1
  symm
  -- position `e` ↦ update `e` is a bijection from the positions whose word is `i` onto the updates landing at `i`
  refine Finset.sum_bij (fun e _ => ix1 e) ?_ ?_ ?_ ?_
  · intro e he
    rw [Finset.mem_filter] at he ⊢
    exact ⟨Finset.mem_univ _, (vec_resultIdx_iff d hiw hsd hivd idx e i).2 he.2⟩
  · intro e _ e' _ h
    exact congrFun h 0
  · intro j hj
    rw [Finset.mem_filter] at hj
    obtain ⟨e, rfl⟩ : ∃ e, j = ix1 e := ⟨j 0, eq_ix1 j⟩
    exact ⟨e, Finset.mem_filter.2 ⟨Finset.mem_univ _, (vec_resultIdx_iff d hiw hsd hivd idx e i).1 hj.2⟩, rfl⟩
  · intro e _
    rfl

end Idealize.ShloMosaic.IndexOps

end
-- ==== Proof.PoolTile.lean ====
/- One tile of the pooled sums, read at an index. The tile's one-hot matrix has a one at (r, b) exactly when row r's segment word is
   the word of b; contracting it with the tile's rows over r adds up the rows whose word is b, and with a column of ones counts them. -/
import proofs.«427600_j46136538693914_1_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.IdealHost

set_option maxRecDepth 16384

noncomputable section

namespace Cert.KernelIdeal.PoolTile

open Cert.KernelIdeal Cert.KernelIdeal.Gen
open Idealize.ShloMosaic Idealize.ShloMosaic.ValueIdx

/-! ## A 32-bit word against the word of a small number -/

/-- For `b` below 64, a 32-bit word (any word: negative or large ones included) is the word of `b` exactly when its signed
    value is `b`. -/
theorem word_eq_ofNat_iff (w : BitVec 32) (b : Fin 64) : w = BitVec.ofNat 32 b.val ↔ w.toInt = (b.val : ℤ) := by
  have hb := b.isLt
  have hw := w.isLt
  rw [← BitVec.toNat_inj, BitVec.toNat_ofNat, BitVec.toInt_eq_toNat_cond]
  constructor
  · intro h; rw [h]; split_ifs <;> omega
  · intro h; split_ifs at h <;> omega

/-! ## The one-hot matrix at an entry -/

/-- The one-hot matrix at (r, b) is the comparison bit of row r's segment word with the word of b, widened to 32 bits and read
    as a signed integer: the format change to bf16 is the identity on the extended reals. -/
theorem onehot_word (seg : Vec Ideal S5000x1 .i32) (r : Fin 5000) (b : Fin 64) :
    k2_pay3 (F := Ideal) seg (ix2 r b)
      = (((((IntOp.cmpi .eq (seg (ix2 r 0)) (BitVec.ofNat 32 b.val)).setWidth 32).toInt : ℤ) : ℝ) : EReal) := by
  unfold k2_pay3
  dsimp only
  rw [truncf_apply, sitofp_apply, extui_apply]
  show FloatOps.sitofp (F := Ideal) .f32 ((IntOp.cmpi .eq (broadcastTo S5000x64 (shapeCast S5000x1 seg shapeCasts_S5000x1_S5000x1) broadcasts_S5000x1_S5000x64 (ix2 r b)) (iota .tc S5000x64 32 [1] iota_S5000x64_d1_w32 (ix2 r b))).setWidth 32) = _
  rw [iota_single_apply, shapeCast_self]
  rw [broadcastTo_apply seg broadcasts_S5000x1_S5000x64 (ix2 r b) (ix2 r 0) (fun a => by
    match a with
    | ⟨0, _⟩ => rfl
    | ⟨1, _⟩ => rfl)]
  rfl

/-- Where row r's segment word has the signed value b, the entry is one. -/
theorem onehot_of_eq (seg : Vec Ideal S5000x1 .i32) (r : Fin 5000) (b : Fin 64) (h : (seg (ix2 r 0)).toInt = (b.val : ℤ)) :
    k2_pay3 (F := Ideal) seg (ix2 r b) = 1 := by
  rw [onehot_word, (word_eq_ofNat_iff _ b).mpr h]
  have e : IntOp.cmpi .eq (BitVec.ofNat 32 b.val) (BitVec.ofNat 32 b.val) = 1#1 := by
    simp only [IntOp.cmpi, beq_self_eq_true, BitVec.ofBool_true]
    rfl
  rw [e]
  norm_num

/-- Where it has any other value, the entry is zero. -/
theorem onehot_of_ne (seg : Vec Ideal S5000x1 .i32) (r : Fin 5000) (b : Fin 64) (h : ¬ (seg (ix2 r 0)).toInt = (b.val : ℤ)) :
    k2_pay3 (F := Ideal) seg (ix2 r b) = 0 := by
  rw [onehot_word]
  have hne : ¬ seg (ix2 r 0) = BitVec.ofNat 32 b.val := fun hw => h ((word_eq_ofNat_iff _ b).mp hw)
  have e : IntOp.cmpi .eq (seg (ix2 r 0)) (BitVec.ofNat 32 b.val) = 0#1 := by
    simp only [IntOp.cmpi, beq_eq_false_iff_ne.mpr hne, BitVec.ofBool_false]
    rfl
  rw [e]
  norm_num

/-! ## The two products read at an index: both operands are contracted over their axis 0, the rows of the tile -/

theorem lhs_sums_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs_sums_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_sums_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs_sums_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The [5000,64] by [5000,128] product into a zero accumulator, at (b, j): the sum over the rows r of the left operand at
    (r, b) times the right operand at (r, j). -/
theorem matmul_sums_apply (lhs : FVec Ideal S5000x64 .bf16) (rhs : FVec Ideal S5000x128 .bf16) (b : Fin 64) (j : Fin 128) :
    matmul dot_S5000x64_S5000x128_S64x128_0_0_1_1_n_n none lhs rhs (constant (F := Ideal) S64x128 .f32 0x00000000#32) (ix2 b j)
      = ∑ r : Fin 5000, lhs (ix2 r b) * rhs (ix2 r j) := by
  simp only [matmul]
  rw [Ideal.matmul_constant_zero_apply, ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 b j) ((contrEquiv1 dot_S5000x64_S5000x128_S64x128_0_0_1_1_n_n 5000 rfl rfl).symm k) = ix2 k b := funext fun a => Fin.ext (by
    match a with
    | ⟨0, _⟩ => exact (lhs_sums_0 _ _).trans hk
    | ⟨1, _⟩ => exact lhs_sums_1 _ _)
  have er : dot_S5000x64_S5000x128_S64x128_0_0_1_1_n_n.rhsIdx (ix2 b j) ((contrEquiv1 dot_S5000x64_S5000x128_S64x128_0_0_1_1_n_n 5000 rfl rfl).symm k) = ix2 k j := funext fun a => Fin.ext (by
    match a with
    | ⟨0, _⟩ => exact (rhs_sums_0 _ _).trans hk
    | ⟨1, _⟩ => exact rhs_sums_1 _ _)
  rw [el, er]

theorem lhs_counts_0 (i : S64x1.Idx) (q : dot_S5000x64_S5000x1_S64x1_0_0_1_1_n_n.contr.Idx) :
    (dot_S5000x64_S5000x1_S64x1_0_0_1_1_n_n.lhsIdx i q 0).val = (q ⟨0, by decide⟩).val :=
  dot_S5000x64_S5000x1_S64x1_0_0_1_1_n_n.lhsIdx_val_of_single rfl i q
theorem lhs_counts_1 (i : S64x1.Idx) (q : dot_S5000x64_S5000x1_S64x1_0_0_1_1_n_n.contr.Idx) :
    (dot_S5000x64_S5000x1_S64x1_0_0_1_1_n_n.lhsIdx i q 1).val = (i 0).val := by
  unfold DotDims.lhsIdx
  rw [dif_neg (show ¬(1 : Fin S5000x64.rank) ∈ dot_S5000x64_S5000x1_S64x1_0_0_1_1_n_n.lhsBatch by decide), dif_pos (show (1 : Fin S5000x64.rank) ∈ dot_S5000x64_S5000x1_S64x1_0_0_1_1_n_n.lhsNonContracting by decide)]
  rfl
theorem rhs_counts_0 (i : S64x1.Idx) (q : dot_S5000x64_S5000x1_S64x1_0_0_1_1_n_n.contr.Idx) :
    (dot_S5000x64_S5000x1_S64x1_0_0_1_1_n_n.rhsIdx i q 0).val = (q ⟨0, by decide⟩).val :=
  dot_S5000x64_S5000x1_S64x1_0_0_1_1_n_n.rhsIdx_val_of_single rfl i q
theorem rhs_counts_1 (i : S64x1.Idx) (q : dot_S5000x64_S5000x1_S64x1_0_0_1_1_n_n.contr.Idx) :
    (dot_S5000x64_S5000x1_S64x1_0_0_1_1_n_n.rhsIdx i q 1).val = (i 1).val := by
  unfold DotDims.rhsIdx
  rw [dif_neg (show ¬(1 : Fin S5000x1.rank) ∈ dot_S5000x64_S5000x1_S64x1_0_0_1_1_n_n.rhsBatch by decide), dif_pos (show (1 : Fin S5000x1.rank) ∈ dot_S5000x64_S5000x1_S64x1_0_0_1_1_n_n.rhsNonContracting by decide)]
  rfl

/-- The [5000,64] by [5000,1] product into a zero accumulator, at (b, 0): the sum over the rows r of the left operand at
    (r, b) times the right operand at (r, 0). -/
theorem matmul_counts_apply (lhs : FVec Ideal S5000x64 .bf16) (rhs : FVec Ideal S5000x1 .bf16) (b : Fin 64) :
    matmul dot_S5000x64_S5000x1_S64x1_0_0_1_1_n_n none lhs rhs (constant (F := Ideal) S64x1 .f32 0x00000000#32) (ix2 b 0)
      = ∑ r : Fin 5000, lhs (ix2 r b) * rhs (ix2 r 0) := by
  simp only [matmul]
  rw [Ideal.matmul_constant_zero_apply, ← Equiv.sum_comp (contrEquiv1 dot_S5000x64_S5000x1_S64x1_0_0_1_1_n_n 5000 rfl rfl).symm]
  refine Finset.sum_congr rfl fun k _ => ?_
  have hk := contrEquiv1_symm_val dot_S5000x64_S5000x1_S64x1_0_0_1_1_n_n 5000 rfl rfl k
  have el : dot_S5000x64_S5000x1_S64x1_0_0_1_1_n_n.lhsIdx (ix2 b 0) ((contrEquiv1 dot_S5000x64_S5000x1_S64x1_0_0_1_1_n_n 5000 rfl rfl).symm k) = ix2 k b := funext fun a => Fin.ext (by
    match a with
    | ⟨0, _⟩ => exact (lhs_counts_0 _ _).trans hk
    | ⟨1, _⟩ => exact lhs_counts_1 _ _)
  have er : dot_S5000x64_S5000x1_S64x1_0_0_1_1_n_n.rhsIdx (ix2 b 0) ((contrEquiv1 dot_S5000x64_S5000x1_S64x1_0_0_1_1_n_n 5000 rfl rfl).symm k) = ix2 k 0 := funext fun a => Fin.ext (by
    match a with
    | ⟨0, _⟩ => exact (rhs_counts_0 _ _).trans hk
    | ⟨1, _⟩ => exact rhs_counts_1 _ _)
  rw [el, er]

/-! ## One tile's updates -/

open Classical in
/-- A tile's update of the running sums at (b, j): what was there plus the tile's rows whose segment word is b, at column j. -/
theorem sums_apply (h : Vec Ideal S5000x128 .f32) (seg : Vec Ideal S5000x1 .i32) (acc : Vec Ideal S64x128 .f32) (b : Fin 64) (j : Fin 128) :
    k2_pay4 (F := Ideal) h seg acc (ix2 b j)
      = acc (ix2 b j) + ∑ r ∈ Finset.univ.filter (fun r : Fin 5000 => (seg (ix2 r 0)).toInt = (b.val : ℤ)), h (ix2 r j) := by
  unfold k2_pay4
  rw [addf_apply, shapeCast_self, matmul_sums_apply, Finset.sum_filter]
  refine congrArg (acc (ix2 b j) + ·) (Finset.sum_congr rfl fun r _ => ?_)
  rw [truncf_apply, shapeCast_self]
  split_ifs with hr
  · rw [onehot_of_eq seg r b hr, one_mul]
  · rw [onehot_of_ne seg r b hr, zero_mul]

open Classical in
/-- A tile's update of the running counts at (b, 0): what was there plus the number of the tile's rows whose segment word is b. -/
theorem counts_apply (seg : Vec Ideal S5000x1 .i32) (acc : Vec Ideal S64x1 .f32) (b : Fin 64) :
    k2_pay5 (F := Ideal) seg acc (ix2 b 0)
      = acc (ix2 b 0) + ∑ r ∈ Finset.univ.filter (fun r : Fin 5000 => (seg (ix2 r 0)).toInt = (b.val : ℤ)), (1 : EReal) := by
  unfold k2_pay5
  rw [addf_apply, shapeCast_self, matmul_counts_apply, Finset.sum_filter]
  refine congrArg (acc (ix2 b 0) + ·) (Finset.sum_congr rfl fun r _ => ?_)
  rw [broadcast_apply]
  have e1 : (Scalar.ofBits (F := Ideal) .bf16 0x3F80#16) = 1 := Ideal.ofBits_one_bf16
  rw [e1, mul_one]
  split_ifs with hr
  · exact onehot_of_eq seg r b hr
  · exact onehot_of_ne seg r b hr

/-- The first tile's starting sums and counts are zero. -/
theorem zero_sums (i : S64x128.Idx) : k2_pay1 (F := Ideal) i = 0 := by
  unfold k2_pay1
  exact Ideal.ofBits_zero_f32
theorem zero_counts (i : S64x1.Idx) : k2_pay2 (F := Ideal) i = 0 := by
  unfold k2_pay2
  exact Ideal.ofBits_zero_f32

end Cert.KernelIdeal.PoolTile

end
-- ==== Proof.Pool.lean ====
/- Region 2: the pooled sums. Each of twenty tiles adds, into a running [64, 128] sum and a running [64, 1] count, the rows of the tile
   whose segment word equals the row's number; the first tile starts both from zero. At the extended reals the result is the
   accumulating scatter of all the rows (and of ones) by the segment words: a word outside [0, 64) matches no row and is dropped
   by the scatter as well. -/
import proofs.«427600_j46136538693914_1_alg».proof.Proof.KernelIdealFrameP
import proofs.«427600_j46136538693914_1_alg».proof.Proof.Gen.ReferenceIdeal.Read
import proofs.«427600_j46136538693914_1_alg».proof.Proof.LibIndexOps
import proofs.«427600_j46136538693914_1_alg».proof.Proof.PoolTile
import Idealize.ShloMosaic.Lib.IdealHost

set_option maxRecDepth 16384

noncomputable section

namespace Cert.KernelIdeal.Pool

open Cert.KernelIdeal Cert.KernelIdeal.Gen Cert.KernelIdeal.GenP
open Idealize.ShloMosaic Idealize.ShloMosaic.TcCoe Idealize.ShloMosaic.ValueIdx Idealize.SL.Sem

section Pieces
variable {F : FTy → Type} [FloatOps F]

/-- The zero offsets of a whole-buffer load or store. -/
theorem hz : (![0, 0] : Fin 2 → Nat) = fun _ => 0 := funext fun a => by fin_cases a <;> rfl

/-- A later tile leaves, in the sums' buffer holding `xo2`, the tile's update of `xo2`: its one covering store's payload,
    whose loads read the whole buffers. -/
theorem out_B_2 (c : Dev nD) (i : grid2.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (a4 : Memref sig .tc .vmem S64x1 .f32) (h4 : a4.IsWhole) (hc : ¬cond2_0 i)
    (x0 : Vec F S5000x128 .f32) (x1 : Vec F S5000x1 .i32) (xo2 : Vec F S64x128 .f32) (xo3 : Vec F S64x1 .f32) :
    out2_B_2 c i a1 h1 a2 h2 a3 h3 a4 h4 hc x0 x1 xo2 xo3 = k2_pay4 x0 x1 xo2 := by
  unfold out2_B_2
  rw [View.read_writes_eq_canon _ _ _ (cover2_B_2 c i a1 h1 a2 h2 a3 h3 a4 h4 hc x0 x1 xo2 xo3)]
  unfold kernelRun2_B
  dsimp only
  sl_unfold_words
  rw [View.canon_unit_zero hz]
  simp only [View.readAt_eq_ld, h1.read_unread, h2.read_unread, h3.read_unread, View.ld_unit_zero (S := S5000x128) hz,
    View.ld_unit_zero (S := S5000x1) hz, View.ld_unit_zero (S := S64x128) hz]

/-- and in the counts' buffer holding `xo3`, the tile's update of `xo3`. -/
theorem out_B_3 (c : Dev nD) (i : grid2.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (a4 : Memref sig .tc .vmem S64x1 .f32) (h4 : a4.IsWhole) (hc : ¬cond2_0 i)
    (x0 : Vec F S5000x128 .f32) (x1 : Vec F S5000x1 .i32) (xo2 : Vec F S64x128 .f32) (xo3 : Vec F S64x1 .f32) :
    out2_B_3 c i a1 h1 a2 h2 a3 h3 a4 h4 hc x0 x1 xo2 xo3 = k2_pay5 x1 xo3 := by
  unfold out2_B_3
  rw [View.read_writes_eq_canon _ _ _ (cover2_B_3 c i a1 h1 a2 h2 a3 h3 a4 h4 hc x0 x1 xo2 xo3)]
  unfold kernelRun2_B
  dsimp only
  sl_unfold_words
  rw [View.canon_unit_zero hz]
  simp only [View.readAt_eq_ld, h2.read_unread, h4.read_unread, View.ld_unit_zero (S := S5000x1) hz,
    View.ld_unit_zero (S := S64x1) hz]

/-- The first tile stores the zero block, reads it back, and leaves the tile's update of it. -/
theorem out_A_2 (c : Dev nD) (i : grid2.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (a4 : Memref sig .tc .vmem S64x1 .f32) (h4 : a4.IsWhole) (hc : cond2_0 i)
    (x0 : Vec F S5000x128 .f32) (x1 : Vec F S5000x1 .i32) :
    out2_A_2 c i a1 h1 a2 h2 a3 h3 a4 h4 hc x0 x1 = k2_pay4 x0 x1 (k2_pay1 (F := F)) := by
  unfold out2_A_2
  rw [View.read_writes_eq_canon _ _ _ (cover2_A_2 c i a1 h1 a2 h2 a3 h3 a4 h4 hc x0 x1)]
  unfold kernelRun2_A
  dsimp only
  sl_unfold_words
  rw [View.canon_cons_unit_zero (S := S64x128) hz, View.readCov_unit_zero (S := S64x128) _ hz]
  simp only [View.readAt_eq_ld, h1.read_unread, h2.read_unread, View.ld_unit_zero (S := S5000x128) hz,
    View.ld_unit_zero (S := S5000x1) hz]

/-- Likewise for the counts. -/
theorem out_A_3 (c : Dev nD) (i : grid2.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (a4 : Memref sig .tc .vmem S64x1 .f32) (h4 : a4.IsWhole) (hc : cond2_0 i)
    (x0 : Vec F S5000x128 .f32) (x1 : Vec F S5000x1 .i32) :
    out2_A_3 c i a1 h1 a2 h2 a3 h3 a4 h4 hc x0 x1 = k2_pay5 x1 (k2_pay2 (F := F)) := by
  unfold out2_A_3
  rw [View.read_writes_eq_canon _ _ _ (cover2_A_3 c i a1 h1 a2 h2 a3 h3 a4 h4 hc x0 x1)]
  unfold kernelRun2_A
  dsimp only
  sl_unfold_words
  rw [View.canon_cons_unit_zero (S := S64x1) hz, View.readCov_unit_zero (S := S64x1) _ hz]
  simp only [View.readAt_eq_ld, h2.read_unread, View.ld_unit_zero (S := S5000x1) hz]

end Pieces

/-! ## A filtered sum over a range, one tile at a time -/

section Split

/-- A filtered sum over the indices below `k + m` is the part below `k` plus the `m` indices from `k` on. -/
theorem sum_filter_lt_add {M : Type*} [AddCommMonoid M] {N : ℕ} (f : Fin N → M) (P : Fin N → Prop) [DecidablePred P]
    (k m : ℕ) (hkm : k + m ≤ N) :
    ∑ e ∈ Finset.univ.filter (fun e : Fin N => e.val < k ∧ P e), f e
      + ∑ r ∈ Finset.univ.filter (fun r : Fin m => P ⟨k + r.val, by have := r.isLt; omega⟩), f ⟨k + r.val, by have := r.isLt; omega⟩
    = ∑ e ∈ Finset.univ.filter (fun e : Fin N => e.val < k + m ∧ P e), f e := by
  classical
  -- the tile's positions as positions of the whole range
  let ι : Fin m ↪ Fin N :=
    ⟨fun r => ⟨k + r.val, by have := r.isLt; omega⟩, fun r r' h => Fin.ext (by have := congrArg Fin.val h; dsimp only at this; omega)⟩
  have h2 : ∑ r ∈ Finset.univ.filter (fun r : Fin m => P ⟨k + r.val, by have := r.isLt; omega⟩), f ⟨k + r.val, by have := r.isLt; omega⟩
      = ∑ e ∈ (Finset.univ.filter (fun r : Fin m => P ⟨k + r.val, by have := r.isLt; omega⟩)).map ι, f e := by
    rw [Finset.sum_map]; rfl
  rw [h2, ← Finset.sum_union]
  · refine Finset.sum_congr ?_ fun _ _ => rfl
    ext e
    simp only [Finset.mem_union, Finset.mem_filter, Finset.mem_univ, true_and, Finset.mem_map]
    constructor
    · rintro (⟨h1, hp⟩ | ⟨r, hr, rfl⟩)
      · exact ⟨by omega, hp⟩
      · exact ⟨by show k + r.val < k + m; have := r.isLt; omega, hr⟩
    · rintro ⟨h1, hp⟩
      by_cases hk : e.val < k
      · exact Or.inl ⟨hk, hp⟩
      · have he : (⟨k + (e.val - k), by omega⟩ : Fin N) = e := Fin.ext (by show k + (e.val - k) = e.val; omega)
        refine Or.inr ⟨⟨e.val - k, by omega⟩, ?_, he⟩
        show P ⟨k + (e.val - k), _⟩
        rw [he]; exact hp
  · rw [Finset.disjoint_left]
    intro e he1 he2
    obtain ⟨r, _, rfl⟩ := Finset.mem_map.mp he2
    have := (Finset.mem_filter.mp he1).2.1
    change k + r.val < k at this
    omega

end Split

/-! ## The partial sums and counts -/

section Parts

/-- Column `j` of the rows below `k` whose segment word, read signed, is `b`, added up. -/
def psum (H : Vec Ideal S100000x128 .f32) (Sg : Vec Ideal S100000x1 .i32) (k : ℕ) (b : Fin 64) (j : Fin 128) : EReal :=
  ∑ e ∈ Finset.univ.filter (fun e : Fin 100000 => e.val < k ∧ (Sg (ix2 e 0)).toInt = (b.val : ℤ)), H (ix2 e j)

/-- The number of rows below `k` whose segment word, read signed, is `b`. -/
def pcnt (Sg : Vec Ideal S100000x1 .i32) (k : ℕ) (b : Fin 64) : EReal :=
  ∑ e ∈ Finset.univ.filter (fun e : Fin 100000 => e.val < k ∧ (Sg (ix2 e 0)).toInt = (b.val : ℤ)), (1 : EReal)

theorem psum_zero (H : Vec Ideal S100000x128 .f32) (Sg : Vec Ideal S100000x1 .i32) (b : Fin 64) (j : Fin 128) :
    psum H Sg 0 b j = 0 := by
  unfold psum
  rw [Finset.filter_false_of_mem (fun e _ h => absurd h.1 (Nat.not_lt_zero _)), Finset.sum_empty]

theorem pcnt_zero (Sg : Vec Ideal S100000x1 .i32) (b : Fin 64) : pcnt Sg 0 b = 0 := by
  unfold pcnt
  rw [Finset.filter_false_of_mem (fun e _ h => absurd h.1 (Nat.not_lt_zero _)), Finset.sum_empty]

/-- One tile more: the tile's block of rows `hb` and of segment words `sb` are rows `5000 n …` of the arrays. -/
theorem psum_step (H : Vec Ideal S100000x128 .f32) (Sg : Vec Ideal S100000x1 .i32) (hb : Vec Ideal S5000x128 .f32)
    (sb : Vec Ideal S5000x1 .i32) (n : ℕ) (hn : n < 20)
    (hH : ∀ (r : Fin 5000) (j : Fin 128), hb (ix2 r j) = H (ix2 ⟨5000 * n + r.val, by have := r.isLt; omega⟩ j))
    (hS : ∀ r : Fin 5000, sb (ix2 r 0) = Sg (ix2 ⟨5000 * n + r.val, by have := r.isLt; omega⟩ 0)) (b : Fin 64) (j : Fin 128) :
    psum H Sg (5000 * n) b j
      + ∑ r ∈ Finset.univ.filter (fun r : Fin 5000 => (sb (ix2 r 0)).toInt = (b.val : ℤ)), hb (ix2 r j)
    = psum H Sg (5000 * (n + 1)) b j := by
  unfold psum
  have e := sum_filter_lt_add (fun e : Fin 100000 => H (ix2 e j)) (fun e : Fin 100000 => (Sg (ix2 e 0)).toInt = (b.val : ℤ))
    (5000 * n) 5000 (by omega)
  rw [show 5000 * (n + 1) = 5000 * n + 5000 from by omega, ← e]
  exact congrArg (HAdd.hAdd _) (Finset.sum_congr (Finset.filter_congr fun r _ => by rw [hS r]) fun r _ => hH r j)

theorem pcnt_step (Sg : Vec Ideal S100000x1 .i32) (sb : Vec Ideal S5000x1 .i32) (n : ℕ) (hn : n < 20)
    (hS : ∀ r : Fin 5000, sb (ix2 r 0) = Sg (ix2 ⟨5000 * n + r.val, by have := r.isLt; omega⟩ 0)) (b : Fin 64) :
    pcnt Sg (5000 * n) b
      + ∑ r ∈ Finset.univ.filter (fun r : Fin 5000 => (sb (ix2 r 0)).toInt = (b.val : ℤ)), (1 : EReal)
    = pcnt Sg (5000 * (n + 1)) b := by
  unfold pcnt
  have e := sum_filter_lt_add (fun _ : Fin 100000 => (1 : EReal)) (fun e : Fin 100000 => (Sg (ix2 e 0)).toInt = (b.val : ℤ))
    (5000 * n) 5000 (by omega)
  rw [show 5000 * (n + 1) = 5000 * n + 5000 from by omega, ← e]
  exact congrArg (HAdd.hAdd _) (Finset.sum_congr (Finset.filter_congr fun r _ => by rw [hS r]) fun r _ => rfl)

/-- Below the arrays' end are all the rows. -/
theorem psum_all (H : Vec Ideal S100000x128 .f32) (Sg : Vec Ideal S100000x1 .i32) (b : Fin 64) (j : Fin 128) :
    psum H Sg 100000 b j
      = ∑ e ∈ Finset.univ.filter (fun e : Fin 100000 => (Sg (ix2 e 0)).toInt = (b.val : ℤ)), H (ix2 e j) := by
  unfold psum
  exact Finset.sum_congr (Finset.filter_congr fun e _ => and_iff_right e.isLt) fun _ _ => rfl

theorem pcnt_all (Sg : Vec Ideal S100000x1 .i32) (b : Fin 64) :
    pcnt Sg 100000 b
      = ∑ e ∈ Finset.univ.filter (fun e : Fin 100000 => (Sg (ix2 e 0)).toInt = (b.val : ℤ)), (1 : EReal) := by
  unfold pcnt
  exact Finset.sum_congr (Finset.filter_congr fun e _ => and_iff_right e.isLt) fun _ _ => rfl

end Parts

/-! ## The run: what the outputs hold after each tile, and the arrays at the end -/

variable (V : (c : Dev nD) → (b : Ref sig .tc) → Buf (Elt Ideal) ((c : Thread nD τ).loc b))

/-- The node array and the segment words as the region finds them, and a tile's block of each, under their literal types. -/
abbrev harr (c : Dev nD) : Vec Ideal S100000x128 .f32 := V c main_v63
abbrev sarr (c : Dev nD) : Vec Ideal S100000x1 .i32 := V c main_v64
abbrev hblk (c : Dev nD) (t : Fin cfg2.N) : Vec Ideal S5000x128 .f32 := iblk2 V c 0 t
abbrev sblk (c : Dev nD) (t : Fin cfg2.N) : Vec Ideal S5000x1 .i32 := iblk2 V c 1 t

/-- Both input windows' block index at a point is the point's number on the row axis and zero on the other. -/
theorem idx_facts : ∀ t : Fin cfg2.N,
    (win2_0.index t 0 = t.val ∧ win2_0.index t 1 = 0) ∧ (win2_1.index t 0 = t.val ∧ win2_1.index t 1 = 0) :=
  (by decide +kernel : ∀ t : Fin grid2.N,
    (win2_0.index t 0 = t.val ∧ win2_0.index t 1 = 0) ∧ (win2_1.index t 0 = t.val ∧ win2_1.index t 1 = 0))

theorem lt_twenty (t : Fin cfg2.N) : t.val < 20 := lt_of_lt_of_eq t.isLt (show cfg2.N = 20 from N_2)

/-- Tile `t`'s block of the node array at `(r, j)` is the array at `(5000 t + r, j)`. -/
theorem hblk_apply (c : Dev nD) (t : Fin cfg2.N) (r : Fin 5000) (j : Fin 128) :
    hblk V c t (ix2 r j)
      = harr V c (ix2 ⟨5000 * t.val + r.val, by have := r.isLt; have := lt_twenty t; omega⟩ j) := by
  have hi := (idx_facts t).1
  show ((cfg2.win 0).blk t).view.read (Elt Ideal) (V c main_v63) (ix2 r j) = V c main_v63 _
  rw [View.read_apply]
  show V c main_v63 _ = V c main_v63 _
  refine congrArg (V c main_v63) (funext fun a => Fin.ext ?_)
  match a with
  | ⟨0, _⟩ => show win2_0.index t 0 * 5000 + 1 * r.val = 5000 * t.val + r.val; rw [hi.1]; omega
  | ⟨1, _⟩ => show win2_0.index t 1 * 128 + 1 * j.val = j.val; rw [hi.2]; omega

/-- Tile `t`'s block of the segment words at `(r, 0)` is the word at `(5000 t + r, 0)`. -/
theorem sblk_apply (c : Dev nD) (t : Fin cfg2.N) (r : Fin 5000) :
    sblk V c t (ix2 r 0)
      = sarr V c (ix2 ⟨5000 * t.val + r.val, by have := r.isLt; have := lt_twenty t; omega⟩ 0) := by
  have hi := (idx_facts t).2
  show ((cfg2.win 1).blk t).view.read (Elt Ideal) (V c main_v64) (ix2 r 0) = V c main_v64 _
  rw [View.read_apply]
  show V c main_v64 _ = V c main_v64 _
  refine congrArg (V c main_v64) (funext fun a => Fin.ext ?_)
  match a with
  | ⟨0, _⟩ => show win2_1.index t 0 * 5000 + 1 * r.val = 5000 * t.val + r.val; rw [hi.1]; omega
  | ⟨1, _⟩ => show win2_1.index t 1 * 1 + 1 * 0 = 0; rw [hi.2]

/-- After tile `n` the running sums hold, at `(b, j)`, column `j` of the rows below `5000 (n + 1)` whose word is `b`. -/
theorem sums_eq (c : Dev nD) : ∀ (n : ℕ) (hn : n < cfg2.N) (b : Fin 64) (j : Fin 128),
    (outsAt2 V c n hn).1 (ix2 b j) = psum (harr V c) (sarr V c) (5000 * (n + 1)) b j
  | 0, hn, b, j => by
    rw [outsAt2_A V c ⟨0, hn⟩ rfl]
    dsimp only
    refine (congrFun (out_A_2 (F := Ideal) c (grid2.coords ⟨0, hn⟩) (ms2_0 ⟨0, hn⟩) (hs2_0 ⟨0, hn⟩) (ms2_1 ⟨0, hn⟩) (hs2_1 ⟨0, hn⟩)
      (ms2_2 ⟨0, hn⟩) (hs2_2 ⟨0, hn⟩) (ms2_3 ⟨0, hn⟩) (hs2_3 ⟨0, hn⟩) ((hcond2_0 ⟨0, hn⟩).mpr rfl)
      (iblk2 V c 0 ⟨0, hn⟩) (iblk2 V c 1 ⟨0, hn⟩)) (ix2 b j)).trans ?_
    refine (PoolTile.sums_apply (hblk V c ⟨0, hn⟩) (sblk V c ⟨0, hn⟩) (k2_pay1 (F := Ideal)) b j).trans ?_
    have h0 : k2_pay1 (F := Ideal) (ix2 b j) = psum (harr V c) (sarr V c) (5000 * 0) b j :=
      (PoolTile.zero_sums _).trans (psum_zero (harr V c) (sarr V c) b j).symm
    rw [h0]
    exact psum_step (harr V c) (sarr V c) (hblk V c ⟨0, hn⟩) (sblk V c ⟨0, hn⟩) 0 (by omega)
      (fun r j => hblk_apply V c ⟨0, hn⟩ r j) (fun r => sblk_apply V c ⟨0, hn⟩ r) b j
  | n + 1, hn, b, j => by
    have hN : cfg2.N = 20 := N_2
    have hB : ¬(⟨n + 1, hn⟩ : Fin cfg2.N).val % 20 = 0 := by dsimp only; omega
    have hn' : n < cfg2.N := Nat.lt_of_succ_lt hn
    rw [outsAt2_B V c ⟨n + 1, hn⟩ hB]
    dsimp only
    refine (congrFun (out_B_2 (F := Ideal) c (grid2.coords ⟨n + 1, hn⟩) (ms2_0 ⟨n + 1, hn⟩) (hs2_0 ⟨n + 1, hn⟩) (ms2_1 ⟨n + 1, hn⟩)
      (hs2_1 ⟨n + 1, hn⟩) (ms2_2 ⟨n + 1, hn⟩) (hs2_2 ⟨n + 1, hn⟩) (ms2_3 ⟨n + 1, hn⟩) (hs2_3 ⟨n + 1, hn⟩)
      (fun h => hB ((hcond2_0 ⟨n + 1, hn⟩).mp h)) (iblk2 V c 0 ⟨n + 1, hn⟩) (iblk2 V c 1 ⟨n + 1, hn⟩)
      (outsAt2 V c n hn').1 (outsAt2 V c n hn').2) (ix2 b j)).trans ?_
    refine (PoolTile.sums_apply (hblk V c ⟨n + 1, hn⟩) (sblk V c ⟨n + 1, hn⟩) (outsAt2 V c n hn').1 b j).trans ?_
    rw [sums_eq c n hn' b j]
    exact psum_step (harr V c) (sarr V c) (hblk V c ⟨n + 1, hn⟩) (sblk V c ⟨n + 1, hn⟩) (n + 1) (by omega)
      (fun r j => hblk_apply V c ⟨n + 1, hn⟩ r j) (fun r => sblk_apply V c ⟨n + 1, hn⟩ r) b j

/-- After tile `n` the running counts hold, at `(b, 0)`, the number of rows below `5000 (n + 1)` whose word is `b`. -/
theorem counts_eq (c : Dev nD) : ∀ (n : ℕ) (hn : n < cfg2.N) (b : Fin 64),
    (outsAt2 V c n hn).2 (ix2 b 0) = pcnt (sarr V c) (5000 * (n + 1)) b
  | 0, hn, b => by
    rw [outsAt2_A V c ⟨0, hn⟩ rfl]
    dsimp only
    refine (congrFun (out_A_3 (F := Ideal) c (grid2.coords ⟨0, hn⟩) (ms2_0 ⟨0, hn⟩) (hs2_0 ⟨0, hn⟩) (ms2_1 ⟨0, hn⟩) (hs2_1 ⟨0, hn⟩)
      (ms2_2 ⟨0, hn⟩) (hs2_2 ⟨0, hn⟩) (ms2_3 ⟨0, hn⟩) (hs2_3 ⟨0, hn⟩) ((hcond2_0 ⟨0, hn⟩).mpr rfl)
      (iblk2 V c 0 ⟨0, hn⟩) (iblk2 V c 1 ⟨0, hn⟩)) (ix2 b 0)).trans ?_
    refine (PoolTile.counts_apply (sblk V c ⟨0, hn⟩) (k2_pay2 (F := Ideal)) b).trans ?_
    have h0 : k2_pay2 (F := Ideal) (ix2 b 0) = pcnt (sarr V c) (5000 * 0) b :=
      (PoolTile.zero_counts _).trans (pcnt_zero (sarr V c) b).symm
    rw [h0]
    exact pcnt_step (sarr V c) (sblk V c ⟨0, hn⟩) 0 (by omega) (fun r => sblk_apply V c ⟨0, hn⟩ r) b
  | n + 1, hn, b => by
    have hN : cfg2.N = 20 := N_2
    have hB : ¬(⟨n + 1, hn⟩ : Fin cfg2.N).val % 20 = 0 := by dsimp only; omega
    have hn' : n < cfg2.N := Nat.lt_of_succ_lt hn
    rw [outsAt2_B V c ⟨n + 1, hn⟩ hB]
    dsimp only
    refine (congrFun (out_B_3 (F := Ideal) c (grid2.coords ⟨n + 1, hn⟩) (ms2_0 ⟨n + 1, hn⟩) (hs2_0 ⟨n + 1, hn⟩) (ms2_1 ⟨n + 1, hn⟩)
      (hs2_1 ⟨n + 1, hn⟩) (ms2_2 ⟨n + 1, hn⟩) (hs2_2 ⟨n + 1, hn⟩) (ms2_3 ⟨n + 1, hn⟩) (hs2_3 ⟨n + 1, hn⟩)
      (fun h => hB ((hcond2_0 ⟨n + 1, hn⟩).mp h)) (iblk2 V c 0 ⟨n + 1, hn⟩) (iblk2 V c 1 ⟨n + 1, hn⟩)
      (outsAt2 V c n hn').1 (outsAt2 V c n hn').2) (ix2 b 0)).trans ?_
    refine (PoolTile.counts_apply (sblk V c ⟨n + 1, hn⟩) (outsAt2 V c n hn').2 b).trans ?_
    rw [counts_eq c n hn' b]
    exact pcnt_step (sarr V c) (sblk V c ⟨n + 1, hn⟩) (n + 1) (by omega) (fun r => sblk_apply V c ⟨n + 1, hn⟩ r) b

/-! ## The arrays after the run: what the last tile left -/

/-- The last point of the grid, the one point at which the two outputs are written back. -/
abbrev tLast : Fin cfg2.N := ⟨19, by rw [show cfg2.N = 20 from N_2]; decide⟩

/-- What the last tile leaves, as contents of the result arrays (each output's one block is its array). -/
abbrev sumsEnd (c : Dev nD) : Buf (Elt Ideal) ((c : Thread nD τ).loc main_v65_0) := (outsAt2 V c 19 tLast.isLt).1
abbrev countsEnd (c : Dev nD) : Buf (Elt Ideal) ((c : Thread nD τ).loc main_v65_1) := (outsAt2 V c 19 tLast.isLt).2

theorem eq_tLast (t : Fin cfg2.N) (h : t.val % 20 = 19) : t = tLast :=
  Fin.ext (by have := lt_twenty t; show t.val = 19; omega)

/-- The one write-back of the sums writes what the last tile left: block (0, 0) of the [64, 128] array, read through zero
    offsets, is the array. -/
theorem flushed_sums (c : Dev nD) (t : Fin cfg2.N) (hf : (cfg2.win 2).flush t = true) :
    (dat2 V c).flushed 2 t = ((cfg2.win 2).blk t).view.read (Elt Ideal) (sumsEnd V c) := by
  obtain rfl : t = tLast := eq_tLast t ((flush2_2 t).mp hf)
  show (cfg2.win 2).cut (grid2.coords tLast) ((dat2 V c).after 2 tLast) = _
  rw [after2_2]
  have hz' : (fun a => win2_2.index tLast a * main_v65_0.ty.shape.size a) = fun _ => 0 :=
    funext fun a => by fin_cases a <;> decide
  exact (Memref.read_access_unit_zero (Elt Ideal) main_v65_0 hz' (fun a => by rw [congrFun hz' a]; simp) (sumsEnd V c)).symm

/-- Likewise the counts'. -/
theorem flushed_counts (c : Dev nD) (t : Fin cfg2.N) (hf : (cfg2.win 3).flush t = true) :
    (dat2 V c).flushed 3 t = ((cfg2.win 3).blk t).view.read (Elt Ideal) (countsEnd V c) := by
  obtain rfl : t = tLast := eq_tLast t ((flush2_3 t).mp hf)
  show (cfg2.win 3).cut (grid2.coords tLast) ((dat2 V c).after 3 tLast) = _
  rw [after2_3]
  have hz' : (fun a => win2_3.index tLast a * main_v65_1.ty.shape.size a) = fun _ => 0 :=
    funext fun a => by fin_cases a <;> decide
  exact (Memref.read_access_unit_zero (Elt Ideal) main_v65_1 hz' (fun a => by rw [congrFun hz' a]; simp) (countsEnd V c)).symm

/-- So the sums' array ends holding what the last tile left: the last point's block covers it. -/
theorem final_sums (c : Dev nD) : (dat2 V c).arrAt 2 cfg2.N = sumsEnd V c :=
  (dat2 V c).arrAt_eq_of_cover 2 (sumsEnd V c) (flushed_sums V c) fun i =>
    ⟨tLast, (flush2_2 tLast).mpr rfl, by
      show i ∈ ((View.whole main_v65_0).slice (win2_2.rect tLast)).set
      rw [View.set_slice_whole, Rect.mem_set_unit]
      intro a
      have h0 : (i 0 : Nat) < 64 := (i 0).isLt
      have h1 : (i 1 : Nat) < 128 := (i 1).isLt
      match a with
      | ⟨0, _⟩ =>
        show win2_2.index tLast 0 * win2_2.size 0 ≤ (i 0 : Nat)
          ∧ (i 0 : Nat) < win2_2.index tLast 0 * win2_2.size 0 + win2_2.xsize (grid2.coords tLast) 0
        rw [show win2_2.index tLast 0 * win2_2.size 0 = 0 from by decide +kernel,
          show win2_2.xsize (grid2.coords tLast) 0 = 64 from by decide +kernel]
        omega
      | ⟨1, _⟩ =>
        show win2_2.index tLast 1 * win2_2.size 1 ≤ (i 1 : Nat)
          ∧ (i 1 : Nat) < win2_2.index tLast 1 * win2_2.size 1 + win2_2.xsize (grid2.coords tLast) 1
        rw [show win2_2.index tLast 1 * win2_2.size 1 = 0 from by decide +kernel,
          show win2_2.xsize (grid2.coords tLast) 1 = 128 from by decide +kernel]
        omega⟩

/-- and the counts' array likewise. -/
theorem final_counts (c : Dev nD) : (dat2 V c).arrAt 3 cfg2.N = countsEnd V c :=
  (dat2 V c).arrAt_eq_of_cover 3 (countsEnd V c) (flushed_counts V c) fun i =>
    ⟨tLast, (flush2_3 tLast).mpr rfl, by
      show i ∈ ((View.whole main_v65_1).slice (win2_3.rect tLast)).set
      rw [View.set_slice_whole, Rect.mem_set_unit]
      intro a
      have h0 : (i 0 : Nat) < 64 := (i 0).isLt
      have h1 : (i 1 : Nat) < 1 := (i 1).isLt
      match a with
      | ⟨0, _⟩ =>
        show win2_3.index tLast 0 * win2_3.size 0 ≤ (i 0 : Nat)
          ∧ (i 0 : Nat) < win2_3.index tLast 0 * win2_3.size 0 + win2_3.xsize (grid2.coords tLast) 0
        rw [show win2_3.index tLast 0 * win2_3.size 0 = 0 from by decide +kernel,
          show win2_3.xsize (grid2.coords tLast) 0 = 64 from by decide +kernel]
        omega
      | ⟨1, _⟩ =>
        show win2_3.index tLast 1 * win2_3.size 1 ≤ (i 1 : Nat)
          ∧ (i 1 : Nat) < win2_3.index tLast 1 * win2_3.size 1 + win2_3.xsize (grid2.coords tLast) 1
        rw [show win2_3.index tLast 1 * win2_3.size 1 = 0 from by decide +kernel,
          show win2_3.xsize (grid2.coords tLast) 1 = 1 from by decide +kernel]
        omega⟩

/-! ## Against the reference's scatters -/

/-- The pooled sums after region 2's run: the accumulating scatter of the node rows by their segment words. -/
theorem gsum (c : Dev nD) :
    ((dat2 (F := Ideal) V c).arrAt 2 cfg2.N : S64x128.Idx → EReal)
      = Host.scatterAdd (F := Ideal) (φ := .f32) Cert.ReferenceIdeal.scatter_S64x128_S100000x1_S100000x128_1_0_0_1
          (Cert.ReferenceIdeal.Read.val_main_v68 (F := Ideal)) (V c main_v64) (V c main_v63) := by
  rw [final_sums V c]
  funext i
  obtain ⟨b, j, rfl⟩ : ∃ (b : Fin 64) (j : Fin 128), i = ix2 b j := ⟨i 0, i 1, eq_ix2 i⟩
  refine (sums_eq V c 19 tLast.isLt b j).trans ?_
  refine Eq.trans ?_ (IndexOps.scatterAdd_rows_apply Cert.ReferenceIdeal.scatter_S64x128_S100000x1_S100000x128_1_0_0_1 rfl rfl rfl rfl
    (Cert.ReferenceIdeal.Read.val_main_v68 (F := Ideal)) (sarr V c) (harr V c) b j).symm
  rw [Cert.ReferenceIdeal.Read.val_main_v68_apply, Cert.ReferenceIdeal.Read.val_main_cst_13_apply, Ideal.ofBits_def,
    Ideal.ofBits_zero_f32, zero_add]
  exact psum_all (harr V c) (sarr V c) b j

/-- The pooled counts after region 2's run, row by row: the accumulating scatter of ones by the segment words. -/
theorem cnt (c : Dev nD) (b : Fin 64) :
    ((dat2 (F := Ideal) V c).arrAt 3 cfg2.N : S64x1.Idx → EReal) (ix2 b 0)
      = Host.scatterAdd (F := Ideal) (φ := .f32) Cert.ReferenceIdeal.scatter_S64_S100000x1_S100000_n_0_0_1
          (Cert.ReferenceIdeal.Read.val_main_v65 (F := Ideal)) (V c main_v64) (Cert.ReferenceIdeal.Read.val_main_v64 (F := Ideal)) (ix1 b) := by
  rw [final_counts V c]
  refine (counts_eq V c 19 tLast.isLt b).trans ?_
  refine Eq.trans ?_ (IndexOps.scatterAdd_vec_apply Cert.ReferenceIdeal.scatter_S64_S100000x1_S100000_n_0_0_1 rfl rfl rfl rfl
    (Cert.ReferenceIdeal.Read.val_main_v65 (F := Ideal)) (sarr V c) (Cert.ReferenceIdeal.Read.val_main_v64 (F := Ideal)) b).symm
  rw [Cert.ReferenceIdeal.Read.val_main_v65_apply, Cert.ReferenceIdeal.Read.val_main_cst_12_apply, Ideal.ofBits_def,
    Ideal.ofBits_zero_f32, zero_add]
  refine (pcnt_all (sarr V c) b).trans (Finset.sum_congr rfl fun e _ => ?_)
  rw [Cert.ReferenceIdeal.Read.val_main_v64_apply, Cert.ReferenceIdeal.Read.val_main_cst_11_apply, Ideal.ofBits_def,
    Ideal.ofBits_one_f32]

end Cert.KernelIdeal.Pool

end
-- ==== Proof.FusionG.lean ====
/- The graph block of the fused features: the pooled sums divided row by row by max(count, 1), times the projection, plus its bias. -/
import proofs.«427600_j46136538693914_1_alg».proof.Proof.Gen.KernelIdeal.Skeleton
import proofs.«427600_j46136538693914_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.FusionG

open Cert.KernelIdeal Cert.KernelIdeal.Gen
open Idealize.ShloMosaic Idealize.ShloMosaic.ValueIdx

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The operand indices of the `[64, 128] × [128, 128]` product at output index `i` and contraction index `q`:
    `(i 0, q)` on the left, `(q, i 1)` on the right, one coordinate at a time. -/

theorem lhs_g_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs_g_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs_g_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs_g_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The product into the zero accumulator at `(b, j)` is the sum over `k` of the left operand at `(b, k)` times the right
    operand at `(k, j)`. -/
theorem matmul_g_apply (l : FVec Ideal S64x128 .bf16) (r : FVec Ideal S128x128 .bf16) (b : Fin 64) (j : Fin 128) :
    matmul dot_S64x128_S128x128_S64x128_1_0_0_1_n_n none l r (constant (F := Ideal) S64x128 .f32 0x00000000#32) (ix2 b j)
      = ∑ k : Fin 128, l (ix2 b k) * r (ix2 k j) := by
  simp only [matmul]
  rw [Ideal.matmul_constant_zero_apply, ← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx (ix2 b j) ((ValueIdx.contrEquiv1 dot_S64x128_S128x128_S64x128_1_0_0_1_n_n 128 rfl rfl).symm k) = ix2 b k := funext fun a => Fin.ext (by
    match a with
    | ⟨0, _⟩ => exact lhs_g_0 _ _
    | ⟨1, _⟩ => exact (lhs_g_1 _ _).trans hk)
  have er : dot_S64x128_S128x128_S64x128_1_0_0_1_n_n.rhsIdx (ix2 b j) ((ValueIdx.contrEquiv1 dot_S64x128_S128x128_S64x128_1_0_0_1_n_n 128 rfl rfl).symm k) = ix2 k j := funext fun a => Fin.ext (by
    match a with
    | ⟨0, _⟩ => exact (rhs_g_0 _ _).trans hk
    | ⟨1, _⟩ => exact rhs_g_1 _ _)
  rw [el, er]

/-- The graph block at (b, j) is the reference's projected pooled mean at (b, j), when the pooled sums and counts the kernel
    reads are the reference's and the bias row is the reference's bias vector. -/
theorem g_part (x0 : (⟨S100000x6, .f32⟩ : BufTy).Contents (Elt Ideal)) (x1 : (⟨S2x600000, .i32⟩ : BufTy).Contents (Elt Ideal)) (x2 : (⟨S100000, .i32⟩ : BufTy).Contents (Elt Ideal)) (x9 : (⟨S6x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal))
    (x13 : Vec Ideal S128x128 .f32) (x14 : (⟨S128, .f32⟩ : BufTy).Contents (Elt Ideal))
    (g : Vec Ideal S64x128 .f32) (cn : Vec Ideal S64x1 .f32) (bg : Vec Ideal S1x128 .f32)
    (hg : ∀ (b : Fin 64) (k : Fin 128), g (ix2 b k) = Cert.ReferenceIdeal.Read.val_main_v70 (F := Ideal) x0 x1 x2 x9 x10 x11 x12 (ix2 b k))
    (hc : ∀ b : Fin 64, cn (ix2 b 0) = Cert.ReferenceIdeal.Read.val_main_v67 (F := Ideal) x2 (ix1 b))
    (hb : ∀ j : Fin 128, bg (ix2 0 j) = x14 (ix1 j)) (b : Fin 64) (j : Fin 128) :
    k3_pay1 (F := Ideal) g cn x13 bg (ix2 b j)
      = Cert.ReferenceIdeal.Read.val_main_v79 (F := Ideal) x0 x1 x2 x9 x10 x11 x12 x13 x14 (ix2 b j) := by
  -- the reference, read at (b, j) down to the pooled sums and the counts
  rw [Cert.ReferenceIdeal.Read.val_main_v79_apply, Cert.ReferenceIdeal.Read.val_main_v76_apply,
    Cert.ReferenceIdeal.Read.val_main_v78_apply, Cert.ReferenceIdeal.Read.val_main_v77_apply]
  simp only [Cert.ReferenceIdeal.Read.val_main_v75_apply, Cert.ReferenceIdeal.Read.val_main_v74_apply,
    Cert.ReferenceIdeal.Read.val_main_v73_apply, Cert.ReferenceIdeal.Read.val_main_v72_apply,
    Cert.ReferenceIdeal.Read.val_main_v71_apply, Cert.ReferenceIdeal.Read.val_main_cst_14_apply]
  -- the pooled sums and the counts stay closed from here on
  generalize Cert.ReferenceIdeal.Read.val_main_v70 (F := Ideal) x0 x1 x2 x9 x10 x11 x12 = V70 at hg ⊢
  generalize Cert.ReferenceIdeal.Read.val_main_v67 (F := Ideal) x2 = V67 at hc ⊢
  -- the reference's indices, by coordinates
  have e1 : ∀ k : Fin 128, Cert.ReferenceIdeal.Read.lidx_main_v76 (ix2 b j) k = ix2 b k := fun k =>
    funext fun a => Fin.ext (by match a with | ⟨0, _⟩ => rfl | ⟨1, _⟩ => rfl)
  have e2 : ∀ k : Fin 128, Cert.ReferenceIdeal.Read.ridx_main_v76 (ix2 b j) k = ix2 k j := fun k =>
    funext fun a => Fin.ext (by match a with | ⟨0, _⟩ => rfl | ⟨1, _⟩ => rfl)
  have e3 : ∀ k : Fin 128, Cert.ReferenceIdeal.Read.idx_main_v73 (Cert.ReferenceIdeal.Read.idx_main_v74 (ix2 b k)) = ix1 b := fun k =>
    funext fun a => Fin.ext (by match a with | ⟨0, _⟩ => rfl)
  have e4 : Cert.ReferenceIdeal.Read.idx_main_v77 (Cert.ReferenceIdeal.Read.idx_main_v78 (ix2 b j)) = ix1 j :=
    funext fun a => Fin.ext (by match a with | ⟨0, _⟩ => rfl)
  simp only [e1, e2, e3, e4]
  -- the kernel's payload at (b, j)
  unfold k3_pay1
  simp only [shapeCast_self]
  rw [addf_apply, matmul_g_apply, broadcastTo_1b_ab_apply, hb j]
  refine congrArg (· + x14 (ix1 j)) (Finset.sum_congr rfl fun k _ => ?_)
  rw [truncf_apply, truncf_apply, divf_apply, broadcastTo_a1_ab_apply, maximumf_apply, broadcast_apply, hg b k, hc b]
  rfl

end Cert.KernelIdeal.FusionG

end
-- ==== Proof.FusionK.lean ====
/- The kernel-identifier block: a two-column indicator of the identifier word times the two-row table is the table's row the word
   names, when the word is 0 or 1. -/
import proofs.«427600_j46136538693914_1_alg».proof.Proof.Gen.KernelIdeal.Skeleton
import proofs.«427600_j46136538693914_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws
import proofs.«427600_j46136538693914_1_alg».proof.Proof.LibIndexOps

set_option maxRecDepth 16384

noncomputable section

namespace Cert.KernelIdeal.FusionK

open Cert.KernelIdeal Cert.KernelIdeal.Gen
open Idealize.ShloMosaic Idealize.ShloMosaic.ValueIdx

/-- A 32-bit word whose signed value is in `[0, 2)` is the word 0 or the word 1. -/
theorem word_zero_or_one (w : BitVec 32) (h0 : 0 ≤ w.toInt) (h2 : w.toInt < 2) : w = 0#32 ∨ w = 1#32 := by
  have h : w.toInt = 0 ∨ w.toInt = 1 := by omega
  rcases h with h | h
  · exact .inl (BitVec.eq_of_toInt_eq (by rw [h]; decide))
  · exact .inr (BitVec.eq_of_toInt_eq (by rw [h]; decide))

/-- Two columns `[n, 1]` joined along the column axis read, at column 0, the first one. -/
theorem concat_cols_left {α : Type} {n : ℕ} (u v : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, u⟩, ⟨⟨2, ![n, 1]⟩, v⟩] h (ix2 p (0 : Fin 2)) = u (ix2 p (0 : Fin 1)) :=
  concatenate_pair_apply_left 1 u v h (ix2 p (0 : Fin 2)) rfl (ix2 p (0 : Fin 1)) fun ax => by
    match ax with
    | ⟨0, _⟩ => rfl
    | ⟨1, _⟩ => rfl

/-- … and, at column 1, the second one. -/
theorem concat_cols_right {α : Type} {n : ℕ} (u v : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, u⟩, ⟨⟨2, ![n, 1]⟩, v⟩] h (ix2 p (1 : Fin 2)) = v (ix2 p (0 : Fin 1)) :=
  concatenate_pair_apply_right 1 u v h (ix2 p (1 : Fin 2)) rfl rfl (ix2 p (0 : Fin 1)) (fun ax hax => by
    match ax, hax with
    | ⟨0, _⟩, _ => rfl
    | ⟨1, _⟩, hax => exact absurd (Fin.ext rfl) hax) rfl

/-! The operand indices of the `[64, 2] × [2, 16]` product at output index `i` and contraction index `q`:
    `(i 0, q)` on the left, `(q, i 1)` on the right, one coordinate at a time. -/

theorem lhs_k_0 (i : S64x16.Idx) (q : dot_S64x2_S2x16_S64x16_1_0_0_1_n_n.contr.Idx) :
    (dot_S64x2_S2x16_S64x16_1_0_0_1_n_n.lhsIdx i q 0).val = (i 0).val := by
  unfold DotDims.lhsIdx
  rw [dif_neg (show ¬(0 : Fin S64x2.rank) ∈ dot_S64x2_S2x16_S64x16_1_0_0_1_n_n.lhsBatch by decide), dif_pos (show (0 : Fin S64x2.rank) ∈ dot_S64x2_S2x16_S64x16_1_0_0_1_n_n.lhsNonContracting by decide)]
  rfl
theorem lhs_k_1 (i : S64x16.Idx) (q : dot_S64x2_S2x16_S64x16_1_0_0_1_n_n.contr.Idx) :
    (dot_S64x2_S2x16_S64x16_1_0_0_1_n_n.lhsIdx i q 1).val = (q ⟨0, by decide⟩).val :=
  dot_S64x2_S2x16_S64x16_1_0_0_1_n_n.lhsIdx_val_of_single rfl i q
theorem rhs_k_0 (i : S64x16.Idx) (q : dot_S64x2_S2x16_S64x16_1_0_0_1_n_n.contr.Idx) :
    (dot_S64x2_S2x16_S64x16_1_0_0_1_n_n.rhsIdx i q 0).val = (q ⟨0, by decide⟩).val :=
  dot_S64x2_S2x16_S64x16_1_0_0_1_n_n.rhsIdx_val_of_single rfl i q
theorem rhs_k_1 (i : S64x16.Idx) (q : dot_S64x2_S2x16_S64x16_1_0_0_1_n_n.contr.Idx) :
    (dot_S64x2_S2x16_S64x16_1_0_0_1_n_n.rhsIdx i q 1).val = (i 1).val := by
  unfold DotDims.rhsIdx
  rw [dif_neg (show ¬(1 : Fin S2x16.rank) ∈ dot_S64x2_S2x16_S64x16_1_0_0_1_n_n.rhsBatch by decide), dif_pos (show (1 : Fin S2x16.rank) ∈ dot_S64x2_S2x16_S64x16_1_0_0_1_n_n.rhsNonContracting by decide)]
  rfl

/-- The product into the zero accumulator at `(b, j)` is the left operand's two entries of row `b` times the right
    operand's two entries of column `j`. -/
theorem matmul_k_apply (l : FVec Ideal S64x2 .bf16) (r : FVec Ideal S2x16 .bf16) (b : Fin 64) (j : Fin 16) :
    matmul dot_S64x2_S2x16_S64x16_1_0_0_1_n_n none l r (constant (F := Ideal) S64x16 .f32 0x00000000#32) (ix2 b j)
      = l (ix2 b (0 : Fin 2)) * r (ix2 (0 : Fin 2) j) + l (ix2 b (1 : Fin 2)) * r (ix2 (1 : Fin 2) j) := by
  simp only [matmul]
  rw [Ideal.matmul_constant_zero_apply, ← Equiv.sum_comp (ValueIdx.contrEquiv1 dot_S64x2_S2x16_S64x16_1_0_0_1_n_n 2 rfl rfl).symm,
    ← Fin.sum_univ_two (f := fun k : Fin 2 => l (ix2 b k) * r (ix2 k j))]
  refine Finset.sum_congr rfl fun k _ => ?_
  have hk := ValueIdx.contrEquiv1_symm_val dot_S64x2_S2x16_S64x16_1_0_0_1_n_n 2 rfl rfl k
  have el : dot_S64x2_S2x16_S64x16_1_0_0_1_n_n.lhsIdx (ix2 b j) ((ValueIdx.contrEquiv1 dot_S64x2_S2x16_S64x16_1_0_0_1_n_n 2 rfl rfl).symm k) = ix2 b k := funext fun a => Fin.ext (by
    match a with
    | ⟨0, _⟩ => exact lhs_k_0 _ _
    | ⟨1, _⟩ => exact (lhs_k_1 _ _).trans hk)
  have er : dot_S64x2_S2x16_S64x16_1_0_0_1_n_n.rhsIdx (ix2 b j) ((ValueIdx.contrEquiv1 dot_S64x2_S2x16_S64x16_1_0_0_1_n_n 2 rfl rfl).symm k) = ix2 k j := funext fun a => Fin.ext (by
    match a with
    | ⟨0, _⟩ => exact (rhs_k_0 _ _).trans hk
    | ⟨1, _⟩ => exact rhs_k_1 _ _)
  rw [el, er]

/-- The kernel's block at `(b, j)`: the indicator of "the word of row `b` is 0" times the table's row 0 plus the indicator
    of "it is 1" times the table's row 1, both at column `j`. -/
theorem kernel_read (kid : Vec Ideal S64x1 .i32) (x20 : Vec Ideal S2x16 .f32) (b : Fin 64) (j : Fin 16) :
    k3_pay23 (F := Ideal) kid x20 (ix2 b j)
      = Scalar.select (IntOp.cmpi .eq (kid (ix2 b 0)) 0#32) (Ideal.ofBits .f32 0x3F800000#32) (Ideal.ofBits .f32 0x00000000#32) * x20 (ix2 (0 : Fin 2) j)
        + Scalar.select (IntOp.cmpi .eq (kid (ix2 b 0)) 1#32) (Ideal.ofBits .f32 0x3F800000#32) (Ideal.ofBits .f32 0x00000000#32) * x20 (ix2 (1 : Fin 2) j) := by
  unfold k3_pay23
  have e : (shapeCast S64x1 kid shapeCasts_S64x1_S64x1 : IVec S64x1 32) = kid := shapeCast_self (α := BitVec 32) kid _
  rw [e, matmul_k_apply, truncf_apply, truncf_apply, truncf_apply, truncf_apply, concat_cols_left, concat_cols_right]
  rfl

/-- The reference's lookup at `(b, j)` is the table's row `r` at column `j`, when the word of row `b` is not negative and,
    read signed and clamped to the table's two rows, is `r`. -/
theorem reference_read (x6 : (⟨S64, .i32⟩ : BufTy).Contents (Elt Ideal)) (x20 : Vec Ideal S2x16 .f32) (b : Fin 64) (j : Fin 16) (r : Fin 2)
    (hneg : IntOp.cmpi .slt (x6 (ix1 b)) 0#32 = 0#1) (hrow : min (x6 (ix1 b)).toInt.toNat (2 - 1) = r.val) :
    Cert.ReferenceIdeal.Read.val_main_v116 (F := Ideal) x6 x20 (ix2 b j) = x20 (ix2 r j) := by
  have hv : Cert.ReferenceIdeal.Read.val_main_v115 (F := Ideal) x6 (ix2 b 0) = x6 (ix1 b) := by
    have e : Cert.ReferenceIdeal.Read.idx_main_v115 (ix2 b 0) = ix1 b :=
      funext fun a => Fin.ext (by match a with | ⟨0, _⟩ => rfl)
    rw [Cert.ReferenceIdeal.Read.val_main_v115_apply, Cert.ReferenceIdeal.Read.val_main_v114_apply,
      Cert.ReferenceIdeal.Read.val_main_v111_apply, Cert.ReferenceIdeal.Read.val_main_v110_apply,
      Cert.ReferenceIdeal.Read.val_main_c_23_apply, e, hneg, select_zero]
  unfold Cert.ReferenceIdeal.Read.val_main_v116
  rw [IndexOps.gather_rows_apply Cert.ReferenceIdeal.gather_S2x16_S64x1_S64x16_1_0_n_n_0_1_116 rfl rfl rfl rfl rfl rfl rfl (by decide)
    x20 (Cert.ReferenceIdeal.Read.val_main_v115 (F := Ideal) x6) b j]
  refine congrArg (fun r' => x20 (ix2 r' j)) (Fin.ext ?_)
  show min (Cert.ReferenceIdeal.Read.val_main_v115 (F := Ideal) x6 (ix2 b 0)).toInt.toNat (2 - 1) = r.val
  rw [hv, hrow]

/-- The kernel-identifier block at (b, j) is the reference's row lookup at (b, j), for identifier words in [0, 2). -/
theorem k_part (x6 : (⟨S64, .i32⟩ : BufTy).Contents (Elt Ideal)) (x20 : Vec Ideal S2x16 .f32) (kid : Vec Ideal S64x1 .i32)
    (hk : ∀ b : Fin 64, kid (ix2 b 0) = x6 (ix1 b))
    (hr : ∀ b : Fin 64, 0 ≤ (x6 (ix1 b)).toInt ∧ (x6 (ix1 b)).toInt < 2) (b : Fin 64) (j : Fin 16) :
    k3_pay23 (F := Ideal) kid x20 (ix2 b j) = Cert.ReferenceIdeal.Read.val_main_v116 (F := Ideal) x6 x20 (ix2 b j) := by
  have h1 : Ideal.ofBits .f32 0x3F800000#32 = 1 := IdealRules.sign_bit.ideal_onePat .f32
  rw [kernel_read, hk b, h1, Ideal.ofBits_zero_f32]
  rcases word_zero_or_one _ (hr b).1 (hr b).2 with hw | hw
  · -- the word is 0: the first indicator is 1, the second 0, and the lookup reads row 0
    rw [reference_read x6 x20 b j 0 (by rw [hw]; decide) (by rw [hw]; decide), hw,
      show IntOp.cmpi .eq (0#32 : BitVec 32) 0#32 = 1#1 by decide, show IntOp.cmpi .eq (0#32 : BitVec 32) 1#32 = 0#1 by decide,
      select_one, select_zero, one_mul, zero_mul, add_zero]
  · -- the word is 1: the first indicator is 0, the second 1, and the lookup reads row 1
    rw [reference_read x6 x20 b j 1 (by rw [hw]; decide) (by rw [hw]; decide), hw,
      show IntOp.cmpi .eq (1#32 : BitVec 32) 0#32 = 0#1 by decide, show IntOp.cmpi .eq (1#32 : BitVec 32) 1#32 = 1#1 by decide,
      select_one, select_zero, one_mul, zero_mul, zero_add]

end Cert.KernelIdeal.FusionK

end
-- ==== Proof.LibGatherRows3.lean ====
import Idealize.ShloMosaic.PureOps.Ideal
import Idealize.ShloMosaic.Lib.ValueIdx

/-!
A row gather through a rectangle of indices, read at an index.

`table[idx]` with `table : [N, C]` and `idx : [p, q]` gathers whole rows into `[p, q, C]`: the result at `(b, s, k)` is the
table's row named by the start index word at `(b, s)`, read signed and clamped into `[0, N − 1]`, at column `k`. The
indices arrive with a trailing axis of extent one that holds the single index component.
-/

noncomputable section

namespace Idealize.ShloMosaic.IndexOps3

open Idealize.ShloMosaic Idealize.ShloMosaic.ValueIdx

/-- An element of a one-element list, at any valid position, is that element. -/
private theorem getElem_single {β : Type} (l : List β) (a : β) (hl : l = [a]) (i : Nat) (h : i < l.length) :
    l[i] = a := by
  subst hl
  have h0 : i = 0 := by simpa using h
  subst h0
  rfl

/-- The two elements of a two-element list, by position. -/
private theorem getElem_pair {β : Type} (l : List β) (a0 a1 : β) (hl : l = [a0, a1]) (i : Nat) (h : i < l.length) :
    (i = 0 → l[i] = a0) ∧ (i = 1 → l[i] = a1) := by
  subst hl
  constructor <;> intro hi <;> subst hi <;> rfl

/-- A row gather through a rectangle of indices read at `(b, s, k)`: the operand's row at position `(b, s)`'s start
    index, read signed and clamped into `[0, N − 1]`, at column `k`. -/
theorem gather_rows3_apply {α : Type} {N C p q w : Nat} (d : GatherDims ⟨2, ![N, C]⟩ ⟨3, ![p, q, 1]⟩ ⟨3, ![p, q, C]⟩)
    (hoff : d.offsetDims = [2]) (hcoll : d.collapsedSliceDims = [0]) (hob : d.operandBatchingDims = [])
    (hsim : d.startIndexMap = [0]) (hivd : d.indexVectorDim = 2)
    (hss : d.sliceSizes = ![1, C]) (hN : 0 < N)
    (x : (⟨2, ![N, C]⟩ : Shape).Idx → α) (idx : IVec ⟨3, ![p, q, 1]⟩ w) (b : Fin p) (s : Fin q) (k : Fin C) :
    Host.gather d x idx (ix3 b s k) = x (ix2 ⟨min (idx (ix3 b s 0)).toInt.toNat (N - 1), by omega⟩ k) := by
  unfold Host.gather
  congr 1
  funext a
  have hb : ∀ a : Fin 2, a ∉ d.operandBatchingDims := by intro a; rw [hob]; exact List.not_mem_nil
  match a with
  | ⟨0, _⟩ =>
    -- the row axis: collapsed and start-indexed, so the coordinate is the clamped start alone
    apply Fin.ext
    show d.start (ix3 b s k) idx 0 + d.batchCoord (ix3 b s k) 0 + d.offCoord (ix3 b s k) 0
      = min (idx (ix3 b s 0)).toInt.toNat (N - 1)
    have hk : (0 : Fin 2) ∉ d.sKept := by rw [GatherDims.mem_sKept, hcoll]; simp
    have hm : (0 : Fin 2) ∈ d.startIndexMap := by rw [hsim]; exact List.mem_singleton.mpr rfl
    rw [d.batchCoord_eq_zero _ _ (hb 0), d.offCoord_eq_zero _ _ hk]
    simp only [Nat.add_zero]
    unfold GatherDims.start
    rw [dif_pos hm]
    have hsl : d.sliceSizes 0 = 1 := by rw [hss]; rfl
    -- the result's batch axes are 0 and 1, and they read the start indices' axes 0 and 1
    have hbd : d.batchDims = [0, 1] := by
      show (⟨3, ![p, q, C]⟩ : Shape).kept d.offsetDims = [0, 1]
      rw [hoff]; rfl
    have hsk : d.siKept = [0, 1] := by
      show (List.finRange 3).filter (fun x : Fin 3 => decide (x.val ≠ d.indexVectorDim)) = [0, 1]
      rw [hivd]; rfl
    have hsi : d.siIdx (ix3 b s k) ⟨d.startIndexMap.idxOf 0, List.idxOf_lt_length_iff.2 hm⟩ = ix3 b s 0 := by
      funext c
      match c with
      | ⟨0, _⟩ =>
        unfold GatherDims.siIdx
        rw [dif_neg (by rw [hivd]; simp)]
        unfold GatherDims.siCoord
        apply Fin.ext
        simp only [Fin.val_cast]
        have key : ∀ X : Fin 3, X = 0 → ((ix3 b s k : (⟨3, ![p, q, C]⟩ : Shape).Idx) X).val = b.val := by
          intro X hX; subst hX; rfl
        have hpos : d.siKept.idxOf (⟨0, by decide⟩ : Fin 3) = 0 := by rw [hsk]; rfl
        exact key _ ((getElem_pair _ _ _ hbd _ _).1 hpos)
      | ⟨1, _⟩ =>
        unfold GatherDims.siIdx
        rw [dif_neg (by rw [hivd]; simp)]
        unfold GatherDims.siCoord
        apply Fin.ext
        simp only [Fin.val_cast]
        have key : ∀ X : Fin 3, X = 1 → ((ix3 b s k : (⟨3, ![p, q, C]⟩ : Shape).Idx) X).val = s.val := by
          intro X hX; subst hX; rfl
        have hpos : d.siKept.idxOf (⟨1, by decide⟩ : Fin 3) = 1 := by rw [hsk]; rfl
        exact key _ ((getElem_pair _ _ _ hbd _ _).2 hpos)
      | ⟨2, _⟩ =>
        unfold GatherDims.siIdx
        rw [dif_pos (by rw [hivd])]
        apply Fin.ext
        show List.idxOf (0 : Fin 2) d.startIndexMap = 0
        rw [hsim]; simp
    rw [hsi, hsl]
    rfl
  | ⟨1, _⟩ =>
    -- the column axis: kept whole, so the coordinate is the result's coordinate on its one offset axis
    apply Fin.ext
    show d.start (ix3 b s k) idx 1 + d.batchCoord (ix3 b s k) 1 + d.offCoord (ix3 b s k) 1 = k.val
    have hm : (1 : Fin 2) ∉ d.startIndexMap := by rw [hsim]; simp
    have hk : (1 : Fin 2) ∈ d.sKept := by rw [GatherDims.mem_sKept, hcoll, hob]; simp
    rw [d.batchCoord_eq_zero _ _ (hb 1)]
    unfold GatherDims.start
    rw [dif_neg hm]
    unfold GatherDims.offCoord
    rw [dif_pos hk]
    simp only [Nat.add_zero, Nat.zero_add]
    have key : ∀ X : Fin 3, X = 2 → ((ix3 b s k : (⟨3, ![p, q, C]⟩ : Shape).Idx) X).val = k.val := by
      intro X hX; subst hX; rfl
    exact key _ (getElem_single _ _ hoff _ _)

end Idealize.ShloMosaic.IndexOps3

end
-- ==== Proof.FusionEmb.lean ====
/- The three table averages. For a table of n rows and a row of sixteen index words, the kernel counts, class by class, how many words
   equal the class, multiplies the counts by the table and divides by sixteen; the reference looks each word's row up and averages the
   sixteen rows. For words in [0, n) the two are the same sum, regrouped by class. -/
import proofs.«427600_j46136538693914_1_alg».proof.Proof.Gen.KernelIdeal.Skeleton
import proofs.«427600_j46136538693914_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import proofs.«427600_j46136538693914_1_alg».proof.Proof.LibGatherRows3

set_option maxRecDepth 16384

noncomputable section

namespace Cert.KernelIdeal.FusionEmb

open Cert.KernelIdeal Cert.KernelIdeal.Gen
open Idealize.ShloMosaic Idealize.ShloMosaic.ValueIdx
open scoped BigOperators

/-! ## Sums over the extended reals, and words in a small range -/

/-- A finite sum of non-negative extended reals times a factor is the sum of the products: multiplication distributes over
    a sum of non-negative terms, whatever the factor (infinite or negative factors included). -/
theorem sum_mul_of_nonneg {ι : Type} (S : Finset ι) (f : ι → EReal) (hf : ∀ i, 0 ≤ f i) (c : EReal) :
    (∑ i ∈ S, f i) * c = ∑ i ∈ S, f i * c := by
  classical
  refine Finset.induction_on S ?_ ?_
  · simp
  · intro a S ha ih
    rw [Finset.sum_insert ha, Finset.sum_insert ha,
      EReal.right_distrib_of_nonneg (hf a) (Finset.sum_nonneg fun i _ => hf i), ih]

/-- A word whose signed value lies in `[0, n)`, for `n` at most 2³¹, is the word of a number `c` below `n` exactly when its
    value is `c`. -/
theorem word_eq_ofNat_iff {n : Nat} (hn : n ≤ 2 ^ 31) (w : BitVec 32) (h0 : 0 ≤ w.toInt) (h1 : w.toInt < n) (c : Nat)
    (hc : c < n) : w = BitVec.ofNat 32 c ↔ w.toInt.toNat = c := by
  have hcs : (BitVec.ofNat 32 c).toInt = c := StableHlo.Predicate.toInt_ofNat_small c (by omega)
  constructor
  · rintro rfl
    rw [hcs]; simp
  · intro h
    apply BitVec.eq_of_toInt_eq
    rw [hcs]
    omega

/-- THE REGROUPING. Sixteen words `w s`, each with signed value in `[0, n)`, and a family `T` over the `n` classes: the sum over
    the classes of (the number of words equal to the class) times the class's entry is the sum over the words of the entry of
    the word's class. Each word equals exactly one class; the indicators are 0 or 1, so the products distribute. -/
theorem regroup {n : Nat} (hn : n ≤ 2 ^ 31) (w : Fin 16 → BitVec 32) (hw : ∀ s, 0 ≤ (w s).toInt ∧ (w s).toInt < n)
    (T : Fin n → EReal) :
    ∑ c : Fin n, (∑ s : Fin 16, if w s = BitVec.ofNat 32 c.val then (1 : EReal) else 0) * T c
      = ∑ s : Fin 16, T ⟨(w s).toInt.toNat, by have := hw s; omega⟩ := by
  have h1 : ∀ c : Fin n, (∑ s : Fin 16, if w s = BitVec.ofNat 32 c.val then (1 : EReal) else 0) * T c
      = ∑ s : Fin 16, (if w s = BitVec.ofNat 32 c.val then (1 : EReal) else 0) * T c := fun c =>
    sum_mul_of_nonneg _ _ (fun s => by split <;> simp) _
  rw [Finset.sum_congr rfl fun c _ => h1 c, Finset.sum_comm]
  refine Finset.sum_congr rfl fun s _ => ?_
  have hs := hw s
  rw [Finset.sum_eq_single (⟨(w s).toInt.toNat, by omega⟩ : Fin n)]
  · rw [if_pos ((word_eq_ofNat_iff hn _ hs.1 hs.2 _ (by omega)).mpr rfl), one_mul]
  · intro c _ hc
    rw [if_neg (fun e => hc (Fin.ext ((word_eq_ofNat_iff hn _ hs.1 hs.2 c.val c.isLt).mp e).symm)), zero_mul]
  · intro h; exact absurd (Finset.mem_univ _) h

/-! ## A count column -/

/-- The count column of the class word `cw`: the indicator of "the index word equals `cw`" summed over the sixteen positions,
    kept as a [64, 1] column. Every column the kernel computes is this one at a literal class word. -/
def col (x : Vec Ideal S64x16 .i32) (cw : BitVec 32) : FVec Ideal S64x1 .f32 :=
  shapeCast S64x1
    (multiReduction (F := Ideal) .add [1] S64
      (select (cmpi .eq x (broadcast S64x16 cw)) (broadcast S64x16 (Scalar.ofBits (F := Ideal) .f32 0x3F800000#32))
        (broadcast S64x16 (Scalar.ofBits (F := Ideal) .f32 0x00000000#32)))
      0x00000000#32 reduces_S64x16_S64 (.inl rfl) rfl)
    shapeCasts_S64_S64x1

/-- The indicator before the sum, at a position: one where the word is the class word, zero elsewhere. -/
theorem indicator_apply (x : Vec Ideal S64x16 .i32) (cw : BitVec 32) (b : Fin 64) (s : Fin 16) :
    (select (cmpi .eq x (broadcast S64x16 cw)) (broadcast S64x16 (Scalar.ofBits (F := Ideal) .f32 0x3F800000#32))
        (broadcast S64x16 (Scalar.ofBits (F := Ideal) .f32 0x00000000#32)) : FVec Ideal S64x16 .f32) (ix2 b s)
      = if x (ix2 b s) = cw then (1 : EReal) else 0 := by
  show Scalar.select (IntOp.cmpi .eq (x (ix2 b s)) cw) (Ideal.ofBits .f32 0x3F800000#32) (Ideal.ofBits .f32 0x00000000#32) = _
  rw [show Ideal.ofBits .f32 0x3F800000#32 = 1 from IdealRules.sign_bit.ideal_onePat .f32, Ideal.ofBits_zero_f32]
  by_cases h : x (ix2 b s) = cw
  · rw [if_pos h, StableHlo.Predicate.cmpi_eq_iff.mpr h, select_one]
  · rw [if_neg h, eq_zero_of_ne_one (fun e => h (StableHlo.Predicate.cmpi_eq_iff.mp e)), select_zero]

/-- A count column at row `b`: the number of positions whose word is the class word, as a sum of indicators. -/
theorem col_apply (x : Vec Ideal S64x16 .i32) (cw : BitVec 32) (b : Fin 64) :
    col x cw (ix2 b (0 : Fin 1)) = ∑ s : Fin 16, if x (ix2 b s) = cw then (1 : EReal) else 0 := by
  unfold col
  rw [shapeCast_apply _ shapeCasts_S64_S64x1 (ix2 b (0 : Fin 1)) (ix1 b) (by
    rewrite [Shape.rowMajor_val_two, Shape.rowMajor_val_one]
    show b.val = b.val * 1 + 0
    omega)]
  refine (Ideal.multiReduction_add_single _ 0x00000000#32 reduces_S64x16_S64 (.inl rfl) rfl (ix1 b)).trans ?_
  show ∑ s : Fin 16, _ = _
  refine Finset.sum_congr rfl fun s _ => ?_
  have e : reduces_S64x16_S64.lift (ix1 b) s = ix2 b s := by
    funext a
    match a with
    | ⟨0, _⟩ => exact Fin.ext rfl
    | ⟨1, _⟩ => exact Fin.ext rfl
  rw [e]
  exact indicator_apply x cw b s

/-! ## The counts times a table -/

/-- A [64, n] × [n, 64] product into the zero accumulator, read at (b, j): the sum over the n classes of the left factor at
    (b, c) times the right factor at (c, j). The four hypotheses say where the dimension numbers send each operand axis (row
    and contraction on the left, contraction and column on the right). -/
theorem matmul_rows_apply {n : Nat} (D : DotDims ⟨2, ![64, n]⟩ ⟨2, ![n, 64]⟩ ⟨2, ![64, 64]⟩)
    (hr : D.contr.rank = 1) (hs : D.contr.size ⟨0, by omega⟩ = n)
    (hl0 : ∀ (i : (⟨2, ![64, 64]⟩ : Shape).Idx) (q : D.contr.Idx), (D.lhsIdx i q 0).val = (i 0).val)
    (hl1 : ∀ (i : (⟨2, ![64, 64]⟩ : Shape).Idx) (q : D.contr.Idx), (D.lhsIdx i q 1).val = (q ⟨0, by omega⟩).val)
    (hr0 : ∀ (i : (⟨2, ![64, 64]⟩ : Shape).Idx) (q : D.contr.Idx), (D.rhsIdx i q 0).val = (q ⟨0, by omega⟩).val)
    (hr1 : ∀ (i : (⟨2, ![64, 64]⟩ : Shape).Idx) (q : D.contr.Idx), (D.rhsIdx i q 1).val = (i 1).val)
    (M : FVec Ideal ⟨2, ![64, n]⟩ .bf16) (T : FVec Ideal ⟨2, ![n, 64]⟩ .bf16) (b j : Fin 64) :
    FloatOps.matmul D none M T (constant (F := Ideal) ⟨2, ![64, 64]⟩ .f32 0x00000000#32) (ix2 b j)
      = ∑ c : Fin n, M (ix2 b c) * T (ix2 c j) := by
  rw [Ideal.matmul_constant_zero_apply, ← Equiv.sum_comp (contrEquiv1 D n hr hs).symm]
  refine Finset.sum_congr rfl fun c _ => ?_
  have hc := contrEquiv1_symm_val D n hr hs c
  have el : D.lhsIdx (ix2 b j) ((contrEquiv1 D n hr hs).symm c) = ix2 b c := funext fun a => Fin.ext (by
    match a with
    | ⟨0, _⟩ => exact hl0 _ _
    | ⟨1, _⟩ => exact (hl1 _ _).trans hc)
  have er : D.rhsIdx (ix2 b j) ((contrEquiv1 D n hr hs).symm c) = ix2 c j := funext fun a => Fin.ext (by
    match a with
    | ⟨0, _⟩ => exact (hr0 _ _).trans hc
    | ⟨1, _⟩ => exact hr1 _ _)
  rw [el, er]

/-- The reference's index for a word: under the range hypothesis the negative-index wrap does not fire and the row clamp
    does not bite, so the row the gather reads is the word's own value. -/
theorem wrap_clamp_eq {n : Nat} (w cn : BitVec 32) (h0 : 0 ≤ w.toInt) (h1 : w.toInt < (n : Int)) :
    min (Scalar.select (IntOp.cmpi .slt w 0#32) (IntOp.addi w cn) w).toInt.toNat (n - 1) = w.toInt.toNat := by
  have hlt : IntOp.cmpi .slt w 0#32 = 0#1 := by
    apply eq_zero_of_ne_one
    intro e
    have : w.slt 0#32 = true := (StableHlo.Predicate.ofBool_eq_one_iff _).mp e
    simp only [BitVec.slt, decide_eq_true_eq] at this
    have h00 : (0#32 : BitVec 32).toInt = 0 := by decide
    omega
  rw [hlt, select_zero]
  omega

/-! ## The type table: five classes -/

theorem lhs5_0 (i : S64x64.Idx) (q : dot_S64x5_S5x64_S64x64_1_0_0_1_n_n.contr.Idx) :
    (dot_S64x5_S5x64_S64x64_1_0_0_1_n_n.lhsIdx i q 0).val = (i 0).val := by
  unfold DotDims.lhsIdx
  rw [dif_neg (show ¬(0 : Fin S64x5.rank) ∈ dot_S64x5_S5x64_S64x64_1_0_0_1_n_n.lhsBatch by decide),
    dif_pos (show (0 : Fin S64x5.rank) ∈ dot_S64x5_S5x64_S64x64_1_0_0_1_n_n.lhsNonContracting by decide)]
  rfl
theorem lhs5_1 (i : S64x64.Idx) (q : dot_S64x5_S5x64_S64x64_1_0_0_1_n_n.contr.Idx) :
    (dot_S64x5_S5x64_S64x64_1_0_0_1_n_n.lhsIdx i q 1).val = (q ⟨0, by decide⟩).val :=
  dot_S64x5_S5x64_S64x64_1_0_0_1_n_n.lhsIdx_val_of_single rfl i q
theorem rhs5_0 (i : S64x64.Idx) (q : dot_S64x5_S5x64_S64x64_1_0_0_1_n_n.contr.Idx) :
    (dot_S64x5_S5x64_S64x64_1_0_0_1_n_n.rhsIdx i q 0).val = (q ⟨0, by decide⟩).val :=
  dot_S64x5_S5x64_S64x64_1_0_0_1_n_n.rhsIdx_val_of_single rfl i q
theorem rhs5_1 (i : S64x64.Idx) (q : dot_S64x5_S5x64_S64x64_1_0_0_1_n_n.contr.Idx) :
    (dot_S64x5_S5x64_S64x64_1_0_0_1_n_n.rhsIdx i q 1).val = (i 1).val := by
  unfold DotDims.rhsIdx
  rw [dif_neg (show ¬(1 : Fin S5x64.rank) ∈ dot_S64x5_S5x64_S64x64_1_0_0_1_n_n.rhsBatch by decide),
    dif_pos (show (1 : Fin S5x64.rank) ∈ dot_S64x5_S5x64_S64x64_1_0_0_1_n_n.rhsNonContracting by decide)]
  rfl

/-- The kernel's count matrix for the type table is the five count columns of the class words 0 … 4 side by side. -/
theorem counts_t_eq (x : Vec Ideal S64x16 .i32) :
    k3_pay5 x (k3_pay2 x) (k3_pay3 x) (k3_pay4 x)
      = concatenate S64x5 1 (List.ofFn fun c : Fin 5 => (⟨S64x1, col x (BitVec.ofNat 32 c.val)⟩ : (s : Shape) × (s.Idx → EReal)))
          concatenates_S64x1_S64x1_S64x1_S64x1_S64x1_S64x5_d1 := rfl

/-- The count matrix at (b, c): the number of positions of row `b` whose word is the class `c`. -/
theorem counts_t_apply (x : Vec Ideal S64x16 .i32) (b : Fin 64) (c : Fin 5) :
    k3_pay5 x (k3_pay2 x) (k3_pay3 x) (k3_pay4 x) (ix2 b c)
      = ∑ s : Fin 16, if x (ix2 b s) = BitVec.ofNat 32 c.val then (1 : EReal) else 0 := by
  rw [counts_t_eq, ← col_apply]
  exact concatenate_ofFn_unit_apply (t := S64x5) (s₁ := S64x1) (1 : Fin 2) (fun c : Fin 5 => col x (BitVec.ofNat 32 c.val)) _ rfl rfl
    (ix2 b c) c rfl (ix2 b (0 : Fin 1)) (fun a ha => by
      match a with
      | ⟨0, _⟩ => rfl
      | ⟨1, _⟩ => exact absurd rfl ha)

/-- The reference's looked-up row for the type table: at (b, s, j) the gather reads the table at the row the word at (b, s)
    names, column `j`. -/
theorem ref_t_apply (x3 : Vec Ideal S64x16 .i32) (x15 : Vec Ideal S5x64 .f32)
    (hr : ∀ (b : Fin 64) (s : Fin 16), 0 ≤ (x3 (ix2 b s)).toInt ∧ (x3 (ix2 b s)).toInt < 5) (b : Fin 64) (s : Fin 16) (j : Fin 64) :
    Cert.ReferenceIdeal.Read.val_main_v86 (F := Ideal) x3 x15 (ix3 b s j)
      = x15 (ix2 ⟨(x3 (ix2 b s)).toInt.toNat, by have := hr b s; omega⟩ j) := by
  unfold Cert.ReferenceIdeal.Read.val_main_v86
  rw [IndexOps3.gather_rows3_apply _ rfl rfl rfl rfl rfl rfl (by decide)]
  have key : min (Cert.ReferenceIdeal.Read.val_main_v85 (F := Ideal) x3 (ix3 b s (0 : Fin 1))).toInt.toNat (5 - 1)
      = (x3 (ix2 b s)).toInt.toNat := by
    rw [Cert.ReferenceIdeal.Read.val_main_v85_apply]
    have e : Cert.ReferenceIdeal.Read.idx_main_v85 (ix3 b s (0 : Fin 1)) = ix2 b s := by
      funext a
      match a with
      | ⟨0, _⟩ => rfl
      | ⟨1, _⟩ => rfl
    rw [e, Cert.ReferenceIdeal.Read.val_main_v84_apply, Cert.ReferenceIdeal.Read.val_main_v81_apply,
      Cert.ReferenceIdeal.Read.val_main_v83_apply, Cert.ReferenceIdeal.Read.val_main_v80_apply,
      Cert.ReferenceIdeal.Read.val_main_c_15_apply]
    exact wrap_clamp_eq (n := 5) _ _ (hr b s).1 (by have := (hr b s).2; omega)
  exact congrArg (fun r => x15 (ix2 r j)) (Fin.ext key)

/-- The type table (five rows): the kernel's average at (b, j) is the mean over the sixteen positions of the looked-up rows. -/
theorem emb_t (x3 : Vec Ideal S64x16 .i32) (x15 : Vec Ideal S5x64 .f32)
    (hr : ∀ (b : Fin 64) (s : Fin 16), 0 ≤ (x3 (ix2 b s)).toInt ∧ (x3 (ix2 b s)).toInt < 5) (b : Fin 64) (j : Fin 64) :
    k3_pay19 (F := Ideal) (k3_pay5 x3 (k3_pay2 x3) (k3_pay3 x3) (k3_pay4 x3)) x15 (ix2 b j)
      = FloatOps.hostDivf (F := Ideal) ((FloatOps.ofBits (F := Ideal) .f32 0x00000000#32) + ∑ s : Fin 16, Cert.ReferenceIdeal.Read.val_main_v86 (F := Ideal) x3 x15 (ix3 b s j)) (FloatOps.ofBits (F := Ideal) .f32 0x41800000#32) := by
  have hL : k3_pay19 (F := Ideal) (k3_pay5 x3 (k3_pay2 x3) (k3_pay3 x3) (k3_pay4 x3)) x15 (ix2 b j)
      = Ideal.div (∑ c : Fin 5, k3_pay5 x3 (k3_pay2 x3) (k3_pay3 x3) (k3_pay4 x3) (ix2 b c) * x15 (ix2 c j))
          (Ideal.ofBits .f32 0x41800000#32) := by
    show Ideal.div (FloatOps.matmul dot_S64x5_S5x64_S64x64_1_0_0_1_n_n none
        (truncf .bf16 (k3_pay5 x3 (k3_pay2 x3) (k3_pay3 x3) (k3_pay4 x3)) (by decide)) (truncf .bf16 x15 (by decide))
        (constant (F := Ideal) S64x64 .f32 0x00000000#32) (ix2 b j)) (Ideal.ofBits .f32 0x41800000#32) = _
    rw [matmul_rows_apply dot_S64x5_S5x64_S64x64_1_0_0_1_n_n rfl rfl lhs5_0 lhs5_1 rhs5_0 rhs5_1]
    rfl
  rw [hL, Finset.sum_congr rfl fun c _ => congrArg (· * x15 (ix2 c j)) (counts_t_apply x3 b c),
    regroup (n := 5) (by norm_num) (fun s => x3 (ix2 b s)) (fun s => ⟨(hr b s).1, by have := (hr b s).2; omega⟩)
      (fun c => x15 (ix2 c j))]
  show Ideal.div _ _ = Ideal.div (Ideal.ofBits .f32 0x00000000#32 + _) _
  rw [Ideal.ofBits_zero_f32, zero_add]
  exact congrArg (fun z => Ideal.div z _) (Finset.sum_congr rfl fun s _ => (ref_t_apply x3 x15 hr b s j).symm)

/-! ## The key table: six classes -/

theorem lhs6_0 (i : S64x64.Idx) (q : dot_S64x6_S6x64_S64x64_1_0_0_1_n_n.contr.Idx) :
    (dot_S64x6_S6x64_S64x64_1_0_0_1_n_n.lhsIdx i q 0).val = (i 0).val := by
  unfold DotDims.lhsIdx
  rw [dif_neg (show ¬(0 : Fin S64x6.rank) ∈ dot_S64x6_S6x64_S64x64_1_0_0_1_n_n.lhsBatch by decide),
    dif_pos (show (0 : Fin S64x6.rank) ∈ dot_S64x6_S6x64_S64x64_1_0_0_1_n_n.lhsNonContracting by decide)]
  rfl
theorem lhs6_1 (i : S64x64.Idx) (q : dot_S64x6_S6x64_S64x64_1_0_0_1_n_n.contr.Idx) :
    (dot_S64x6_S6x64_S64x64_1_0_0_1_n_n.lhsIdx i q 1).val = (q ⟨0, by decide⟩).val :=
  dot_S64x6_S6x64_S64x64_1_0_0_1_n_n.lhsIdx_val_of_single rfl i q
theorem rhs6_0 (i : S64x64.Idx) (q : dot_S64x6_S6x64_S64x64_1_0_0_1_n_n.contr.Idx) :
    (dot_S64x6_S6x64_S64x64_1_0_0_1_n_n.rhsIdx i q 0).val = (q ⟨0, by decide⟩).val :=
  dot_S64x6_S6x64_S64x64_1_0_0_1_n_n.rhsIdx_val_of_single rfl i q
theorem rhs6_1 (i : S64x64.Idx) (q : dot_S64x6_S6x64_S64x64_1_0_0_1_n_n.contr.Idx) :
    (dot_S64x6_S6x64_S64x64_1_0_0_1_n_n.rhsIdx i q 1).val = (i 1).val := by
  unfold DotDims.rhsIdx
  rw [dif_neg (show ¬(1 : Fin S6x64.rank) ∈ dot_S64x6_S6x64_S64x64_1_0_0_1_n_n.rhsBatch by decide),
    dif_pos (show (1 : Fin S6x64.rank) ∈ dot_S64x6_S6x64_S64x64_1_0_0_1_n_n.rhsNonContracting by decide)]
  rfl

/-- The kernel's count matrix for the key table is the six count columns of the class words 0 … 5 side by side. -/
theorem counts_k_eq (x : Vec Ideal S64x16 .i32) :
    k3_pay9 x (k3_pay6 x) (k3_pay7 x) (k3_pay8 x)
      = concatenate S64x6 1 (List.ofFn fun c : Fin 6 => (⟨S64x1, col x (BitVec.ofNat 32 c.val)⟩ : (s : Shape) × (s.Idx → EReal)))
          concatenates_S64x1_S64x1_S64x1_S64x1_S64x1_S64x1_S64x6_d1 := rfl

/-- The count matrix at (b, c): the number of positions of row `b` whose word is the class `c`. -/
theorem counts_k_apply (x : Vec Ideal S64x16 .i32) (b : Fin 64) (c : Fin 6) :
    k3_pay9 x (k3_pay6 x) (k3_pay7 x) (k3_pay8 x) (ix2 b c)
      = ∑ s : Fin 16, if x (ix2 b s) = BitVec.ofNat 32 c.val then (1 : EReal) else 0 := by
  rw [counts_k_eq, ← col_apply]
  exact concatenate_ofFn_unit_apply (t := S64x6) (s₁ := S64x1) (1 : Fin 2) (fun c : Fin 6 => col x (BitVec.ofNat 32 c.val)) _ rfl rfl
    (ix2 b c) c rfl (ix2 b (0 : Fin 1)) (fun a ha => by
      match a with
      | ⟨0, _⟩ => rfl
      | ⟨1, _⟩ => exact absurd rfl ha)

/-- The reference's looked-up row for the key table. -/
theorem ref_k_apply (x4 : Vec Ideal S64x16 .i32) (x16 : Vec Ideal S6x64 .f32)
    (hr : ∀ (b : Fin 64) (s : Fin 16), 0 ≤ (x4 (ix2 b s)).toInt ∧ (x4 (ix2 b s)).toInt < 6) (b : Fin 64) (s : Fin 16) (j : Fin 64) :
    Cert.ReferenceIdeal.Read.val_main_v93 (F := Ideal) x4 x16 (ix3 b s j)
      = x16 (ix2 ⟨(x4 (ix2 b s)).toInt.toNat, by have := hr b s; omega⟩ j) := by
  unfold Cert.ReferenceIdeal.Read.val_main_v93
  rw [IndexOps3.gather_rows3_apply _ rfl rfl rfl rfl rfl rfl (by decide)]
  have key : min (Cert.ReferenceIdeal.Read.val_main_v92 (F := Ideal) x4 (ix3 b s (0 : Fin 1))).toInt.toNat (6 - 1)
      = (x4 (ix2 b s)).toInt.toNat := by
    rw [Cert.ReferenceIdeal.Read.val_main_v92_apply]
    have e : Cert.ReferenceIdeal.Read.idx_main_v92 (ix3 b s (0 : Fin 1)) = ix2 b s := by
      funext a
      match a with
      | ⟨0, _⟩ => rfl
      | ⟨1, _⟩ => rfl
    rw [e, Cert.ReferenceIdeal.Read.val_main_v91_apply, Cert.ReferenceIdeal.Read.val_main_v88_apply,
      Cert.ReferenceIdeal.Read.val_main_v90_apply, Cert.ReferenceIdeal.Read.val_main_v87_apply,
      Cert.ReferenceIdeal.Read.val_main_c_17_apply]
    exact wrap_clamp_eq (n := 6) _ _ (hr b s).1 (by have := (hr b s).2; omega)
  exact congrArg (fun r => x16 (ix2 r j)) (Fin.ext key)

/-- The key table (six rows). -/
theorem emb_k (x4 : Vec Ideal S64x16 .i32) (x16 : Vec Ideal S6x64 .f32)
    (hr : ∀ (b : Fin 64) (s : Fin 16), 0 ≤ (x4 (ix2 b s)).toInt ∧ (x4 (ix2 b s)).toInt < 6) (b : Fin 64) (j : Fin 64) :
    k3_pay20 (F := Ideal) (k3_pay9 x4 (k3_pay6 x4) (k3_pay7 x4) (k3_pay8 x4)) x16 (ix2 b j)
      = FloatOps.hostDivf (F := Ideal) ((FloatOps.ofBits (F := Ideal) .f32 0x00000000#32) + ∑ s : Fin 16, Cert.ReferenceIdeal.Read.val_main_v93 (F := Ideal) x4 x16 (ix3 b s j)) (FloatOps.ofBits (F := Ideal) .f32 0x41800000#32) := by
  have hL : k3_pay20 (F := Ideal) (k3_pay9 x4 (k3_pay6 x4) (k3_pay7 x4) (k3_pay8 x4)) x16 (ix2 b j)
      = Ideal.div (∑ c : Fin 6, k3_pay9 x4 (k3_pay6 x4) (k3_pay7 x4) (k3_pay8 x4) (ix2 b c) * x16 (ix2 c j))
          (Ideal.ofBits .f32 0x41800000#32) := by
    show Ideal.div (FloatOps.matmul dot_S64x6_S6x64_S64x64_1_0_0_1_n_n none
        (truncf .bf16 (k3_pay9 x4 (k3_pay6 x4) (k3_pay7 x4) (k3_pay8 x4)) (by decide)) (truncf .bf16 x16 (by decide))
        (constant (F := Ideal) S64x64 .f32 0x00000000#32) (ix2 b j)) (Ideal.ofBits .f32 0x41800000#32) = _
    rw [matmul_rows_apply dot_S64x6_S6x64_S64x64_1_0_0_1_n_n rfl rfl lhs6_0 lhs6_1 rhs6_0 rhs6_1]
    rfl
  rw [hL, Finset.sum_congr rfl fun c _ => congrArg (· * x16 (ix2 c j)) (counts_k_apply x4 b c),
    regroup (n := 6) (by norm_num) (fun s => x4 (ix2 b s)) (fun s => ⟨(hr b s).1, by have := (hr b s).2; omega⟩)
      (fun c => x16 (ix2 c j))]
  show Ideal.div _ _ = Ideal.div (Ideal.ofBits .f32 0x00000000#32 + _) _
  rw [Ideal.ofBits_zero_f32, zero_add]
  exact congrArg (fun z => Ideal.div z _) (Finset.sum_congr rfl fun s _ => (ref_k_apply x4 x16 hr b s j).symm)

/-! ## The value table: ten classes -/

theorem lhs10_0 (i : S64x64.Idx) (q : dot_S64x10_S10x64_S64x64_1_0_0_1_n_n.contr.Idx) :
    (dot_S64x10_S10x64_S64x64_1_0_0_1_n_n.lhsIdx i q 0).val = (i 0).val := by
  unfold DotDims.lhsIdx
  rw [dif_neg (show ¬(0 : Fin S64x10.rank) ∈ dot_S64x10_S10x64_S64x64_1_0_0_1_n_n.lhsBatch by decide),
    dif_pos (show (0 : Fin S64x10.rank) ∈ dot_S64x10_S10x64_S64x64_1_0_0_1_n_n.lhsNonContracting by decide)]
  rfl
theorem lhs10_1 (i : S64x64.Idx) (q : dot_S64x10_S10x64_S64x64_1_0_0_1_n_n.contr.Idx) :
    (dot_S64x10_S10x64_S64x64_1_0_0_1_n_n.lhsIdx i q 1).val = (q ⟨0, by decide⟩).val :=
  dot_S64x10_S10x64_S64x64_1_0_0_1_n_n.lhsIdx_val_of_single rfl i q
theorem rhs10_0 (i : S64x64.Idx) (q : dot_S64x10_S10x64_S64x64_1_0_0_1_n_n.contr.Idx) :
    (dot_S64x10_S10x64_S64x64_1_0_0_1_n_n.rhsIdx i q 0).val = (q ⟨0, by decide⟩).val :=
  dot_S64x10_S10x64_S64x64_1_0_0_1_n_n.rhsIdx_val_of_single rfl i q
theorem rhs10_1 (i : S64x64.Idx) (q : dot_S64x10_S10x64_S64x64_1_0_0_1_n_n.contr.Idx) :
    (dot_S64x10_S10x64_S64x64_1_0_0_1_n_n.rhsIdx i q 1).val = (i 1).val := by
  unfold DotDims.rhsIdx
  rw [dif_neg (show ¬(1 : Fin S10x64.rank) ∈ dot_S64x10_S10x64_S64x64_1_0_0_1_n_n.rhsBatch by decide),
    dif_pos (show (1 : Fin S10x64.rank) ∈ dot_S64x10_S10x64_S64x64_1_0_0_1_n_n.rhsNonContracting by decide)]
  rfl

/-- The count matrix for the value table: the ten count columns of the class words 0 … 9 side by side. -/
def counts_v (x : Vec Ideal S64x16 .i32) : FVec Ideal S64x10 .f32 :=
  concatenate S64x10 1 (List.ofFn fun c : Fin 10 => (⟨S64x1, col x (BitVec.ofNat 32 c.val)⟩ : (s : Shape) × (s.Idx → EReal)))
    concatenates_S64x1_S64x1_S64x1_S64x1_S64x1_S64x1_S64x1_S64x1_S64x1_S64x1_S64x10_d1

/-- The count matrix at (b, c): the number of positions of row `b` whose word is the class `c`. -/
theorem counts_v_apply (x : Vec Ideal S64x16 .i32) (b : Fin 64) (c : Fin 10) :
    counts_v x (ix2 b c) = ∑ s : Fin 16, if x (ix2 b s) = BitVec.ofNat 32 c.val then (1 : EReal) else 0 := by
  unfold counts_v
  rw [← col_apply]
  exact concatenate_ofFn_unit_apply (t := S64x10) (s₁ := S64x1) (1 : Fin 2) (fun c : Fin 10 => col x (BitVec.ofNat 32 c.val)) _ rfl rfl
    (ix2 b c) c rfl (ix2 b (0 : Fin 1)) (fun a ha => by
      match a with
      | ⟨0, _⟩ => rfl
      | ⟨1, _⟩ => exact absurd rfl ha)

/-- The kernel's last stage for the value table — it receives the first seven count columns, the eighth class's comparison
    and the literal one, and finishes the remaining columns itself — is the count matrix times the table, over sixteen. -/
theorem pay21_eq (x5 : Vec Ideal S64x16 .i32) (x17 : Vec Ideal S10x64 .f32) :
    k3_pay21 (F := Ideal) x5 (k3_pay10 x5) (k3_pay12 (k3_pay11 x5)) (k3_pay13 x5) (k3_pay14 x5) (k3_pay15 x5) (k3_pay16 x5)
        (k3_pay17 x5) (k3_pay18 x5) (Scalar.ofBits .f32 0x3F800000#32) x17
      = divf (matmul dot_S64x10_S10x64_S64x64_1_0_0_1_n_n none (truncf .bf16 (counts_v x5) bitsLt_bf16_f32) (truncf .bf16 x17 bitsLt_bf16_f32)
          (constant (F := Ideal) S64x64 .f32 0x00000000#32)) (broadcast S64x64 (Scalar.ofBits (F := Ideal) .f32 0x41800000#32)) := rfl

/-- The reference's looked-up row for the value table. -/
theorem ref_v_apply (x5 : Vec Ideal S64x16 .i32) (x17 : Vec Ideal S10x64 .f32)
    (hr : ∀ (b : Fin 64) (s : Fin 16), 0 ≤ (x5 (ix2 b s)).toInt ∧ (x5 (ix2 b s)).toInt < 10) (b : Fin 64) (s : Fin 16) (j : Fin 64) :
    Cert.ReferenceIdeal.Read.val_main_v100 (F := Ideal) x5 x17 (ix3 b s j)
      = x17 (ix2 ⟨(x5 (ix2 b s)).toInt.toNat, by have := hr b s; omega⟩ j) := by
  unfold Cert.ReferenceIdeal.Read.val_main_v100
  rw [IndexOps3.gather_rows3_apply _ rfl rfl rfl rfl rfl rfl (by decide)]
  have key : min (Cert.ReferenceIdeal.Read.val_main_v99 (F := Ideal) x5 (ix3 b s (0 : Fin 1))).toInt.toNat (10 - 1)
      = (x5 (ix2 b s)).toInt.toNat := by
    rw [Cert.ReferenceIdeal.Read.val_main_v99_apply]
    have e : Cert.ReferenceIdeal.Read.idx_main_v99 (ix3 b s (0 : Fin 1)) = ix2 b s := by
      funext a
      match a with
      | ⟨0, _⟩ => rfl
      | ⟨1, _⟩ => rfl
    rw [e, Cert.ReferenceIdeal.Read.val_main_v98_apply, Cert.ReferenceIdeal.Read.val_main_v95_apply,
      Cert.ReferenceIdeal.Read.val_main_v97_apply, Cert.ReferenceIdeal.Read.val_main_v94_apply,
      Cert.ReferenceIdeal.Read.val_main_c_19_apply]
    exact wrap_clamp_eq (n := 10) _ _ (hr b s).1 (by have := (hr b s).2; omega)
  exact congrArg (fun r => x17 (ix2 r j)) (Fin.ext key)

/-- The value table (ten rows). -/
theorem emb_v (x5 : Vec Ideal S64x16 .i32) (x17 : Vec Ideal S10x64 .f32)
    (hr : ∀ (b : Fin 64) (s : Fin 16), 0 ≤ (x5 (ix2 b s)).toInt ∧ (x5 (ix2 b s)).toInt < 10) (b : Fin 64) (j : Fin 64) :
    k3_pay21 (F := Ideal) x5 (k3_pay10 x5) (k3_pay12 (k3_pay11 x5)) (k3_pay13 x5) (k3_pay14 x5) (k3_pay15 x5) (k3_pay16 x5) (k3_pay17 x5) (k3_pay18 x5) (Scalar.ofBits .f32 0x3F800000#32) x17 (ix2 b j)
      = FloatOps.hostDivf (F := Ideal) ((FloatOps.ofBits (F := Ideal) .f32 0x00000000#32) + ∑ s : Fin 16, Cert.ReferenceIdeal.Read.val_main_v100 (F := Ideal) x5 x17 (ix3 b s j)) (FloatOps.ofBits (F := Ideal) .f32 0x41800000#32) := by
  have hL : k3_pay21 (F := Ideal) x5 (k3_pay10 x5) (k3_pay12 (k3_pay11 x5)) (k3_pay13 x5) (k3_pay14 x5) (k3_pay15 x5)
        (k3_pay16 x5) (k3_pay17 x5) (k3_pay18 x5) (Scalar.ofBits .f32 0x3F800000#32) x17 (ix2 b j)
      = Ideal.div (∑ c : Fin 10, counts_v x5 (ix2 b c) * x17 (ix2 c j)) (Ideal.ofBits .f32 0x41800000#32) := by
    rw [pay21_eq]
    show Ideal.div (FloatOps.matmul dot_S64x10_S10x64_S64x64_1_0_0_1_n_n none
        (truncf .bf16 (counts_v x5) (by decide)) (truncf .bf16 x17 (by decide))
        (constant (F := Ideal) S64x64 .f32 0x00000000#32) (ix2 b j)) (Ideal.ofBits .f32 0x41800000#32) = _
    rw [matmul_rows_apply dot_S64x10_S10x64_S64x64_1_0_0_1_n_n rfl rfl lhs10_0 lhs10_1 rhs10_0 rhs10_1]
    rfl
  rw [hL, Finset.sum_congr rfl fun c _ => congrArg (· * x17 (ix2 c j)) (counts_v_apply x5 b c),
    regroup (n := 10) (by norm_num) (fun s => x5 (ix2 b s)) (fun s => ⟨(hr b s).1, by have := (hr b s).2; omega⟩)
      (fun c => x17 (ix2 c j))]
  show Ideal.div _ _ = Ideal.div (Ideal.ofBits .f32 0x00000000#32 + _) _
  rw [Ideal.ofBits_zero_f32, zero_add]
  exact congrArg (fun z => Ideal.div z _) (Finset.sum_congr rfl fun s _ => (ref_v_apply x5 x17 hr b s j).symm)

end Cert.KernelIdeal.FusionEmb

end
-- ==== Proof.FusionP.lean ====
/- The pragma block: the three table averages side by side, times the projection, plus its bias, clipped below at zero. The reference
   joins the three looked-up rows first, then averages over the sixteen positions; joining and averaging commute column by column. -/
import proofs.«427600_j46136538693914_1_alg».proof.Proof.Gen.KernelIdeal.Skeleton
import proofs.«427600_j46136538693914_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.FusionP

open Cert.KernelIdeal Cert.KernelIdeal.Gen
open Idealize.ShloMosaic Idealize.ShloMosaic.ValueIdx

/-! ## A join of three equal pieces read at an index

The joined axis has extent 192 = 64 + 64 + 64: column `q` comes from the first piece when `q < 64`, from the second
at `q - 64` when `64 ≤ q < 128`, from the third at `q - 128` otherwise. Stated for a matrix joined along its columns
and for a rank-3 array joined along its last axis. -/

section Join
variable {α : Type}

/-- Columns 0 … 63 of the joined matrix are the first piece. -/
theorem join2_fst (X Y Z : S64x64.Idx → α) (h : Shape.Concatenates [S64x64, S64x64, S64x64] S64x192 1)
    (b : Fin 64) (q : Fin 192) (c : Fin 64) (hq : q.val = c.val) :
    concatenate S64x192 1 [⟨S64x64, X⟩, ⟨S64x64, Y⟩, ⟨S64x64, Z⟩] h (ix2 b q) = X (ix2 b c) :=
  concatenate_apply_piece (t := S64x192) 1 [⟨S64x64, X⟩, ⟨S64x64, Y⟩, ⟨S64x64, Z⟩] h (ix2 b q) 0 (by show (0 : Nat) < 3; decide) S64x64 X rfl rfl 0 rfl
    (ix2 b c) (fun a ha => by
      match a, ha with
      | ⟨0, _⟩, _ => rfl
      | ⟨1, _⟩, ha => exact absurd rfl ha)
    (by show 0 + c.val = q.val; omega)

/-- Columns 64 … 127 are the second piece. -/
theorem join2_snd (X Y Z : S64x64.Idx → α) (h : Shape.Concatenates [S64x64, S64x64, S64x64] S64x192 1)
    (b : Fin 64) (q : Fin 192) (c : Fin 64) (hq : q.val = 64 + c.val) :
    concatenate S64x192 1 [⟨S64x64, X⟩, ⟨S64x64, Y⟩, ⟨S64x64, Z⟩] h (ix2 b q) = Y (ix2 b c) :=
  concatenate_apply_piece (t := S64x192) 1 [⟨S64x64, X⟩, ⟨S64x64, Y⟩, ⟨S64x64, Z⟩] h (ix2 b q) 1 (by show (1 : Nat) < 3; decide) S64x64 Y rfl rfl 64 rfl
    (ix2 b c) (fun a ha => by
      match a, ha with
      | ⟨0, _⟩, _ => rfl
      | ⟨1, _⟩, ha => exact absurd rfl ha)
    (by show 64 + c.val = q.val; omega)

/-- Columns 128 … 191 are the third piece. -/
theorem join2_trd (X Y Z : S64x64.Idx → α) (h : Shape.Concatenates [S64x64, S64x64, S64x64] S64x192 1)
    (b : Fin 64) (q : Fin 192) (c : Fin 64) (hq : q.val = 128 + c.val) :
    concatenate S64x192 1 [⟨S64x64, X⟩, ⟨S64x64, Y⟩, ⟨S64x64, Z⟩] h (ix2 b q) = Z (ix2 b c) :=
  concatenate_apply_piece (t := S64x192) 1 [⟨S64x64, X⟩, ⟨S64x64, Y⟩, ⟨S64x64, Z⟩] h (ix2 b q) 2 (by show (2 : Nat) < 3; decide) S64x64 Z rfl rfl 128 rfl
    (ix2 b c) (fun a ha => by
      match a, ha with
      | ⟨0, _⟩, _ => rfl
      | ⟨1, _⟩, ha => exact absurd rfl ha)
    (by show 128 + c.val = q.val; omega)

/-- The same three facts for a rank-3 array joined along its last axis. -/
theorem join3_fst (X Y Z : (⟨3, ![64, 16, 64]⟩ : Shape).Idx → α)
    (h : Shape.Concatenates [(⟨3, ![64, 16, 64]⟩ : Shape), ⟨3, ![64, 16, 64]⟩, ⟨3, ![64, 16, 64]⟩] ⟨3, ![64, 16, 192]⟩ 2)
    (b : Fin 64) (s : Fin 16) (q : Fin 192) (c : Fin 64) (hq : q.val = c.val) :
    concatenate ⟨3, ![64, 16, 192]⟩ 2 [⟨⟨3, ![64, 16, 64]⟩, X⟩, ⟨⟨3, ![64, 16, 64]⟩, Y⟩, ⟨⟨3, ![64, 16, 64]⟩, Z⟩] h (ix3 b s q) = X (ix3 b s c) :=
  concatenate_apply_piece (t := ⟨3, ![64, 16, 192]⟩) 2 [⟨⟨3, ![64, 16, 64]⟩, X⟩, ⟨⟨3, ![64, 16, 64]⟩, Y⟩, ⟨⟨3, ![64, 16, 64]⟩, Z⟩] h (ix3 b s q) 0 (by show (0 : Nat) < 3; decide) ⟨3, ![64, 16, 64]⟩ X rfl rfl 0 rfl
    (ix3 b s c) (fun a ha => by
      match a, ha with
      | ⟨0, _⟩, _ => rfl
      | ⟨1, _⟩, _ => rfl
      | ⟨2, _⟩, ha => exact absurd rfl ha)
    (by show 0 + c.val = q.val; omega)

theorem join3_snd (X Y Z : (⟨3, ![64, 16, 64]⟩ : Shape).Idx → α)
    (h : Shape.Concatenates [(⟨3, ![64, 16, 64]⟩ : Shape), ⟨3, ![64, 16, 64]⟩, ⟨3, ![64, 16, 64]⟩] ⟨3, ![64, 16, 192]⟩ 2)
    (b : Fin 64) (s : Fin 16) (q : Fin 192) (c : Fin 64) (hq : q.val = 64 + c.val) :
    concatenate ⟨3, ![64, 16, 192]⟩ 2 [⟨⟨3, ![64, 16, 64]⟩, X⟩, ⟨⟨3, ![64, 16, 64]⟩, Y⟩, ⟨⟨3, ![64, 16, 64]⟩, Z⟩] h (ix3 b s q) = Y (ix3 b s c) :=
  concatenate_apply_piece (t := ⟨3, ![64, 16, 192]⟩) 2 [⟨⟨3, ![64, 16, 64]⟩, X⟩, ⟨⟨3, ![64, 16, 64]⟩, Y⟩, ⟨⟨3, ![64, 16, 64]⟩, Z⟩] h (ix3 b s q) 1 (by show (1 : Nat) < 3; decide) ⟨3, ![64, 16, 64]⟩ Y rfl rfl 64 rfl
    (ix3 b s c) (fun a ha => by
      match a, ha with
      | ⟨0, _⟩, _ => rfl
      | ⟨1, _⟩, _ => rfl
      | ⟨2, _⟩, ha => exact absurd rfl ha)
    (by show 64 + c.val = q.val; omega)

theorem join3_trd (X Y Z : (⟨3, ![64, 16, 64]⟩ : Shape).Idx → α)
    (h : Shape.Concatenates [(⟨3, ![64, 16, 64]⟩ : Shape), ⟨3, ![64, 16, 64]⟩, ⟨3, ![64, 16, 64]⟩] ⟨3, ![64, 16, 192]⟩ 2)
    (b : Fin 64) (s : Fin 16) (q : Fin 192) (c : Fin 64) (hq : q.val = 128 + c.val) :
    concatenate ⟨3, ![64, 16, 192]⟩ 2 [⟨⟨3, ![64, 16, 64]⟩, X⟩, ⟨⟨3, ![64, 16, 64]⟩, Y⟩, ⟨⟨3, ![64, 16, 64]⟩, Z⟩] h (ix3 b s q) = Z (ix3 b s c) :=
  concatenate_apply_piece (t := ⟨3, ![64, 16, 192]⟩) 2 [⟨⟨3, ![64, 16, 64]⟩, X⟩, ⟨⟨3, ![64, 16, 64]⟩, Y⟩, ⟨⟨3, ![64, 16, 64]⟩, Z⟩] h (ix3 b s q) 2 (by show (2 : Nat) < 3; decide) ⟨3, ![64, 16, 64]⟩ Z rfl rfl 128 rfl
    (ix3 b s c) (fun a ha => by
      match a, ha with
      | ⟨0, _⟩, _ => rfl
      | ⟨1, _⟩, _ => rfl
      | ⟨2, _⟩, ha => exact absurd rfl ha)
    (by show 128 + c.val = q.val; omega)

end Join

/-! ## The projection read at an index

The contraction of a [64,192] matrix with a [192,128] matrix into a zero accumulator: entry (b, j) is the sum over the
192 columns `q` of the left factor at (b, q) times the right factor at (q, j). -/

theorem proj_lhs_0 (i : S64x128.Idx) (q : dot_S64x192_S192x128_S64x128_1_0_0_1_n_n.contr.Idx) :
    (dot_S64x192_S192x128_S64x128_1_0_0_1_n_n.lhsIdx i q 0).val = (i 0).val := by
  unfold DotDims.lhsIdx
  rw [dif_neg (show ¬(0 : Fin S64x192.rank) ∈ dot_S64x192_S192x128_S64x128_1_0_0_1_n_n.lhsBatch by decide), dif_pos (show (0 : Fin S64x192.rank) ∈ dot_S64x192_S192x128_S64x128_1_0_0_1_n_n.lhsNonContracting by decide)]
  rfl
theorem proj_lhs_1 (i : S64x128.Idx) (q : dot_S64x192_S192x128_S64x128_1_0_0_1_n_n.contr.Idx) :
    (dot_S64x192_S192x128_S64x128_1_0_0_1_n_n.lhsIdx i q 1).val = (q ⟨0, by decide⟩).val :=
  dot_S64x192_S192x128_S64x128_1_0_0_1_n_n.lhsIdx_val_of_single rfl i q
theorem proj_rhs_0 (i : S64x128.Idx) (q : dot_S64x192_S192x128_S64x128_1_0_0_1_n_n.contr.Idx) :
    (dot_S64x192_S192x128_S64x128_1_0_0_1_n_n.rhsIdx i q 0).val = (q ⟨0, by decide⟩).val :=
  dot_S64x192_S192x128_S64x128_1_0_0_1_n_n.rhsIdx_val_of_single rfl i q
theorem proj_rhs_1 (i : S64x128.Idx) (q : dot_S64x192_S192x128_S64x128_1_0_0_1_n_n.contr.Idx) :
    (dot_S64x192_S192x128_S64x128_1_0_0_1_n_n.rhsIdx i q 1).val = (i 1).val := by
  unfold DotDims.rhsIdx
  rw [dif_neg (show ¬(1 : Fin S192x128.rank) ∈ dot_S64x192_S192x128_S64x128_1_0_0_1_n_n.rhsBatch by decide), dif_pos (show (1 : Fin S192x128.rank) ∈ dot_S64x192_S192x128_S64x128_1_0_0_1_n_n.rhsNonContracting by decide)]
  rfl

theorem mm_apply (L : FVec Ideal S64x192 .bf16) (R : FVec Ideal S192x128 .bf16) (b : Fin 64) (j : Fin 128) :
    matmul dot_S64x192_S192x128_S64x128_1_0_0_1_n_n none L R (constant (F := Ideal) S64x128 .f32 0x00000000#32) (ix2 b j)
      = ∑ q : Fin 192, L (ix2 b q) * R (ix2 q j) := by
  simp only [matmul]
  rw [Ideal.matmul_constant_zero_apply, ← Equiv.sum_comp (contrEquiv1 dot_S64x192_S192x128_S64x128_1_0_0_1_n_n 192 rfl rfl).symm]
  refine Finset.sum_congr rfl fun k _ => ?_
  have hk := contrEquiv1_symm_val dot_S64x192_S192x128_S64x128_1_0_0_1_n_n 192 rfl rfl k
  have el : dot_S64x192_S192x128_S64x128_1_0_0_1_n_n.lhsIdx (ix2 b j) ((contrEquiv1 dot_S64x192_S192x128_S64x128_1_0_0_1_n_n 192 rfl rfl).symm k) = ix2 b k := funext fun a => Fin.ext (by
    match a with
    | ⟨0, _⟩ => exact proj_lhs_0 _ _
    | ⟨1, _⟩ => exact (proj_lhs_1 _ _).trans hk)
  have er : dot_S64x192_S192x128_S64x128_1_0_0_1_n_n.rhsIdx (ix2 b j) ((contrEquiv1 dot_S64x192_S192x128_S64x128_1_0_0_1_n_n 192 rfl rfl).symm k) = ix2 k j := funext fun a => Fin.ext (by
    match a with
    | ⟨0, _⟩ => exact (proj_rhs_0 _ _).trans hk
    | ⟨1, _⟩ => exact proj_rhs_1 _ _)
  rw [el, er]

/-- The narrowing of both factors is the identity on extended reals. -/
theorem proj_apply (A : FVec Ideal S64x192 .f32) (W : Vec Ideal S192x128 .f32) (b : Fin 64) (j : Fin 128) :
    matmul dot_S64x192_S192x128_S64x128_1_0_0_1_n_n none (truncf .bf16 A bitsLt_bf16_f32) (truncf .bf16 W bitsLt_bf16_f32) (constant (F := Ideal) S64x128 .f32 0x00000000#32) (ix2 b j)
      = ∑ q : Fin 192, A (ix2 b q) * W (ix2 q j) :=
  mm_apply _ _ b j

/-! ## The kernel's block at an index -/

theorem pay22_apply (a_t ak av : FVec Ideal S64x64 .f32) (x18 : Vec Ideal S192x128 .f32) (bp : Vec Ideal S1x128 .f32) (b : Fin 64) (j : Fin 128) :
    k3_pay22 (F := Ideal) a_t ak av x18 bp (ix2 b j)
      = max ((∑ q : Fin 192, concatenate S64x192 1 [⟨S64x64, a_t⟩, ⟨S64x64, ak⟩, ⟨S64x64, av⟩] concatenates_S64x64_S64x64_S64x64_S64x192_d1 (ix2 b q) * x18 (ix2 q j))
          + bp (ix2 0 j)) (Ideal.ofBits .f32 0x00000000#32) := by
  have e : k3_pay22 (F := Ideal) a_t ak av x18 bp (ix2 b j)
      = max (matmul dot_S64x192_S192x128_S64x128_1_0_0_1_n_n none (truncf .bf16 (concatenate S64x192 1 [⟨S64x64, a_t⟩, ⟨S64x64, ak⟩, ⟨S64x64, av⟩] concatenates_S64x64_S64x64_S64x64_S64x192_d1) bitsLt_bf16_f32) (truncf .bf16 x18 bitsLt_bf16_f32) (constant (F := Ideal) S64x128 .f32 0x00000000#32) (ix2 b j)
          + broadcastTo S64x128 (shapeCast S1x128 bp shapeCasts_S1x128_S1x128) broadcasts_S1x128_S64x128 (ix2 b j)) (Ideal.ofBits .f32 0x00000000#32) := rfl
  rw [e, proj_apply, shapeCast_self, broadcastTo_1b_ab_apply]

/-! ## The reference's block at an index -/

theorem ref_apply (x3 x4 x5 : Vec Ideal S64x16 .i32) (x15 : Vec Ideal S5x64 .f32) (x16 : Vec Ideal S6x64 .f32) (x17 : Vec Ideal S10x64 .f32)
    (x18 : Vec Ideal S192x128 .f32) (x19 : (⟨S128, .f32⟩ : BufTy).Contents (Elt Ideal)) (b : Fin 64) (j : Fin 128) :
    Cert.ReferenceIdeal.Read.val_main_v109 (F := Ideal) x3 x4 x5 x15 x16 x17 x18 x19 (ix2 b j)
      = max ((∑ q : Fin 192, Cert.ReferenceIdeal.Read.val_main_v104 (F := Ideal) x3 x4 x5 x15 x16 x17 (ix2 b q) * x18 (ix2 q j))
          + x19 (ix1 j)) (Ideal.ofBits .f32 0x00000000#32) := by
  rw [Cert.ReferenceIdeal.Read.val_main_v109_apply, Cert.ReferenceIdeal.Read.val_main_v108_apply, Cert.ReferenceIdeal.Read.val_main_v105_apply,
    Cert.ReferenceIdeal.Read.val_main_v107_apply, Cert.ReferenceIdeal.Read.val_main_v106_apply, Cert.ReferenceIdeal.Read.val_main_call1_v0_apply,
    Cert.ReferenceIdeal.Read.val_main_call1_cst_apply]
  have e1 : ∀ k : Fin 192, Cert.ReferenceIdeal.Read.lidx_main_v105 (ix2 b j) k = ix2 b k := fun k => funext fun a => by
    match a with
    | ⟨0, _⟩ => rfl
    | ⟨1, _⟩ => rfl
  have e2 : ∀ k : Fin 192, Cert.ReferenceIdeal.Read.ridx_main_v105 (ix2 b j) k = ix2 k j := fun k => funext fun a => by
    match a with
    | ⟨0, _⟩ => rfl
    | ⟨1, _⟩ => rfl
  have e3 : Cert.ReferenceIdeal.Read.idx_main_v106 (Cert.ReferenceIdeal.Read.idx_main_v107 (ix2 b j)) = ix1 j := funext fun a => by
    match a with
    | ⟨0, _⟩ => rfl
  simp only [e1, e2, e3]
  rfl

/-- A column of the reference's averaged join: the mean over the sixteen positions of the joined rows' column. -/
theorem v104_col (x3 x4 x5 : Vec Ideal S64x16 .i32) (x15 : Vec Ideal S5x64 .f32) (x16 : Vec Ideal S6x64 .f32) (x17 : Vec Ideal S10x64 .f32) (b : Fin 64) (q : Fin 192) :
    Cert.ReferenceIdeal.Read.val_main_v104 (F := Ideal) x3 x4 x5 x15 x16 x17 (ix2 b q)
      = FloatOps.hostDivf (F := Ideal) ((FloatOps.ofBits (F := Ideal) .f32 0x00000000#32)
          + ∑ s : Fin 16, Cert.ReferenceIdeal.Read.val_main_v101 (F := Ideal) x3 x4 x5 x15 x16 x17 (ix3 b s q)) (FloatOps.ofBits (F := Ideal) .f32 0x41800000#32) := by
  rw [Cert.ReferenceIdeal.Read.val_main_v104_apply, Cert.ReferenceIdeal.Read.val_main_v102_apply, Cert.ReferenceIdeal.Read.val_main_v103_apply,
    Cert.ReferenceIdeal.Read.val_main_cst_21_apply, Cert.ReferenceIdeal.Read.val_main_cst_22_apply]
  have e : ∀ s : Fin 16, Cert.ReferenceIdeal.Read.idx_main_v102 (ix2 b q) s = ix3 b s q := fun s => funext fun a => by
    match a with
    | ⟨0, _⟩ => rfl
    | ⟨1, _⟩ => rfl
    | ⟨2, _⟩ => rfl
  simp only [e]

/-! ## The join and the average commute column by column -/

/-- The reference's joined rows, column `q < 64`: the first table's rows. -/
theorem v101_fst (x3 x4 x5 : Vec Ideal S64x16 .i32) (x15 : Vec Ideal S5x64 .f32) (x16 : Vec Ideal S6x64 .f32) (x17 : Vec Ideal S10x64 .f32) (b : Fin 64) (s : Fin 16) (q : Fin 192) (c : Fin 64) (hq : q.val = c.val) :
    Cert.ReferenceIdeal.Read.val_main_v101 (F := Ideal) x3 x4 x5 x15 x16 x17 (ix3 b s q) = Cert.ReferenceIdeal.Read.val_main_v86 (F := Ideal) x3 x15 (ix3 b s c) := by
  unfold Cert.ReferenceIdeal.Read.val_main_v101
  exact join3_fst _ _ _ _ b s q c hq

/-- Column `64 ≤ q < 128`: the second table's rows. -/
theorem v101_snd (x3 x4 x5 : Vec Ideal S64x16 .i32) (x15 : Vec Ideal S5x64 .f32) (x16 : Vec Ideal S6x64 .f32) (x17 : Vec Ideal S10x64 .f32) (b : Fin 64) (s : Fin 16) (q : Fin 192) (c : Fin 64) (hq : q.val = 64 + c.val) :
    Cert.ReferenceIdeal.Read.val_main_v101 (F := Ideal) x3 x4 x5 x15 x16 x17 (ix3 b s q) = Cert.ReferenceIdeal.Read.val_main_v93 (F := Ideal) x4 x16 (ix3 b s c) := by
  unfold Cert.ReferenceIdeal.Read.val_main_v101
  exact join3_snd _ _ _ _ b s q c hq

/-- Column `128 ≤ q`: the third table's rows. -/
theorem v101_trd (x3 x4 x5 : Vec Ideal S64x16 .i32) (x15 : Vec Ideal S5x64 .f32) (x16 : Vec Ideal S6x64 .f32) (x17 : Vec Ideal S10x64 .f32) (b : Fin 64) (s : Fin 16) (q : Fin 192) (c : Fin 64) (hq : q.val = 128 + c.val) :
    Cert.ReferenceIdeal.Read.val_main_v101 (F := Ideal) x3 x4 x5 x15 x16 x17 (ix3 b s q) = Cert.ReferenceIdeal.Read.val_main_v100 (F := Ideal) x5 x17 (ix3 b s c) := by
  unfold Cert.ReferenceIdeal.Read.val_main_v101
  exact join3_trd _ _ _ _ b s q c hq

/-- Column `q` of the three averages side by side is column `q` of the average of the joined rows. -/
theorem col_eq (x3 x4 x5 : Vec Ideal S64x16 .i32) (x15 : Vec Ideal S5x64 .f32) (x16 : Vec Ideal S6x64 .f32) (x17 : Vec Ideal S10x64 .f32)
    (a_t ak av : FVec Ideal S64x64 .f32) (h : Shape.Concatenates [S64x64, S64x64, S64x64] S64x192 1)
    (ht : ∀ (b : Fin 64) (j : Fin 64), a_t (ix2 b j) = FloatOps.hostDivf (F := Ideal) ((FloatOps.ofBits (F := Ideal) .f32 0x00000000#32) + ∑ s : Fin 16, Cert.ReferenceIdeal.Read.val_main_v86 (F := Ideal) x3 x15 (ix3 b s j)) (FloatOps.ofBits (F := Ideal) .f32 0x41800000#32))
    (hk : ∀ (b : Fin 64) (j : Fin 64), ak (ix2 b j) = FloatOps.hostDivf (F := Ideal) ((FloatOps.ofBits (F := Ideal) .f32 0x00000000#32) + ∑ s : Fin 16, Cert.ReferenceIdeal.Read.val_main_v93 (F := Ideal) x4 x16 (ix3 b s j)) (FloatOps.ofBits (F := Ideal) .f32 0x41800000#32))
    (hv : ∀ (b : Fin 64) (j : Fin 64), av (ix2 b j) = FloatOps.hostDivf (F := Ideal) ((FloatOps.ofBits (F := Ideal) .f32 0x00000000#32) + ∑ s : Fin 16, Cert.ReferenceIdeal.Read.val_main_v100 (F := Ideal) x5 x17 (ix3 b s j)) (FloatOps.ofBits (F := Ideal) .f32 0x41800000#32))
    (b : Fin 64) (q : Fin 192) :
    concatenate S64x192 1 [⟨S64x64, a_t⟩, ⟨S64x64, ak⟩, ⟨S64x64, av⟩] h (ix2 b q)
      = Cert.ReferenceIdeal.Read.val_main_v104 (F := Ideal) x3 x4 x5 x15 x16 x17 (ix2 b q) := by
  rw [v104_col]
  by_cases h1 : q.val < 64
  · rw [join2_fst a_t ak av h b q ⟨q.val, h1⟩ rfl, ht]
    refine congrArg (fun t => FloatOps.hostDivf (F := Ideal) ((FloatOps.ofBits (F := Ideal) .f32 0x00000000#32) + t) (FloatOps.ofBits (F := Ideal) .f32 0x41800000#32)) ?_
    exact Finset.sum_congr rfl fun s _ => (v101_fst x3 x4 x5 x15 x16 x17 b s q ⟨q.val, h1⟩ rfl).symm
  · by_cases h2 : q.val < 128
    · have hq : q.val = 64 + (⟨q.val - 64, by omega⟩ : Fin 64).val := by show q.val = 64 + (q.val - 64); omega
      rw [join2_snd a_t ak av h b q ⟨q.val - 64, by omega⟩ hq, hk]
      refine congrArg (fun t => FloatOps.hostDivf (F := Ideal) ((FloatOps.ofBits (F := Ideal) .f32 0x00000000#32) + t) (FloatOps.ofBits (F := Ideal) .f32 0x41800000#32)) ?_
      exact Finset.sum_congr rfl fun s _ => (v101_snd x3 x4 x5 x15 x16 x17 b s q ⟨q.val - 64, by omega⟩ hq).symm
    · have hlt : q.val < 192 := q.isLt
      have hq : q.val = 128 + (⟨q.val - 128, by omega⟩ : Fin 64).val := by show q.val = 128 + (q.val - 128); omega
      rw [join2_trd a_t ak av h b q ⟨q.val - 128, by omega⟩ hq, hv]
      refine congrArg (fun t => FloatOps.hostDivf (F := Ideal) ((FloatOps.ofBits (F := Ideal) .f32 0x00000000#32) + t) (FloatOps.ofBits (F := Ideal) .f32 0x41800000#32)) ?_
      exact Finset.sum_congr rfl fun s _ => (v101_trd x3 x4 x5 x15 x16 x17 b s q ⟨q.val - 128, by omega⟩ hq).symm

/-- The pragma block at (b, j) is the reference's at (b, j), when each of the three averages is the mean of that table's
    looked-up rows and the bias row is the reference's bias vector. -/
theorem p_part (x3 x4 x5 : Vec Ideal S64x16 .i32) (x15 : Vec Ideal S5x64 .f32) (x16 : Vec Ideal S6x64 .f32) (x17 : Vec Ideal S10x64 .f32)
    (x18 : Vec Ideal S192x128 .f32) (x19 : (⟨S128, .f32⟩ : BufTy).Contents (Elt Ideal)) (bp : Vec Ideal S1x128 .f32)
    (a_t ak av : FVec Ideal S64x64 .f32)
    (ht : ∀ (b : Fin 64) (j : Fin 64), a_t (ix2 b j) = FloatOps.hostDivf (F := Ideal) ((FloatOps.ofBits (F := Ideal) .f32 0x00000000#32) + ∑ s : Fin 16, Cert.ReferenceIdeal.Read.val_main_v86 (F := Ideal) x3 x15 (ix3 b s j)) (FloatOps.ofBits (F := Ideal) .f32 0x41800000#32))
    (hk : ∀ (b : Fin 64) (j : Fin 64), ak (ix2 b j) = FloatOps.hostDivf (F := Ideal) ((FloatOps.ofBits (F := Ideal) .f32 0x00000000#32) + ∑ s : Fin 16, Cert.ReferenceIdeal.Read.val_main_v93 (F := Ideal) x4 x16 (ix3 b s j)) (FloatOps.ofBits (F := Ideal) .f32 0x41800000#32))
    (hv : ∀ (b : Fin 64) (j : Fin 64), av (ix2 b j) = FloatOps.hostDivf (F := Ideal) ((FloatOps.ofBits (F := Ideal) .f32 0x00000000#32) + ∑ s : Fin 16, Cert.ReferenceIdeal.Read.val_main_v100 (F := Ideal) x5 x17 (ix3 b s j)) (FloatOps.ofBits (F := Ideal) .f32 0x41800000#32))
    (hb : ∀ j : Fin 128, bp (ix2 0 j) = x19 (ix1 j)) (b : Fin 64) (j : Fin 128) :
    k3_pay22 (F := Ideal) a_t ak av x18 bp (ix2 b j)
      = Cert.ReferenceIdeal.Read.val_main_v109 (F := Ideal) x3 x4 x5 x15 x16 x17 x18 x19 (ix2 b j) := by
  rw [pay22_apply, ref_apply, hb]
  refine congrArg (fun t => max (t + x19 (ix1 j)) (Ideal.ofBits .f32 0x00000000#32)) ?_
  refine Finset.sum_congr rfl fun q _ => ?_
  rw [col_eq x3 x4 x5 x15 x16 x17 a_t ak av concatenates_S64x64_S64x64_S64x64_S64x192_d1 ht hk hv b q]

end Cert.KernelIdeal.FusionP

end
-- ==== Proof.FusionOut.lean ====
/- The last layers: the five blocks side by side (graph, pragma, kernel identifier, condition, local), times the first fusion matrix, plus
   its bias, clipped below at zero, times the second matrix, plus its bias. The condition and local blocks are a product plus a bias
   clipped below at zero, computed here as well. -/
import proofs.«427600_j46136538693914_1_alg».proof.Proof.Gen.KernelIdeal.Skeleton
import proofs.«427600_j46136538693914_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

set_option maxRecDepth 16384

noncomputable section

namespace Cert.KernelIdeal.FusionOut

open Cert.KernelIdeal Cert.KernelIdeal.Gen
open Idealize.ShloMosaic Idealize.ShloMosaic.ValueIdx

/-! ## Kernel operations against the reference's, as whole arrays -/

/-- A product of two arrays rounded to the short format, accumulated into zero, is the reference's product of the arrays
    themselves: at the ideal values the rounding is the identity, and both are the same sum over the inner axis. -/
theorem mm_eq_dot {sl sr so : Shape} (d : DotDims sl sr so) (A : FVec Ideal sl .f32) (B : FVec Ideal sr .f32)
    (h1 : FTy.bf16.bits < FTy.f32.bits) (h2 : FTy.bf16.bits < FTy.f32.bits) :
    matmul d none (truncf .bf16 A h1) (truncf .bf16 B h2) (constant (F := Ideal) so .f32 0x00000000#32)
      = Host.dotGeneral (F := Ideal) d none A B := by
  rw [matmul_zero_eq_dotGeneral]
  rfl

/-- One row laid along each of the rows, read at (p, j): the row at j. -/
theorem row_apply {m n : ℕ} (r : (⟨2, ![1, n]⟩ : Shape).Idx → EReal) (hs : (⟨2, ![1, n]⟩ : Shape).ShapeCasts ⟨2, ![1, n]⟩)
    (hb : (⟨2, ![1, n]⟩ : Shape).Broadcasts ⟨2, ![m, n]⟩) (p : Fin m) (j : Fin n) :
    broadcastTo ⟨2, ![m, n]⟩ (shapeCast ⟨2, ![1, n]⟩ r hs) hb (ix2 p j) = r (ix2 0 j) := by
  rw [shapeCast_self]
  exact broadcastTo_1b_ab_apply _ _ p j

/-- The condition bias row laid along the 64 rows is the reference's broadcast of the condition bias vector. -/
theorem row_c_eq (r : Vec Ideal S1x16 .f32) (x : (⟨S16, .f32⟩ : BufTy).Contents (Elt Ideal))
    (hr : ∀ j : Fin 16, r (ix2 0 j) = x (ix1 j)) (hs : S1x16.ShapeCasts S1x16) (hb : S1x16.Broadcasts S64x16) :
    broadcastTo S64x16 (shapeCast S1x16 r hs) hb = Cert.ReferenceIdeal.Read.val_main_v119 (F := Ideal) x := by
  funext i
  obtain ⟨p, j, rfl⟩ : ∃ (p : Fin 64) (j : Fin 16), i = ix2 p j := ⟨i 0, i 1, eq_ix2 i⟩
  rw [Cert.ReferenceIdeal.Read.val_main_v119_apply, Cert.ReferenceIdeal.Read.val_main_v118_apply]
  refine (row_apply r hs hb p j).trans ((hr j).trans (congrArg x ?_))
  exact funext fun a => Fin.ext (by match a with | ⟨0, _⟩ => rfl)

/-- The local bias row laid along the 64 rows is the reference's broadcast of the local bias vector. -/
theorem row_l_eq (r : Vec Ideal S1x16 .f32) (x : (⟨S16, .f32⟩ : BufTy).Contents (Elt Ideal))
    (hr : ∀ j : Fin 16, r (ix2 0 j) = x (ix1 j)) (hs : S1x16.ShapeCasts S1x16) (hb : S1x16.Broadcasts S64x16) :
    broadcastTo S64x16 (shapeCast S1x16 r hs) hb = Cert.ReferenceIdeal.Read.val_main_v124 (F := Ideal) x := by
  funext i
  obtain ⟨p, j, rfl⟩ : ∃ (p : Fin 64) (j : Fin 16), i = ix2 p j := ⟨i 0, i 1, eq_ix2 i⟩
  rw [Cert.ReferenceIdeal.Read.val_main_v124_apply, Cert.ReferenceIdeal.Read.val_main_v123_apply]
  refine (row_apply r hs hb p j).trans ((hr j).trans (congrArg x ?_))
  exact funext fun a => Fin.ext (by match a with | ⟨0, _⟩ => rfl)

/-- The first fusion layer's bias row laid along the 64 rows is the reference's broadcast of its bias vector. -/
theorem row_m1_eq (r : Vec Ideal S1x128 .f32) (x : (⟨S128, .f32⟩ : BufTy).Contents (Elt Ideal))
    (hr : ∀ j : Fin 128, r (ix2 0 j) = x (ix1 j)) (hs : S1x128.ShapeCasts S1x128) (hb : S1x128.Broadcasts S64x128) :
    broadcastTo S64x128 (shapeCast S1x128 r hs) hb = Cert.ReferenceIdeal.Read.val_main_v130 (F := Ideal) x := by
  funext i
  obtain ⟨p, j, rfl⟩ : ∃ (p : Fin 64) (j : Fin 128), i = ix2 p j := ⟨i 0, i 1, eq_ix2 i⟩
  rw [Cert.ReferenceIdeal.Read.val_main_v130_apply, Cert.ReferenceIdeal.Read.val_main_v129_apply]
  refine (row_apply r hs hb p j).trans ((hr j).trans (congrArg x ?_))
  exact funext fun a => Fin.ext (by match a with | ⟨0, _⟩ => rfl)

/-- The second fusion layer's bias row laid along the 64 rows is the reference's broadcast of its bias vector. -/
theorem row_m2_eq (r : Vec Ideal S1x3 .f32) (x : (⟨S3, .f32⟩ : BufTy).Contents (Elt Ideal))
    (hr : ∀ j : Fin 3, r (ix2 0 j) = x (ix1 j)) (hs : S1x3.ShapeCasts S1x3) (hb : S1x3.Broadcasts S64x3) :
    broadcastTo S64x3 (shapeCast S1x3 r hs) hb = Cert.ReferenceIdeal.Read.val_main_v135 (F := Ideal) x := by
  funext i
  obtain ⟨p, j, rfl⟩ : ∃ (p : Fin 64) (j : Fin 3), i = ix2 p j := ⟨i 0, i 1, eq_ix2 i⟩
  rw [Cert.ReferenceIdeal.Read.val_main_v135_apply, Cert.ReferenceIdeal.Read.val_main_v134_apply]
  refine (row_apply r hs hb p j).trans ((hr j).trans (congrArg x ?_))
  exact funext fun a => Fin.ext (by match a with | ⟨0, _⟩ => rfl)

/-- The condition product is the reference's. -/
theorem pay24_eq (x7 : Vec Ideal S64x8 .f32) (x21 : Vec Ideal S8x16 .f32) :
    k3_pay24 (F := Ideal) x7 x21 = Cert.ReferenceIdeal.Read.val_main_v117 (F := Ideal) x7 x21 := by
  unfold k3_pay24 Cert.ReferenceIdeal.Read.val_main_v117
  exact mm_eq_dot _ x7 x21 _ _

/-- The condition bias, laid along the rows, is the reference's. -/
theorem pay25_eq (bc : Vec Ideal S1x16 .f32) (x22 : (⟨S16, .f32⟩ : BufTy).Contents (Elt Ideal))
    (hbc : ∀ j : Fin 16, bc (ix2 0 j) = x22 (ix1 j)) :
    k3_pay25 (F := Ideal) bc = Cert.ReferenceIdeal.Read.val_main_v119 (F := Ideal) x22 := by
  unfold k3_pay25
  exact row_c_eq bc x22 hbc _ _

/-- The result at (b, o) is the reference's at (b, o), when the graph, pragma and kernel-identifier blocks are the reference's and the
    bias rows are the reference's bias vectors. -/
theorem out_part (x0 : (⟨S100000x6, .f32⟩ : BufTy).Contents (Elt Ideal)) (x1 : (⟨S2x600000, .i32⟩ : BufTy).Contents (Elt Ideal)) (x2 : (⟨S100000, .i32⟩ : BufTy).Contents (Elt Ideal)) (x9 : (⟨S6x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal))
    (x3 x4 x5 : Vec Ideal S64x16 .i32) (x6 : (⟨S64, .i32⟩ : BufTy).Contents (Elt Ideal)) (x7 : Vec Ideal S64x8 .f32) (x8 : Vec Ideal S64x6 .f32)
    (x13 : Vec Ideal S128x128 .f32) (x14 : (⟨S128, .f32⟩ : BufTy).Contents (Elt Ideal)) (x15 : Vec Ideal S5x64 .f32) (x16 : Vec Ideal S6x64 .f32) (x17 : Vec Ideal S10x64 .f32)
    (x18 : Vec Ideal S192x128 .f32) (x19 : (⟨S128, .f32⟩ : BufTy).Contents (Elt Ideal)) (x20 : Vec Ideal S2x16 .f32) (x21 : Vec Ideal S8x16 .f32) (x22 : (⟨S16, .f32⟩ : BufTy).Contents (Elt Ideal))
    (x23 : Vec Ideal S6x16 .f32) (x24 : (⟨S16, .f32⟩ : BufTy).Contents (Elt Ideal)) (x25 : Vec Ideal S304x128 .f32) (x26 : (⟨S128, .f32⟩ : BufTy).Contents (Elt Ideal)) (x27 : Vec Ideal S128x3 .f32) (x28 : (⟨S3, .f32⟩ : BufTy).Contents (Elt Ideal))
    (G P : FVec Ideal S64x128 .f32) (K : FVec Ideal S64x16 .f32)
    (bc bl : Vec Ideal S1x16 .f32) (bm1 : Vec Ideal S1x128 .f32) (bm2 : Vec Ideal S1x3 .f32)
    (hG : ∀ (b : Fin 64) (j : Fin 128), G (ix2 b j) = Cert.ReferenceIdeal.Read.val_main_v79 (F := Ideal) x0 x1 x2 x9 x10 x11 x12 x13 x14 (ix2 b j))
    (hP : ∀ (b : Fin 64) (j : Fin 128), P (ix2 b j) = Cert.ReferenceIdeal.Read.val_main_v109 (F := Ideal) x3 x4 x5 x15 x16 x17 x18 x19 (ix2 b j))
    (hK : ∀ (b : Fin 64) (j : Fin 16), K (ix2 b j) = Cert.ReferenceIdeal.Read.val_main_v116 (F := Ideal) x6 x20 (ix2 b j))
    (hbc : ∀ j : Fin 16, bc (ix2 0 j) = x22 (ix1 j)) (hbl : ∀ j : Fin 16, bl (ix2 0 j) = x24 (ix1 j))
    (hbm1 : ∀ j : Fin 128, bm1 (ix2 0 j) = x26 (ix1 j)) (hbm2 : ∀ j : Fin 3, bm2 (ix2 0 j) = x28 (ix1 j)) (b : Fin 64) (o : Fin 3) :
    k3_pay26 (F := Ideal) G P K (k3_pay24 x7 x21) (k3_pay25 bc) x8 x23 bl x25 bm1 x27 bm2 (ix2 b o)
      = Cert.ReferenceIdeal.Read.val_main_v136 (F := Ideal) x0 x1 x2 x3 x4 x5 x6 x7 x8 x9 x10 x11 x12 x13 x14 x15 x16 x17 x18 x19 x20 x21 x22 x23 x24 x25 x26 x27 x28 (ix2 b o) := by
  have eG : G = Cert.ReferenceIdeal.Read.val_main_v79 (F := Ideal) x0 x1 x2 x9 x10 x11 x12 x13 x14 := funext fun i => by
    obtain ⟨p, j, rfl⟩ : ∃ (p : Fin 64) (j : Fin 128), i = ix2 p j := ⟨i 0, i 1, eq_ix2 i⟩
    exact hG p j
  have eP : P = Cert.ReferenceIdeal.Read.val_main_v109 (F := Ideal) x3 x4 x5 x15 x16 x17 x18 x19 := funext fun i => by
    obtain ⟨p, j, rfl⟩ : ∃ (p : Fin 64) (j : Fin 128), i = ix2 p j := ⟨i 0, i 1, eq_ix2 i⟩
    exact hP p j
  have eK : K = Cert.ReferenceIdeal.Read.val_main_v116 (F := Ideal) x6 x20 := funext fun i => by
    obtain ⟨p, j, rfl⟩ : ∃ (p : Fin 64) (j : Fin 16), i = ix2 p j := ⟨i 0, i 1, eq_ix2 i⟩
    exact hK p j
  -- the two results are equal as whole arrays; the claim is that equality read at (b, o)
  refine congrFun (?_ : k3_pay26 (F := Ideal) G P K (k3_pay24 x7 x21) (k3_pay25 bc) x8 x23 bl x25 bm1 x27 bm2
      = Cert.ReferenceIdeal.Read.val_main_v136 (F := Ideal) x0 x1 x2 x3 x4 x5 x6 x7 x8 x9 x10 x11 x12 x13 x14 x15 x16 x17 x18 x19 x20 x21 x22 x23 x24 x25 x26 x27 x28) (ix2 b o)
  -- the reference's last layers, written out down to the five joined blocks
  unfold Cert.ReferenceIdeal.Read.val_main_v136 Cert.ReferenceIdeal.Read.val_main_v133 Cert.ReferenceIdeal.Read.val_main_v132 Cert.ReferenceIdeal.Read.val_main_v131 Cert.ReferenceIdeal.Read.val_main_v128 Cert.ReferenceIdeal.Read.val_main_v127 Cert.ReferenceIdeal.Read.val_main_v126 Cert.ReferenceIdeal.Read.val_main_v125 Cert.ReferenceIdeal.Read.val_main_v122 Cert.ReferenceIdeal.Read.val_main_v121 Cert.ReferenceIdeal.Read.val_main_v120
  rw [← eG, ← eP, ← eK]
  -- the kernel's products become the reference's, its bias rows the reference's broadcasts
  unfold k3_pay26
  simp only [mm_eq_dot, row_m1_eq bm1 x26 hbm1, row_m2_eq bm2 x28 hbm2]
  rw [pay24_eq, pay25_eq bc x22 hbc, mm_eq_dot, row_l_eq bl x24 hbl]
  -- the reference's zero arrays are the zero splats the kernel clips against
  have ez2 : Cert.ReferenceIdeal.Read.val_main_call2_v0 (F := Ideal) = broadcast S64x16 (FloatOps.ofBits (F := Ideal) .f32 0x00000000#32) := by
    funext j; rfl
  have ez3 : Cert.ReferenceIdeal.Read.val_main_call3_v0 (F := Ideal) = broadcast S64x16 (FloatOps.ofBits (F := Ideal) .f32 0x00000000#32) := by
    funext j; rfl
  have ez4 : Cert.ReferenceIdeal.Read.val_main_call4_v0 (F := Ideal) = broadcast S64x128 (FloatOps.ofBits (F := Ideal) .f32 0x00000000#32) := by
    funext j; rfl
  rw [ez2, ez3, ez4]
  rfl

end Cert.KernelIdeal.FusionOut

end
-- ==== Proof.Fusion.lean ====
/- Region 3: the fused tail as one array. The region has one grid point; every window's block is its whole array. The one store writes
   the last layers' result, computed from the five feature blocks; block by block these are the reference's stages, so the array after
   the run is the reference's result. -/
import proofs.«427600_j46136538693914_1_alg».proof.Proof.KernelIdealFrameP
import proofs.«427600_j46136538693914_1_alg».proof.Proof.Gen.ReferenceIdeal.Read
import proofs.«427600_j46136538693914_1_alg».proof.Proof.FusionG
import proofs.«427600_j46136538693914_1_alg».proof.Proof.FusionK
import proofs.«427600_j46136538693914_1_alg».proof.Proof.FusionEmb
import proofs.«427600_j46136538693914_1_alg».proof.Proof.FusionP
import proofs.«427600_j46136538693914_1_alg».proof.Proof.FusionOut
import Idealize.ShloMosaic.Lib.ValueIdx
import Idealize.ShloMosaic.Lib.Pipeline.Value

set_option maxRecDepth 16384

noncomputable section

namespace Cert.KernelIdeal.Fusion

open Cert.KernelIdeal Cert.KernelIdeal.Gen Cert.KernelIdeal.GenP
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## Zero offsets, and an index inside a block whose block index is zero -/

theorem hz : (![0, 0] : Fin 2 → Nat) = fun _ => 0 := funext fun a => by fin_cases a <;> rfl

/-- An index of the array whose coordinates are a block's coordinates at block index zero is the index inside the block:
    a block's coordinate is block index times block size plus one times the coordinate inside the block. -/
theorem emb_eq_self {n0 n1 : Nat} (e y : (⟨2, ![n0, n1]⟩ : Shape).Idx) (i0 i1 : Nat) (h0 : i0 = 0) (h1 : i1 = 0)
    (e0 : (e 0).val = i0 * n0 + 1 * (y 0).val) (e1 : (e 1).val = i1 * n1 + 1 * (y 1).val) : e = y := by
  subst h0 h1
  funext a; apply Fin.ext
  match a with
  | ⟨0, _⟩ => rw [show (e ⟨0, _⟩).val = (e 0).val from rfl, e0]; show 0 * n0 + 1 * (y 0).val = (y 0).val; omega
  | ⟨1, _⟩ => rw [show (e ⟨1, _⟩).val = (e 1).val from rfl, e1]; show 0 * n1 + 1 * (y 1).val = (y 1).val; omega

/-! ## The index maps, decided over the one-point grid: every window's block index is zero on both axes -/

theorem idx3_0 : ∀ t : Fin cfg3.N, win3_0.index t (0 : Fin 2) = 0 ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = 0 ∧ win3_9.index t (1 : Fin 2) = 0 :=
  (by decide +kernel : ∀ t : Fin grid3.N, _)
theorem idx3_10 : ∀ t : Fin cfg3.N, win3_10.index t (0 : Fin 2) = 0 ∧ win3_10.index t (1 : Fin 2) = 0 :=
  (by decide +kernel : ∀ t : Fin grid3.N, _)
theorem idx3_11 : ∀ t : Fin cfg3.N, win3_11.index t (0 : Fin 2) = 0 ∧ win3_11.index t (1 : Fin 2) = 0 :=
  (by decide +kernel : ∀ t : Fin grid3.N, _)
theorem idx3_12 : ∀ t : Fin cfg3.N, win3_12.index t (0 : Fin 2) = 0 ∧ win3_12.index t (1 : Fin 2) = 0 :=
  (by decide +kernel : ∀ t : Fin grid3.N, _)
theorem idx3_13 : ∀ t : Fin cfg3.N, win3_13.index t (0 : Fin 2) = 0 ∧ win3_13.index t (1 : Fin 2) = 0 :=
  (by decide +kernel : ∀ t : Fin grid3.N, _)
theorem idx3_14 : ∀ t : Fin cfg3.N, win3_14.index t (0 : Fin 2) = 0 ∧ win3_14.index t (1 : Fin 2) = 0 :=
  (by decide +kernel : ∀ t : Fin grid3.N, _)
theorem idx3_15 : ∀ t : Fin cfg3.N, win3_15.index t (0 : Fin 2) = 0 ∧ win3_15.index t (1 : Fin 2) = 0 :=
  (by decide +kernel : ∀ t : Fin grid3.N, _)
theorem idx3_16 : ∀ t : Fin cfg3.N, win3_16.index t (0 : Fin 2) = 0 ∧ win3_16.index t (1 : Fin 2) = 0 :=
  (by decide +kernel : ∀ t : Fin grid3.N, _)
theorem idx3_17 : ∀ t : Fin cfg3.N, win3_17.index t (0 : Fin 2) = 0 ∧ win3_17.index t (1 : Fin 2) = 0 :=
  (by decide +kernel : ∀ t : Fin grid3.N, _)
theorem idx3_18 : ∀ t : Fin cfg3.N, win3_18.index t (0 : Fin 2) = 0 ∧ win3_18.index t (1 : Fin 2) = 0 :=
  (by decide +kernel : ∀ t : Fin grid3.N, _)
theorem idx3_19 : ∀ t : Fin cfg3.N, win3_19.index t (0 : Fin 2) = 0 ∧ win3_19.index t (1 : Fin 2) = 0 :=
  (by decide +kernel : ∀ t : Fin grid3.N, _)
theorem idx3_20 : ∀ t : Fin cfg3.N, win3_20.index t (0 : Fin 2) = 0 ∧ win3_20.index t (1 : Fin 2) = 0 :=
  (by decide +kernel : ∀ t : Fin grid3.N, _)
theorem idx3_21 : ∀ t : Fin cfg3.N, win3_21.index t (0 : Fin 2) = 0 ∧ win3_21.index t (1 : Fin 2) = 0 :=
  (by decide +kernel : ∀ t : Fin grid3.N, _)
theorem idx3_22 : ∀ t : Fin cfg3.N, win3_22.index t (0 : Fin 2) = 0 ∧ win3_22.index t (1 : Fin 2) = 0 :=
  (by decide +kernel : ∀ t : Fin grid3.N, _)
theorem idx3_23 : ∀ t : Fin cfg3.N, win3_23.index t (0 : Fin 2) = 0 ∧ win3_23.index t (1 : Fin 2) = 0 :=
  (by decide +kernel : ∀ t : Fin grid3.N, _)
theorem idx3_24 : ∀ t : Fin cfg3.N, win3_24.index t (0 : Fin 2) = 0 ∧ win3_24.index t (1 : Fin 2) = 0 :=
  (by decide +kernel : ∀ t : Fin grid3.N, _)

/-! ## Every input window's block at the one point is its whole array -/

theorem blk3_0 (c : Dev nD) (t : Fin cfg3.N) : iblk3 (F := Ideal) V c 0 t = (V c main_v65_0 : S64x128.Idx → EReal) := by
  funext y
  obtain ⟨h0, h1⟩ := idx3_0 t
  show (V c main_v65_0 : S64x128.Idx → EReal) (((cfg3.win 0).blk t).view.emb y) = _
  exact congrArg (V c main_v65_0 : S64x128.Idx → EReal) (emb_eq_self _ y _ _ h0 h1 rfl rfl)
theorem blk3_1 (c : Dev nD) (t : Fin cfg3.N) : iblk3 (F := Ideal) V c 1 t = (V c main_v65_1 : S64x1.Idx → EReal) := by
  funext y
  obtain ⟨h0, h1⟩ := idx3_1 t
  show (V c main_v65_1 : S64x1.Idx → EReal) (((cfg3.win 1).blk t).view.emb y) = _
  exact congrArg (V c main_v65_1 : S64x1.Idx → EReal) (emb_eq_self _ y _ _ h0 h1 rfl rfl)
theorem blk3_2 (c : Dev nD) (t : Fin cfg3.N) : iblk3 (F := Ideal) V c 2 t = (V c main_arg3 : S64x16.Idx → BitVec 32) := by
  funext y
  obtain ⟨h0, h1⟩ := idx3_2 t
  show (V c main_arg3 : S64x16.Idx → BitVec 32) (((cfg3.win 2).blk t).view.emb y) = _
  exact congrArg (V c main_arg3 : S64x16.Idx → BitVec 32) (emb_eq_self _ y _ _ h0 h1 rfl rfl)
theorem blk3_3 (c : Dev nD) (t : Fin cfg3.N) : iblk3 (F := Ideal) V c 3 t = (V c main_arg4 : S64x16.Idx → BitVec 32) := by
  funext y
  obtain ⟨h0, h1⟩ := idx3_3 t
  show (V c main_arg4 : S64x16.Idx → BitVec 32) (((cfg3.win 3).blk t).view.emb y) = _
  exact congrArg (V c main_arg4 : S64x16.Idx → BitVec 32) (emb_eq_self _ y _ _ h0 h1 rfl rfl)
theorem blk3_4 (c : Dev nD) (t : Fin cfg3.N) : iblk3 (F := Ideal) V c 4 t = (V c main_arg5 : S64x16.Idx → BitVec 32) := by
  funext y
  obtain ⟨h0, h1⟩ := idx3_4 t
  show (V c main_arg5 : S64x16.Idx → BitVec 32) (((cfg3.win 4).blk t).view.emb y) = _
  exact congrArg (V c main_arg5 : S64x16.Idx → BitVec 32) (emb_eq_self _ y _ _ h0 h1 rfl rfl)
theorem blk3_5 (c : Dev nD) (t : Fin cfg3.N) : iblk3 (F := Ideal) V c 5 t = (V c main_v66 : S64x1.Idx → BitVec 32) := by
  funext y
  obtain ⟨h0, h1⟩ := idx3_5 t
  show (V c main_v66 : S64x1.Idx → BitVec 32) (((cfg3.win 5).blk t).view.emb y) = _
  exact congrArg (V c main_v66 : S64x1.Idx → BitVec 32) (emb_eq_self _ y _ _ h0 h1 rfl rfl)
theorem blk3_6 (c : Dev nD) (t : Fin cfg3.N) : iblk3 (F := Ideal) V c 6 t = (V c main_arg7 : S64x8.Idx → EReal) := by
  funext y
  obtain ⟨h0, h1⟩ := idx3_6 t
  show (V c main_arg7 : S64x8.Idx → EReal) (((cfg3.win 6).blk t).view.emb y) = _
  exact congrArg (V c main_arg7 : S64x8.Idx → EReal) (emb_eq_self _ y _ _ h0 h1 rfl rfl)
theorem blk3_7 (c : Dev nD) (t : Fin cfg3.N) : iblk3 (F := Ideal) V c 7 t = (V c main_arg8 : S64x6.Idx → EReal) := by
  funext y
  obtain ⟨h0, h1⟩ := idx3_7 t
  show (V c main_arg8 : S64x6.Idx → EReal) (((cfg3.win 7).blk t).view.emb y) = _
  exact congrArg (V c main_arg8 : S64x6.Idx → EReal) (emb_eq_self _ y _ _ h0 h1 rfl rfl)
theorem blk3_8 (c : Dev nD) (t : Fin cfg3.N) : iblk3 (F := Ideal) V c 8 t = (V c main_arg13 : S128x128.Idx → EReal) := by
  funext y
  obtain ⟨h0, h1⟩ := idx3_8 t
  show (V c main_arg13 : S128x128.Idx → EReal) (((cfg3.win 8).blk t).view.emb y) = _
  exact congrArg (V c main_arg13 : S128x128.Idx → EReal) (emb_eq_self _ y _ _ h0 h1 rfl rfl)
theorem blk3_9 (c : Dev nD) (t : Fin cfg3.N) : iblk3 (F := Ideal) V c 9 t = (V c main_v67 : S1x128.Idx → EReal) := by
  funext y
  obtain ⟨h0, h1⟩ := idx3_9 t
  show (V c main_v67 : S1x128.Idx → EReal) (((cfg3.win 9).blk t).view.emb y) = _
  exact congrArg (V c main_v67 : S1x128.Idx → EReal) (emb_eq_self _ y _ _ h0 h1 rfl rfl)
theorem blk3_10 (c : Dev nD) (t : Fin cfg3.N) : iblk3 (F := Ideal) V c 10 t = (V c main_arg15 : S5x64.Idx → EReal) := by
  funext y
  obtain ⟨h0, h1⟩ := idx3_10 t
  show (V c main_arg15 : S5x64.Idx → EReal) (((cfg3.win 10).blk t).view.emb y) = _
  exact congrArg (V c main_arg15 : S5x64.Idx → EReal) (emb_eq_self _ y _ _ h0 h1 rfl rfl)
theorem blk3_11 (c : Dev nD) (t : Fin cfg3.N) : iblk3 (F := Ideal) V c 11 t = (V c main_arg16 : S6x64.Idx → EReal) := by
  funext y
  obtain ⟨h0, h1⟩ := idx3_11 t
  show (V c main_arg16 : S6x64.Idx → EReal) (((cfg3.win 11).blk t).view.emb y) = _
  exact congrArg (V c main_arg16 : S6x64.Idx → EReal) (emb_eq_self _ y _ _ h0 h1 rfl rfl)
theorem blk3_12 (c : Dev nD) (t : Fin cfg3.N) : iblk3 (F := Ideal) V c 12 t = (V c main_arg17 : S10x64.Idx → EReal) := by
  funext y
  obtain ⟨h0, h1⟩ := idx3_12 t
  show (V c main_arg17 : S10x64.Idx → EReal) (((cfg3.win 12).blk t).view.emb y) = _
  exact congrArg (V c main_arg17 : S10x64.Idx → EReal) (emb_eq_self _ y _ _ h0 h1 rfl rfl)
theorem blk3_13 (c : Dev nD) (t : Fin cfg3.N) : iblk3 (F := Ideal) V c 13 t = (V c main_arg18 : S192x128.Idx → EReal) := by
  funext y
  obtain ⟨h0, h1⟩ := idx3_13 t
  show (V c main_arg18 : S192x128.Idx → EReal) (((cfg3.win 13).blk t).view.emb y) = _
  exact congrArg (V c main_arg18 : S192x128.Idx → EReal) (emb_eq_self _ y _ _ h0 h1 rfl rfl)
theorem blk3_14 (c : Dev nD) (t : Fin cfg3.N) : iblk3 (F := Ideal) V c 14 t = (V c main_v68 : S1x128.Idx → EReal) := by
  funext y
  obtain ⟨h0, h1⟩ := idx3_14 t
  show (V c main_v68 : S1x128.Idx → EReal) (((cfg3.win 14).blk t).view.emb y) = _
  exact congrArg (V c main_v68 : S1x128.Idx → EReal) (emb_eq_self _ y _ _ h0 h1 rfl rfl)
theorem blk3_15 (c : Dev nD) (t : Fin cfg3.N) : iblk3 (F := Ideal) V c 15 t = (V c main_arg20 : S2x16.Idx → EReal) := by
  funext y
  obtain ⟨h0, h1⟩ := idx3_15 t
  show (V c main_arg20 : S2x16.Idx → EReal) (((cfg3.win 15).blk t).view.emb y) = _
  exact congrArg (V c main_arg20 : S2x16.Idx → EReal) (emb_eq_self _ y _ _ h0 h1 rfl rfl)
theorem blk3_16 (c : Dev nD) (t : Fin cfg3.N) : iblk3 (F := Ideal) V c 16 t = (V c main_arg21 : S8x16.Idx → EReal) := by
  funext y
  obtain ⟨h0, h1⟩ := idx3_16 t
  show (V c main_arg21 : S8x16.Idx → EReal) (((cfg3.win 16).blk t).view.emb y) = _
  exact congrArg (V c main_arg21 : S8x16.Idx → EReal) (emb_eq_self _ y _ _ h0 h1 rfl rfl)
theorem blk3_17 (c : Dev nD) (t : Fin cfg3.N) : iblk3 (F := Ideal) V c 17 t = (V c main_v69 : S1x16.Idx → EReal) := by
  funext y
  obtain ⟨h0, h1⟩ := idx3_17 t
  show (V c main_v69 : S1x16.Idx → EReal) (((cfg3.win 17).blk t).view.emb y) = _
  exact congrArg (V c main_v69 : S1x16.Idx → EReal) (emb_eq_self _ y _ _ h0 h1 rfl rfl)
theorem blk3_18 (c : Dev nD) (t : Fin cfg3.N) : iblk3 (F := Ideal) V c 18 t = (V c main_arg23 : S6x16.Idx → EReal) := by
  funext y
  obtain ⟨h0, h1⟩ := idx3_18 t
  show (V c main_arg23 : S6x16.Idx → EReal) (((cfg3.win 18).blk t).view.emb y) = _
  exact congrArg (V c main_arg23 : S6x16.Idx → EReal) (emb_eq_self _ y _ _ h0 h1 rfl rfl)
theorem blk3_19 (c : Dev nD) (t : Fin cfg3.N) : iblk3 (F := Ideal) V c 19 t = (V c main_v70 : S1x16.Idx → EReal) := by
  funext y
  obtain ⟨h0, h1⟩ := idx3_19 t
  show (V c main_v70 : S1x16.Idx → EReal) (((cfg3.win 19).blk t).view.emb y) = _
  exact congrArg (V c main_v70 : S1x16.Idx → EReal) (emb_eq_self _ y _ _ h0 h1 rfl rfl)
theorem blk3_20 (c : Dev nD) (t : Fin cfg3.N) : iblk3 (F := Ideal) V c 20 t = (V c main_arg25 : S304x128.Idx → EReal) := by
  funext y
  obtain ⟨h0, h1⟩ := idx3_20 t
  show (V c main_arg25 : S304x128.Idx → EReal) (((cfg3.win 20).blk t).view.emb y) = _
  exact congrArg (V c main_arg25 : S304x128.Idx → EReal) (emb_eq_self _ y _ _ h0 h1 rfl rfl)
theorem blk3_21 (c : Dev nD) (t : Fin cfg3.N) : iblk3 (F := Ideal) V c 21 t = (V c main_v71 : S1x128.Idx → EReal) := by
  funext y
  obtain ⟨h0, h1⟩ := idx3_21 t
  show (V c main_v71 : S1x128.Idx → EReal) (((cfg3.win 21).blk t).view.emb y) = _
  exact congrArg (V c main_v71 : S1x128.Idx → EReal) (emb_eq_self _ y _ _ h0 h1 rfl rfl)
theorem blk3_22 (c : Dev nD) (t : Fin cfg3.N) : iblk3 (F := Ideal) V c 22 t = (V c main_arg27 : S128x3.Idx → EReal) := by
  funext y
  obtain ⟨h0, h1⟩ := idx3_22 t
  show (V c main_arg27 : S128x3.Idx → EReal) (((cfg3.win 22).blk t).view.emb y) = _
  exact congrArg (V c main_arg27 : S128x3.Idx → EReal) (emb_eq_self _ y _ _ h0 h1 rfl rfl)
theorem blk3_23 (c : Dev nD) (t : Fin cfg3.N) : iblk3 (F := Ideal) V c 23 t = (V c main_v72 : S1x3.Idx → EReal) := by
  funext y
  obtain ⟨h0, h1⟩ := idx3_23 t
  show (V c main_v72 : S1x3.Idx → EReal) (((cfg3.win 23).blk t).view.emb y) = _
  exact congrArg (V c main_v72 : S1x3.Idx → EReal) (emb_eq_self _ y _ _ h0 h1 rfl rfl)

/-! ## The output window: its one block is the whole result array -/

theorem emb3_24 (t : Fin cfg3.N) (y : S64x3.Idx) : (((cfg3.win 24).blk t).view.emb y : S64x3.Idx) = y := by
  obtain ⟨h0, h1⟩ := idx3_24 t
  exact emb_eq_self _ y _ _ h0 h1 rfl rfl

/-- Reading the block of an array of the result's shape gives the array. -/
theorem read3_24 (t : Fin cfg3.N) (G : S64x3.Idx → EReal) : ((cfg3.win 24).blk t).view.read (Elt Ideal) G = G := by
  funext y
  show G (((cfg3.win 24).blk t).view.emb y) = G y
  rw [emb3_24]

/-- The one block covers the array. -/
theorem mem_blk3_24 (t : Fin cfg3.N) (i : S64x3.Idx) : i ∈ ((cfg3.win 24).blk t).view.set := by
  rw [← emb3_24 t i]
  exact Finset.mem_map_of_mem _ (Finset.mem_univ _)

/-! ## The array after the run -/

/-- What the body leaves in the output buffer, as the tree of payloads of its loaded blocks: the one store through the whole
    buffer leaves its payload, and each load through a whole buffer reads the buffer. -/
theorem out3_24_eq (x0 : Vec Ideal S64x128 .f32) (x1 : Vec Ideal S64x1 .f32) (x2 : Vec Ideal S64x16 .i32) (x3 : Vec Ideal S64x16 .i32) (x4 : Vec Ideal S64x16 .i32) (x5 : Vec Ideal S64x1 .i32) (x6 : Vec Ideal S64x8 .f32) (x7 : Vec Ideal S64x6 .f32) (x8 : Vec Ideal S128x128 .f32) (x9 : Vec Ideal S1x128 .f32) (x10 : Vec Ideal S5x64 .f32) (x11 : Vec Ideal S6x64 .f32) (x12 : Vec Ideal S10x64 .f32) (x13 : Vec Ideal S192x128 .f32) (x14 : Vec Ideal S1x128 .f32) (x15 : Vec Ideal S2x16 .f32) (x16 : Vec Ideal S8x16 .f32) (x17 : Vec Ideal S1x16 .f32) (x18 : Vec Ideal S6x16 .f32) (x19 : Vec Ideal S1x16 .f32) (x20 : Vec Ideal S304x128 .f32) (x21 : Vec Ideal S1x128 .f32) (x22 : Vec Ideal S128x3 .f32) (x23 : Vec Ideal S1x3 .f32) :
    out3_24 (F := Ideal) x0 x1 x2 x3 x4 x5 x6 x7 x8 x9 x10 x11 x12 x13 x14 x15 x16 x17 x18 x19 x20 x21 x22 x23
      = k3_pay26 (k3_pay1 x0 x1 x8 x9)
          (k3_pay22 (k3_pay19 (k3_pay5 x2 (k3_pay2 x2) (k3_pay3 x2) (k3_pay4 x2)) x10)
            (k3_pay20 (k3_pay9 x3 (k3_pay6 x3) (k3_pay7 x3) (k3_pay8 x3)) x11)
            (k3_pay21 x4 (k3_pay10 x4) (k3_pay12 (k3_pay11 x4)) (k3_pay13 x4) (k3_pay14 x4) (k3_pay15 x4) (k3_pay16 x4) (k3_pay17 x4) (k3_pay18 x4) (Scalar.ofBits .f32 0x3F800000#32) x12)
            x13 x14)
          (k3_pay23 x5 x15) (k3_pay24 x6 x16) (k3_pay25 x17) x7 x18 x19 x20 x21 x22 x23 := by
  unfold out3_24
  rw [View.canon_unit_zero hz]
  simp only [View.ld_unit_zero (S := S64x128) hz, View.ld_unit_zero (S := S64x1) hz, View.ld_unit_zero (S := S128x128) hz,
    View.ld_unit_zero (S := S1x128) hz, View.ld_unit_zero (S := S64x16) hz, View.ld_unit_zero (S := S5x64) hz,
    View.ld_unit_zero (S := S6x64) hz, View.ld_unit_zero (S := S10x64) hz, View.ld_unit_zero (S := S192x128) hz,
    View.ld_unit_zero (S := S2x16) hz, View.ld_unit_zero (S := S64x8) hz, View.ld_unit_zero (S := S8x16) hz,
    View.ld_unit_zero (S := S1x16) hz, View.ld_unit_zero (S := S64x6) hz, View.ld_unit_zero (S := S6x16) hz,
    View.ld_unit_zero (S := S304x128) hz, View.ld_unit_zero (S := S128x3) hz, View.ld_unit_zero (S := S1x3) hz]

/-- The output buffer's contents depend only on the contents of the input blocks. -/
theorem out3_24_congr {a0 b0 : Vec Ideal S64x128 .f32} {a1 b1 : Vec Ideal S64x1 .f32} {a2 b2 : Vec Ideal S64x16 .i32} {a3 b3 : Vec Ideal S64x16 .i32} {a4 b4 : Vec Ideal S64x16 .i32} {a5 b5 : Vec Ideal S64x1 .i32} {a6 b6 : Vec Ideal S64x8 .f32} {a7 b7 : Vec Ideal S64x6 .f32} {a8 b8 : Vec Ideal S128x128 .f32} {a9 b9 : Vec Ideal S1x128 .f32} {a10 b10 : Vec Ideal S5x64 .f32} {a11 b11 : Vec Ideal S6x64 .f32} {a12 b12 : Vec Ideal S10x64 .f32} {a13 b13 : Vec Ideal S192x128 .f32} {a14 b14 : Vec Ideal S1x128 .f32} {a15 b15 : Vec Ideal S2x16 .f32} {a16 b16 : Vec Ideal S8x16 .f32} {a17 b17 : Vec Ideal S1x16 .f32} {a18 b18 : Vec Ideal S6x16 .f32} {a19 b19 : Vec Ideal S1x16 .f32} {a20 b20 : Vec Ideal S304x128 .f32} {a21 b21 : Vec Ideal S1x128 .f32} {a22 b22 : Vec Ideal S128x3 .f32} {a23 b23 : Vec Ideal S1x3 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) :
    out3_24 (F := Ideal) a0 a1 a2 a3 a4 a5 a6 a7 a8 a9 a10 a11 a12 a13 a14 a15 a16 a17 a18 a19 a20 a21 a22 a23
      = out3_24 (F := Ideal) b0 b1 b2 b3 b4 b5 b6 b7 b8 b9 b10 b11 b12 b13 b14 b15 b16 b17 b18 b19 b20 b21 b22 b23 := by
  subst h0 h1 h2 h3 h4 h5 h6 h7 h8 h9 h10 h11 h12 h13 h14 h15 h16 h17 h18 h19 h20 h21 h22 h23
  rfl

/-- What the body leaves in the output buffer at the one point: the tree of payloads of the region-entry arrays. -/
theorem after3_24_eq (c : Dev nD) (t : Fin cfg3.N) :
    (dat3 (F := Ideal) V c).after 24 t
      = k3_pay26 (k3_pay1 (V c main_v65_0) (V c main_v65_1) (V c main_arg13) (V c main_v67))
          (k3_pay22 (k3_pay19 (k3_pay5 (V c main_arg3) (k3_pay2 (V c main_arg3)) (k3_pay3 (V c main_arg3)) (k3_pay4 (V c main_arg3))) (V c main_arg15))
            (k3_pay20 (k3_pay9 (V c main_arg4) (k3_pay6 (V c main_arg4)) (k3_pay7 (V c main_arg4)) (k3_pay8 (V c main_arg4))) (V c main_arg16))
            (k3_pay21 (V c main_arg5) (k3_pay10 (V c main_arg5)) (k3_pay12 (k3_pay11 (V c main_arg5))) (k3_pay13 (V c main_arg5)) (k3_pay14 (V c main_arg5)) (k3_pay15 (V c main_arg5)) (k3_pay16 (V c main_arg5)) (k3_pay17 (V c main_arg5)) (k3_pay18 (V c main_arg5)) (Scalar.ofBits .f32 0x3F800000#32) (V c main_arg17))
            (V c main_arg18) (V c main_v68))
          (k3_pay23 (V c main_v66) (V c main_arg20)) (k3_pay24 (V c main_arg7) (V c main_arg21)) (k3_pay25 (V c main_v69)) (V c main_arg8) (V c main_arg23) (V c main_v70) (V c main_arg25) (V c main_v71) (V c main_arg27) (V c main_v72) :=
  (after3_24 (F := Ideal) V c t).trans
    ((out3_24_congr (blk3_0 V c t) (blk3_1 V c t) (blk3_2 V c t) (blk3_3 V c t) (blk3_4 V c t) (blk3_5 V c t) (blk3_6 V c t) (blk3_7 V c t)
        (blk3_8 V c t) (blk3_9 V c t) (blk3_10 V c t) (blk3_11 V c t) (blk3_12 V c t) (blk3_13 V c t) (blk3_14 V c t) (blk3_15 V c t)
        (blk3_16 V c t) (blk3_17 V c t) (blk3_18 V c t) (blk3_19 V c t) (blk3_20 V c t) (blk3_21 V c t) (blk3_22 V c t) (blk3_23 V c t)).trans
      (out3_24_eq _ _ _ _ _ _ _ _ _ _ _ _ _ _ _ _ _ _ _ _ _ _ _ _))

/-- The result array after region 3's run is the reference's result at the contents the region was entered with: the pooled sums
    and counts are the reference's (`hgsum`, `hcnt`), the reshaped identifier column and bias rows are the reference's vectors,
    and the four index inputs are in the range of the table each one indexes. -/
theorem arr (c : Dev nD)
    (x0 : (⟨S100000x6, .f32⟩ : BufTy).Contents (Elt Ideal)) (x1 : (⟨S2x600000, .i32⟩ : BufTy).Contents (Elt Ideal)) (x2 : (⟨S100000, .i32⟩ : BufTy).Contents (Elt Ideal)) (x9 : (⟨S6x128, .f32⟩ : BufTy).Contents (Elt Ideal))
    (x10 : (⟨S128, .f32⟩ : BufTy).Contents (Elt Ideal)) (x11 : (⟨S128x128, .f32⟩ : BufTy).Contents (Elt Ideal)) (x12 : (⟨S128, .f32⟩ : BufTy).Contents (Elt Ideal))
    (x6 : (⟨S64, .i32⟩ : BufTy).Contents (Elt Ideal)) (x14 x19 x26 : (⟨S128, .f32⟩ : BufTy).Contents (Elt Ideal)) (x22 x24 : (⟨S16, .f32⟩ : BufTy).Contents (Elt Ideal)) (x28 : (⟨S3, .f32⟩ : BufTy).Contents (Elt Ideal))
    (hgsum : ∀ (b : Fin 64) (k : Fin 128), (V c main_v65_0 : S64x128.Idx → EReal) (ix2 b k) = Cert.ReferenceIdeal.Read.val_main_v70 (F := Ideal) x0 x1 x2 x9 x10 x11 x12 (ix2 b k))
    (hcnt : ∀ b : Fin 64, (V c main_v65_1 : S64x1.Idx → EReal) (ix2 b 0) = Cert.ReferenceIdeal.Read.val_main_v67 (F := Ideal) x2 (ix1 b))
    (hkid : ∀ b : Fin 64, (V c main_v66 : S64x1.Idx → BitVec 32) (ix2 b 0) = x6 (ix1 b))
    (hbg : ∀ j : Fin 128, (V c main_v67 : S1x128.Idx → EReal) (ix2 0 j) = x14 (ix1 j))
    (hbp : ∀ j : Fin 128, (V c main_v68 : S1x128.Idx → EReal) (ix2 0 j) = x19 (ix1 j))
    (hbc : ∀ j : Fin 16, (V c main_v69 : S1x16.Idx → EReal) (ix2 0 j) = x22 (ix1 j))
    (hbl : ∀ j : Fin 16, (V c main_v70 : S1x16.Idx → EReal) (ix2 0 j) = x24 (ix1 j))
    (hbm1 : ∀ j : Fin 128, (V c main_v71 : S1x128.Idx → EReal) (ix2 0 j) = x26 (ix1 j))
    (hbm2 : ∀ j : Fin 3, (V c main_v72 : S1x3.Idx → EReal) (ix2 0 j) = x28 (ix1 j))
    (r3 : ∀ (b : Fin 64) (s : Fin 16), 0 ≤ ((V c main_arg3 : S64x16.Idx → BitVec 32) (ix2 b s)).toInt ∧ ((V c main_arg3 : S64x16.Idx → BitVec 32) (ix2 b s)).toInt < 5)
    (r4 : ∀ (b : Fin 64) (s : Fin 16), 0 ≤ ((V c main_arg4 : S64x16.Idx → BitVec 32) (ix2 b s)).toInt ∧ ((V c main_arg4 : S64x16.Idx → BitVec 32) (ix2 b s)).toInt < 6)
    (r5 : ∀ (b : Fin 64) (s : Fin 16), 0 ≤ ((V c main_arg5 : S64x16.Idx → BitVec 32) (ix2 b s)).toInt ∧ ((V c main_arg5 : S64x16.Idx → BitVec 32) (ix2 b s)).toInt < 10)
    (r6 : ∀ b : Fin 64, 0 ≤ (x6 (ix1 b)).toInt ∧ (x6 (ix1 b)).toInt < 2) :
    ((dat3 (F := Ideal) V c).arrAt 24 cfg3.N : S64x3.Idx → EReal)
      = Cert.ReferenceIdeal.Read.val_main_v136 (F := Ideal) x0 x1 x2 (V c main_arg3) (V c main_arg4) (V c main_arg5) x6 (V c main_arg7) (V c main_arg8) x9 x10 x11 x12
          (V c main_arg13) x14 (V c main_arg15) (V c main_arg16) (V c main_arg17) (V c main_arg18) x19 (V c main_arg20) (V c main_arg21) x22
          (V c main_arg23) x24 (V c main_arg25) x26 (V c main_arg27) x28 := by
  refine (dat3 (F := Ideal) V c).arrAt_eq_of_cover 24 _ (fun t _ => ?_) (fun i => ⟨t3_0, flush3_24 t3_0, mem_blk3_24 t3_0 i⟩)
  refine Eq.trans ?_ (read3_24 t _).symm
  show (cfg3.win 24).cut (grid3.coords t) ((dat3 (F := Ideal) V c).after 24 t) = _
  rw [after3_24_eq]
  funext y
  obtain ⟨b, o, rfl⟩ : ∃ (b : Fin 64) (o : Fin 3), y = ix2 b o := ⟨y 0, y 1, eq_ix2 y⟩
  refine FusionOut.out_part x0 x1 x2 x9 x10 x11 x12 (V c main_arg3) (V c main_arg4) (V c main_arg5) x6 (V c main_arg7) (V c main_arg8)
    (V c main_arg13) x14 (V c main_arg15) (V c main_arg16) (V c main_arg17) (V c main_arg18) x19 (V c main_arg20) (V c main_arg21) x22
    (V c main_arg23) x24 (V c main_arg25) x26 (V c main_arg27) x28 _ _ _ (V c main_v69) (V c main_v70) (V c main_v71) (V c main_v72)
    (fun b j => ?_) (fun b j => ?_) (fun b j => ?_) hbc hbl hbm1 hbm2 b o
  · exact FusionG.g_part x0 x1 x2 x9 x10 x11 x12 (V c main_arg13) x14 (V c main_v65_0) (V c main_v65_1) (V c main_v67) hgsum hcnt hbg b j
  · exact FusionP.p_part (V c main_arg3) (V c main_arg4) (V c main_arg5) (V c main_arg15) (V c main_arg16) (V c main_arg17)
      (V c main_arg18) x19 (V c main_v68) _ _ _
      (fun b j => FusionEmb.emb_t (V c main_arg3) (V c main_arg15) r3 b j)
      (fun b j => FusionEmb.emb_k (V c main_arg4) (V c main_arg16) r4 b j)
      (fun b j => FusionEmb.emb_v (V c main_arg5) (V c main_arg17) r5 b j) hbp b j
  · exact FusionK.k_part x6 (V c main_arg20) (V c main_v66) hkid r6 b j

end Cert.KernelIdeal.Fusion

end
-- ==== Proof.Chain.lean ====
/- The kernel's result is the reference's result. Region by region (at the extended reals): the first product is the reference's first
   dot-product stage; through the first layer's host stretch, the second product is the second; through the second layer's stretch,
   the pooled sums and counts are the reference's two accumulating scatters; and the fused tail, entered with those and with the
   arguments, leaves the reference's last stage in the result buffer. -/
import proofs.«427600_j46136538693914_1_alg».proof.Proof.ChainW4
import proofs.«427600_j46136538693914_1_alg».proof.Proof.ChainW6
import proofs.«427600_j46136538693914_1_alg».proof.Proof.ChainW8
import proofs.«427600_j46136538693914_1_alg».proof.Proof.Mat0
import proofs.«427600_j46136538693914_1_alg».proof.Proof.Mat1
import proofs.«427600_j46136538693914_1_alg».proof.Proof.Pool
import proofs.«427600_j46136538693914_1_alg».proof.Proof.Fusion

set_option maxRecDepth 16384

noncomputable section

namespace Cert.KernelIdeal.Chain

open Cert.KernelIdeal Cert.KernelIdeal.Gen Cert.KernelIdeal.GenP
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- The first product is the reference's first dot-product stage. -/
theorem w2_v30 : W2 m ρ c (Proc.devRef .tc main_v30) = Cert.ReferenceIdeal.Read.val_main_v30 (F := Ideal) (arg m c main_arg0) (arg m c main_arg9) := by
  refine (W2_arr m ρ c 2).trans ((Cert.KernelIdeal.Mat0.arr (V1 m ρ) c).trans ?_)
  rw [show V1 m ρ c main_arg0 = arg m c main_arg0 from w1_arg0 m ρ c, show V1 m ρ c main_arg9 = arg m c main_arg9 from w1_arg9 m ρ c]
  rfl

/-- The first layer's output is the reference's. -/
theorem w4_v46 : W4 m ρ c (Proc.devRef .tc main_v46) = Cert.ReferenceIdeal.Read.val_main_v46 (F := Ideal) (arg m c main_arg0) (arg m c main_arg1) (arg m c main_arg9) (arg m c main_arg10) :=
  w4_v46_of m ρ c (w2_v30 m ρ c)

/-- The second product is the reference's second dot-product stage. -/
theorem w5_v47 : W5 m ρ c (Proc.devRef .tc main_v47) = Cert.ReferenceIdeal.Read.val_main_v47 (F := Ideal) (arg m c main_arg0) (arg m c main_arg1) (arg m c main_arg9) (arg m c main_arg10) (arg m c main_arg11) := by
  refine (W5_arr m ρ c 2).trans ((Cert.KernelIdeal.Mat1.arr (V4 m ρ) c).trans ?_)
  rw [show V4 m ρ c main_v46 = _ from w4_v46 m ρ c, show V4 m ρ c main_arg11 = arg m c main_arg11 from w4_arg11 m ρ c]
  rfl

/-- The second layer's output (with the residual) is the reference's. -/
theorem w6_v63 : W6 m ρ c (Proc.devRef .tc main_v63) = Cert.ReferenceIdeal.Read.val_main_v63 (F := Ideal) (arg m c main_arg0) (arg m c main_arg1) (arg m c main_arg9) (arg m c main_arg10) (arg m c main_arg11) (arg m c main_arg12) :=
  w6_v63_of m ρ c (w5_v47 m ρ c) (w5_v46_of m ρ c _ (w4_v46 m ρ c))

/-- The pooled sums are the reference's accumulating scatter of the node rows. -/
theorem w7_gsum : W7 m ρ c (Proc.devRef .tc main_v65_0)
    = Cert.ReferenceIdeal.Read.val_main_v70 (F := Ideal) (arg m c main_arg0) (arg m c main_arg1) (arg m c main_arg2) (arg m c main_arg9) (arg m c main_arg10) (arg m c main_arg11) (arg m c main_arg12) := by
  refine (W7_arr m ρ c 2).trans ((Cert.KernelIdeal.Pool.gsum (V6 m ρ) c).trans ?_)
  rw [show V6 m ρ c main_v64 = _ from w6_v64 m ρ c, show V6 m ρ c main_v63 = _ from w6_v63 m ρ c]
  rfl

/-- The pooled counts, row by row, are the reference's accumulating scatter of ones. -/
theorem w7_cnt (b : Fin 64) : (W7 m ρ c (Proc.devRef .tc main_v65_1) : S64x1.Idx → EReal) (ix2 b 0)
    = Cert.ReferenceIdeal.Read.val_main_v67 (F := Ideal) (arg m c main_arg2) (ix1 b) := by
  have h := Cert.KernelIdeal.Pool.cnt (V6 m ρ) c b
  rw [show V6 m ρ c main_v64 = _ from w6_v64 m ρ c] at h
  exact (congrFun (W7_arr m ρ c 3) (ix2 b 0)).trans (h.trans rfl)

/-- The reference's last stage at arguments that are pairwise equal. -/
theorem last_stage_congr (x0 : (⟨S100000x6, .f32⟩ : BufTy).Contents (Elt Ideal)) (x1 : (⟨S2x600000, .i32⟩ : BufTy).Contents (Elt Ideal)) (x2 : (⟨S100000, .i32⟩ : BufTy).Contents (Elt Ideal)) (x3 : (⟨S64x16, .i32⟩ : BufTy).Contents (Elt Ideal)) (x4 : (⟨S64x16, .i32⟩ : BufTy).Contents (Elt Ideal)) (x5 : (⟨S64x16, .i32⟩ : BufTy).Contents (Elt Ideal)) (x6 : (⟨S64, .i32⟩ : BufTy).Contents (Elt Ideal)) (x7 : (⟨S64x8, .f32⟩ : BufTy).Contents (Elt Ideal)) (x8 : (⟨S64x6, .f32⟩ : BufTy).Contents (Elt Ideal)) (x9 : (⟨S6x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S5x64, .f32⟩ : BufTy).Contents (Elt Ideal)) (x16 : (⟨S6x64, .f32⟩ : BufTy).Contents (Elt Ideal)) (x17 : (⟨S10x64, .f32⟩ : BufTy).Contents (Elt Ideal)) (x18 : (⟨S192x128, .f32⟩ : BufTy).Contents (Elt Ideal)) (x19 : (⟨S128, .f32⟩ : BufTy).Contents (Elt Ideal)) (x20 : (⟨S2x16, .f32⟩ : BufTy).Contents (Elt Ideal)) (x21 : (⟨S8x16, .f32⟩ : BufTy).Contents (Elt Ideal)) (x22 : (⟨S16, .f32⟩ : BufTy).Contents (Elt Ideal)) (x23 : (⟨S6x16, .f32⟩ : BufTy).Contents (Elt Ideal)) (x24 : (⟨S16, .f32⟩ : BufTy).Contents (Elt Ideal)) (x25 : (⟨S304x128, .f32⟩ : BufTy).Contents (Elt Ideal)) (x26 : (⟨S128, .f32⟩ : BufTy).Contents (Elt Ideal)) (x27 : (⟨S128x3, .f32⟩ : BufTy).Contents (Elt Ideal)) (x28 : (⟨S3, .f32⟩ : BufTy).Contents (Elt Ideal))
    (y3 : (⟨S64x16, .i32⟩ : BufTy).Contents (Elt Ideal)) (y4 : (⟨S64x16, .i32⟩ : BufTy).Contents (Elt Ideal)) (y5 : (⟨S64x16, .i32⟩ : BufTy).Contents (Elt Ideal)) (y7 : (⟨S64x8, .f32⟩ : BufTy).Contents (Elt Ideal)) (y8 : (⟨S64x6, .f32⟩ : BufTy).Contents (Elt Ideal)) (y13 : (⟨S128x128, .f32⟩ : BufTy).Contents (Elt Ideal)) (y15 : (⟨S5x64, .f32⟩ : BufTy).Contents (Elt Ideal)) (y16 : (⟨S6x64, .f32⟩ : BufTy).Contents (Elt Ideal)) (y17 : (⟨S10x64, .f32⟩ : BufTy).Contents (Elt Ideal)) (y18 : (⟨S192x128, .f32⟩ : BufTy).Contents (Elt Ideal)) (y20 : (⟨S2x16, .f32⟩ : BufTy).Contents (Elt Ideal)) (y21 : (⟨S8x16, .f32⟩ : BufTy).Contents (Elt Ideal)) (y23 : (⟨S6x16, .f32⟩ : BufTy).Contents (Elt Ideal)) (y25 : (⟨S304x128, .f32⟩ : BufTy).Contents (Elt Ideal)) (y27 : (⟨S128x3, .f32⟩ : BufTy).Contents (Elt Ideal))
    (h3 : y3 = x3) (h4 : y4 = x4) (h5 : y5 = x5) (h7 : y7 = x7) (h8 : y8 = x8) (h13 : y13 = x13) (h15 : y15 = x15) (h16 : y16 = x16) (h17 : y17 = x17) (h18 : y18 = x18) (h20 : y20 = x20) (h21 : y21 = x21) (h23 : y23 = x23) (h25 : y25 = x25) (h27 : y27 = x27) :
    Cert.ReferenceIdeal.Read.val_main_v136 (F := Ideal) x0 x1 x2 y3 y4 y5 x6 y7 y8 x9 x10 x11 x12 y13 x14 y15 y16 y17 y18 x19 y20 y21 x22 y23 x24 y25 x26 y27 x28 = Cert.ReferenceIdeal.Read.val_main_v136 (F := Ideal) x0 x1 x2 x3 x4 x5 x6 x7 x8 x9 x10 x11 x12 x13 x14 x15 x16 x17 x18 x19 x20 x21 x22 x23 x24 x25 x26 x27 x28 := by
  subst h3; subst h4; subst h5; subst h7; subst h8; subst h13; subst h15; subst h16; subst h17; subst h18; subst h20; subst h21; subst h23; subst h25; subst h27
  rfl

/-- THE KERNEL'S RESULT: the result buffer after the last region is the reference's last stage at the launch arguments, when the four
    index inputs are in the range of the table each one indexes. -/
theorem result
    (r3 : ∀ i : S64x16.Idx, 0 ≤ (((arg m c main_arg3) : S64x16.Idx → BitVec 32) i).toInt ∧ (((arg m c main_arg3) : S64x16.Idx → BitVec 32) i).toInt < 5)
    (r4 : ∀ i : S64x16.Idx, 0 ≤ (((arg m c main_arg4) : S64x16.Idx → BitVec 32) i).toInt ∧ (((arg m c main_arg4) : S64x16.Idx → BitVec 32) i).toInt < 6)
    (r5 : ∀ i : S64x16.Idx, 0 ≤ (((arg m c main_arg5) : S64x16.Idx → BitVec 32) i).toInt ∧ (((arg m c main_arg5) : S64x16.Idx → BitVec 32) i).toInt < 10)
    (r6 : ∀ i : S64.Idx, 0 ≤ (((arg m c main_arg6) : S64.Idx → BitVec 32) i).toInt ∧ (((arg m c main_arg6) : S64.Idx → BitVec 32) i).toInt < 2) :
    W9 m ρ c (Proc.devRef .tc main_v73) = Cert.ReferenceIdeal.Read.val_main_v136 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) := by
  have hg := v8_gsum_of m ρ c _ (w7_gsum m ρ c)
  have hc := v8_cnt_of m ρ c _ (rfl : W7 m ρ c (Proc.devRef .tc main_v65_1) = _)
  have key := Cert.KernelIdeal.Fusion.arr (V8 m ρ) c (arg m c main_arg0) (arg m c main_arg1) (arg m c main_arg2) (arg m c main_arg9) (arg m c main_arg10) (arg m c main_arg11) (arg m c main_arg12) (arg m c main_arg6) (arg m c main_arg14) (arg m c main_arg19) (arg m c main_arg26) (arg m c main_arg22) (arg m c main_arg24) (arg m c main_arg28)
    (fun b k => congrFun hg (ix2 b k))
    (fun b => (congrFun hc (ix2 b 0)).trans (w7_cnt m ρ c b))
    (v8_kid m ρ c) (v8_bg m ρ c) (v8_bp m ρ c) (v8_bc m ρ c) (v8_bl m ρ c) (v8_bm1 m ρ c) (v8_bm2 m ρ c)
    (fun b s => by rw [v8_arg3 m ρ c]; exact r3 _) (fun b s => by rw [v8_arg4 m ρ c]; exact r4 _) (fun b s => by rw [v8_arg5 m ρ c]; exact r5 _)
    (fun b => r6 _)
  exact (W9_arr m ρ c 24).trans (key.trans (last_stage_congr _ _ _ _ _ _ _ _ _ _ _ _ _ _ _ _ _ _ _ _ _ _ _ _ _ _ _ _ _ _ _ _ _ _ _ _ _ _ _ _ _ _ _ _
    (v8_arg3 m ρ c) (v8_arg4 m ρ c) (v8_arg5 m ρ c) (v8_arg7 m ρ c) (v8_arg8 m ρ c) (v8_arg13 m ρ c) (v8_arg15 m ρ c) (v8_arg16 m ρ c) (v8_arg17 m ρ c) (v8_arg18 m ρ c) (v8_arg20 m ρ c) (v8_arg21 m ρ c) (v8_arg23 m ρ c) (v8_arg25 m ρ c) (v8_arg27 m ρ c)))

end Cert.KernelIdeal.Chain

end
-- ==== Proof.lean ====
/- A graph network's forward pass in four kernel regions against its plain reference, over the extended reals.

   The program normalises a graph (self-loops appended, degrees by an accumulating scatter of ones, inverse square roots, one weight
   per edge), runs two graph-convolution layers (project, gather by source, scale by the edge weight, accumulating scatter by
   destination, bias; the first clipped below at zero, the second with a residual), pools the node rows into 64 segments (sums and
   counts), and fuses five feature blocks per segment (the projected pooled mean; the average of three embedding tables looked up by
   sixteen type, key and value indices, projected and clipped; an embedding of the kernel identifier; two small clipped affine maps)
   through two more layers. The kernel's program computes the two projections, the pooling and the whole fused tail in kernel regions and
   everything else by the reference's own host operations.

   At the extended reals a change of float format is the identity, so:
   * each projection region, tiled over twenty row blocks, is the one product of the whole arrays (Mat0, Mat1);
   * the host stretches between the regions are, operation for operation, the reference's stages (ChainW1, ChainW4, ChainW6, ChainW8);
   * the pooling region adds, tile by tile, the rows whose segment word equals the row number: the accumulating scatter of all rows, a
     word outside [0, 64) matching no row and being dropped by the scatter as well (PoolTile, Pool);
   * in the fused tail the table lookups are where the two programs differ in form: the kernel counts, class by class, how many of the
     sixteen indices equal the class and multiplies the counts by the table, the reference gathers the sixteen rows and averages them.
     For indices inside the table these are one sum regrouped by class (FusionEmb); outside it they are not, which is why the
     precondition carries the four index ranges (PreFacts). The other blocks and the last layers are the same operations on equal
     operands (FusionG, FusionK, FusionP, FusionOut, Fusion).
   Chain puts the boundaries together: the kernel's result buffer ends at the reference's last stage of the launch arguments. The frames
   are the generated ones (the two frame modules in patched copies, one more call of the launch theorem naming the result); the
   reference's frame and value are its generated run; the ideal pass rewrote nothing, so `preserves` is trivial. -/
import proofs.«427600_j46136538693914_1_alg».proof.Defs
import proofs.«427600_j46136538693914_1_alg».proof.Proof.Gen.Kernel
import proofs.«427600_j46136538693914_1_alg».proof.Proof.Gen.KernelIdeal
import proofs.«427600_j46136538693914_1_alg».proof.Proof.Gen.ReferenceIdeal
import proofs.«427600_j46136538693914_1_alg».proof.Proof.Gen.Pre_finite_inputs
import proofs.«427600_j46136538693914_1_alg».proof.Proof.KernelFrameP
import proofs.«427600_j46136538693914_1_alg».proof.Proof.KernelIdealFrameP
import proofs.«427600_j46136538693914_1_alg».proof.Proof.KernelIdealRun
import proofs.«427600_j46136538693914_1_alg».proof.Proof.Gen.ReferenceIdeal.Run
import proofs.«427600_j46136538693914_1_alg».proof.Proof.Gen.ReferenceIdeal.Read
import proofs.«427600_j46136538693914_1_alg».proof.Proof.PreFacts
import proofs.«427600_j46136538693914_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

/-- The reference's last stage at arguments that are pairwise equal. -/
theorem last_stage_congr (x0 y0 : (⟨Cert.ReferenceIdeal.S100000x6, .f32⟩ : BufTy).Contents (Elt Ideal)) (x1 y1 : (⟨Cert.ReferenceIdeal.S2x600000, .i32⟩ : BufTy).Contents (Elt Ideal)) (x2 y2 : (⟨Cert.ReferenceIdeal.S100000, .i32⟩ : BufTy).Contents (Elt Ideal)) (x3 y3 : (⟨Cert.ReferenceIdeal.S64x16, .i32⟩ : BufTy).Contents (Elt Ideal)) (x4 y4 : (⟨Cert.ReferenceIdeal.S64x16, .i32⟩ : BufTy).Contents (Elt Ideal)) (x5 y5 : (⟨Cert.ReferenceIdeal.S64x16, .i32⟩ : BufTy).Contents (Elt Ideal)) (x6 y6 : (⟨Cert.ReferenceIdeal.S64, .i32⟩ : BufTy).Contents (Elt Ideal)) (x7 y7 : (⟨Cert.ReferenceIdeal.S64x8, .f32⟩ : BufTy).Contents (Elt Ideal)) (x8 y8 : (⟨Cert.ReferenceIdeal.S64x6, .f32⟩ : BufTy).Contents (Elt Ideal)) (x9 y9 : (⟨Cert.ReferenceIdeal.S6x128, .f32⟩ : BufTy).Contents (Elt Ideal)) (x10 y10 : (⟨Cert.ReferenceIdeal.S128, .f32⟩ : BufTy).Contents (Elt Ideal)) (x11 y11 : (⟨Cert.ReferenceIdeal.S128x128, .f32⟩ : BufTy).Contents (Elt Ideal)) (x12 y12 : (⟨Cert.ReferenceIdeal.S128, .f32⟩ : BufTy).Contents (Elt Ideal)) (x13 y13 : (⟨Cert.ReferenceIdeal.S128x128, .f32⟩ : BufTy).Contents (Elt Ideal)) (x14 y14 : (⟨Cert.ReferenceIdeal.S128, .f32⟩ : BufTy).Contents (Elt Ideal)) (x15 y15 : (⟨Cert.ReferenceIdeal.S5x64, .f32⟩ : BufTy).Contents (Elt Ideal)) (x16 y16 : (⟨Cert.ReferenceIdeal.S6x64, .f32⟩ : BufTy).Contents (Elt Ideal)) (x17 y17 : (⟨Cert.ReferenceIdeal.S10x64, .f32⟩ : BufTy).Contents (Elt Ideal)) (x18 y18 : (⟨Cert.ReferenceIdeal.S192x128, .f32⟩ : BufTy).Contents (Elt Ideal)) (x19 y19 : (⟨Cert.ReferenceIdeal.S128, .f32⟩ : BufTy).Contents (Elt Ideal)) (x20 y20 : (⟨Cert.ReferenceIdeal.S2x16, .f32⟩ : BufTy).Contents (Elt Ideal)) (x21 y21 : (⟨Cert.ReferenceIdeal.S8x16, .f32⟩ : BufTy).Contents (Elt Ideal)) (x22 y22 : (⟨Cert.ReferenceIdeal.S16, .f32⟩ : BufTy).Contents (Elt Ideal)) (x23 y23 : (⟨Cert.ReferenceIdeal.S6x16, .f32⟩ : BufTy).Contents (Elt Ideal)) (x24 y24 : (⟨Cert.ReferenceIdeal.S16, .f32⟩ : BufTy).Contents (Elt Ideal)) (x25 y25 : (⟨Cert.ReferenceIdeal.S304x128, .f32⟩ : BufTy).Contents (Elt Ideal)) (x26 y26 : (⟨Cert.ReferenceIdeal.S128, .f32⟩ : BufTy).Contents (Elt Ideal)) (x27 y27 : (⟨Cert.ReferenceIdeal.S128x3, .f32⟩ : BufTy).Contents (Elt Ideal)) (x28 y28 : (⟨Cert.ReferenceIdeal.S3, .f32⟩ : BufTy).Contents (Elt Ideal))
    (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h11 : y11 = x11) (h12 : y12 = x12) (h13 : y13 = x13) (h14 : y14 = x14) (h15 : y15 = x15) (h16 : y16 = x16) (h17 : y17 = x17) (h18 : y18 = x18) (h19 : y19 = x19) (h20 : y20 = x20) (h21 : y21 = x21) (h22 : y22 = x22) (h23 : y23 = x23) (h24 : y24 = x24) (h25 : y25 = x25) (h26 : y26 = x26) (h27 : y27 = x27) (h28 : y28 = x28) :
    Cert.ReferenceIdeal.Read.val_main_v136 (F := Ideal) y0 y1 y2 y3 y4 y5 y6 y7 y8 y9 y10 y11 y12 y13 y14 y15 y16 y17 y18 y19 y20 y21 y22 y23 y24 y25 y26 y27 y28 = Cert.ReferenceIdeal.Read.val_main_v136 (F := Ideal) x0 x1 x2 x3 x4 x5 x6 x7 x8 x9 x10 x11 x12 x13 x14 x15 x16 x17 x18 x19 x20 x21 x22 x23 x24 x25 x26 x27 x28 := by
  subst h0; subst h1; subst h2; subst h3; subst h4; subst h5; subst h6; subst h7; subst h8; subst h9; subst h10; subst h11; subst h12; subst h13; subst h14; subst h15; subst h16; subst h17; subst h18; subst h19; subst h20; subst h21; subst h22; subst h23; subst h24; subst h25; subst h26; subst h27; subst h28
  rfl

section Claims
variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.GenP.frame m ρ
theorem frame_ki : Cert.frame_KernelIdeal := fun m ρ _ => Cert.KernelIdeal.GenP.frame m ρ
/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments and satisfy the precondition, end with the reference's last stage of
    the arguments in their result buffers: the kernel's by the chain of boundaries (the index ranges read off the precondition), the
    reference's by its generated run read stage by stage. -/
theorem algebraic : Cert.algebraic_KernelIdeal_ReferenceIdeal := by
  intro m ρ m' ρ' hpre hagree
  refine ⟨fun c => Cert.ReferenceIdeal.Read.val_main_v136 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)), ?_, ?_⟩
  · refine (θ_run Cert.KernelIdeal.defs _ _).mono (fun r h c => ⟨(h c).1.trans ?_, (h c).2⟩) (Cert.KernelIdeal.GenP.run_result (F := Ideal) m ρ)
    obtain ⟨r3, r4, r5, r6⟩ := Cert.PreFacts.ranges (F := Ideal) _ _ _ _ _ _ _ _ _ _ _ _ _ _ _ _ _ _ _ _ _ _ _ _ _ _ _ _ _ (hpre c)
    exact Cert.KernelIdeal.Chain.result m ρ c r3 r4 r5 r6
  · refine (θ_run Cert.ReferenceIdeal.defs _ _).mono (fun r h c => ⟨(h c).1.trans ?_, (h c).2⟩) (Cert.ReferenceIdeal.Value.run (F := Ideal) m' ρ')
    exact (Cert.ReferenceIdeal.Read.val_main_v136_eq m' c).trans (last_stage_congr _ _ _ _ _ _ _ _ _ _ _ _ _ _ _ _ _ _ _ _ _ _ _ _ _ _ _ _ _ _ _ _ _ _ _ _ _ _ _ _ _ _ _ _ _ _ _ _ _ _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1 (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2.1 (hagree c).2.2.2.2.2.2.2.2.2.2.2.2.2.2.2.2.2.2.2.2.2.2.2.1 (hagree c).2.2.2.2.2.2.2.2.2.2.2.2.2.2.2.2.2.2.2.2.2.2.2.2.1 (hagree c).2.2.2.2.2.2.2.2.2.2.2.2.2.2.2.2.2.2.2.2.2.2.2.2.2.1 (hagree c).2.2.2.2.2.2.2.2.2.2.2.2.2.2.2.2.2.2.2.2.2.2.2.2.2.2.1 (hagree c).2.2.2.2.2.2.2.2.2.2.2.2.2.2.2.2.2.2.2.2.2.2.2.2.2.2.2.1 (hagree c).2.2.2.2.2.2.2.2.2.2.2.2.2.2.2.2.2.2.2.2.2.2.2.2.2.2.2.2)

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
